-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1250000 : Shape := ⟨1, ![1250000]⟩
abbrev S192x64 : Shape := ⟨2, ![192, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S192x64 : S_.BroadcastsInDim S192x64 (![] : Fin 0 → Fin S192x64.rank)
  reducesTo_S192x64_S_d0_1 : S192x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x64 .f32) (main_arg1 : IVec S1250000 32) (main_arg2 : IVec S1250000 32) (main_arg3 : FVec F S192x64 .f32) (main_arg4 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S192x64 .f32 := Host.absf main_arg3
  let main_cst_0 : FVec F S_ .f32 := constant S_ .f32 0x7F800000#32
  let main_v5 : FVec F S192x64 .f32 := broadcastInDim S192x64 ![] bcast_S_S192x64 main_cst_0
  let main_v6 : IVec S192x64 1 := cmpf .olt main_v4 main_v5
  let main_c_1 : IVec S_ 1 := constantI S_ 1 1#1
  let main_v7 : IVec S_ 1 := (fun x v => Host.reduce IntOp.andi x v reducesTo_S192x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x64 : Shape := ⟨2, ![100000, 64]⟩
abbrev S1250000 : Shape := ⟨1, ![1250000]⟩
abbrev S192x64 : Shape := ⟨2, ![192, 64]⟩
abbrev S64 : Shape := ⟨1, ![64]⟩
abbrev S_ : Shape := ⟨0, ![]⟩
abbrev S100000 : Shape := ⟨1, ![100000]⟩
abbrev S1250000x1 : Shape := ⟨2, ![1250000, 1]⟩
abbrev S100000x1 : Shape := ⟨2, ![100000, 1]⟩
abbrev S10000x64 : Shape := ⟨2, ![10000, 64]⟩
abbrev S10000x1 : Shape := ⟨2, ![10000, 1]⟩
abbrev S1250000x64 : Shape := ⟨2, ![1250000, 64]⟩
abbrev S1x64 : Shape := ⟨2, ![1, 64]⟩
abbrev S64x64 : Shape := ⟨2, ![64, 64]⟩

abbrev nBuf : Space → Nat
  | .hbm => 52
  | .vmem => 40
  | .smem => 0
  | _ => 0

abbrev bufTy : (tb : Table) → Fin (tcTables nBuf tb) → BufTy
  | .hbm, ⟨0, _⟩ => ⟨S100000x64, .f32⟩
  | .hbm, ⟨1, _⟩ => ⟨S1250000, .i32⟩
  | .hbm, ⟨2, _⟩ => ⟨S1250000, .i32⟩
  | .hbm, ⟨3, _⟩ => ⟨S192x64, .f32⟩
  | .hbm, ⟨4, _⟩ => ⟨S64, .f32⟩
  | .hbm, ⟨5, _⟩ => ⟨S_, .f32⟩
  | .hbm, ⟨6, _⟩ => ⟨S1250000, .f32⟩
  | .hbm, ⟨7, _⟩ => ⟨S_, .f32⟩
  | .hbm, ⟨8, _⟩ => ⟨S100000, .f32⟩
  | .hbm, ⟨9, _⟩ => ⟨S1250000x1, .i32⟩
  | .hbm, ⟨10, _⟩ => ⟨S100000, .f32⟩
  | .hbm, ⟨11, _⟩ => ⟨S_, .f32⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S100000x1, .f32⟩
  | .hbm, ⟨16, _⟩ => ⟨S_, .f32⟩
  | .hbm, ⟨17, _⟩ => ⟨S100000x1, .f32⟩
  | .hbm, ⟨18, _⟩ => ⟨S100000x1, .f32⟩
  | .hbm, ⟨19, _⟩ => ⟨S100000x64, .f32⟩
  | .hbm, ⟨20, _⟩ => ⟨S_, .i32⟩
  | .hbm, ⟨21, _⟩ => ⟨S1250000, .i32⟩
  | .hbm, ⟨22, _⟩ => ⟨S1250000, .i1⟩
  | .hbm, ⟨23, _⟩ => ⟨S_, .i32⟩
  | .hbm, ⟨24, _⟩ => ⟨S1250000, .i32⟩
  | .hbm, ⟨25, _⟩ => ⟨S1250000, .i32⟩
  | .hbm, ⟨26, _⟩ => ⟨S1250000, .i32⟩
  | .hbm, ⟨27, _⟩ => ⟨S1250000x1, .i32⟩
  | .hbm, ⟨28, _⟩ => ⟨S1250000x64, .f32⟩
  | .hbm, ⟨29, _⟩ => ⟨S_, .f32⟩
  | .hbm, ⟨30, _⟩ => ⟨S100000x64, .f32⟩
  | .hbm, ⟨31, _⟩ => ⟨S1250000x1, .i32⟩
  | .hbm, ⟨32, _⟩ => ⟨S100000x64, .f32⟩
  | .hbm, ⟨33, _⟩ => ⟨S100000x64, .f32⟩
  | .hbm, ⟨34, _⟩ => ⟨S100000x64, .f32⟩
  | .hbm, ⟨35, _⟩ => ⟨S_, .i32⟩
  | .hbm, ⟨36, _⟩ => ⟨S1250000, .i32⟩
  | .hbm, ⟨37, _⟩ => ⟨S1250000, .i1⟩
  | .hbm, ⟨38, _⟩ => ⟨S_, .i32⟩
  | .hbm, ⟨39, _⟩ => ⟨S1250000, .i32⟩
  | .hbm, ⟨40, _⟩ => ⟨S1250000, .i32⟩
  | .hbm, ⟨41, _⟩ => ⟨S1250000, .i32⟩
  | .hbm, ⟨42, _⟩ => ⟨S1250000x1, .i32⟩
  | .hbm, ⟨43, _⟩ => ⟨S1250000x64, .f32⟩
  | .hbm, ⟨44, _⟩ => ⟨S_, .f32⟩
  | .hbm, ⟨45, _⟩ => ⟨S100000x64, .f32⟩
  | .hbm, ⟨46, _⟩ => ⟨S1250000x1, .i32⟩
  | .hbm, ⟨47, _⟩ => ⟨S100000x64, .f32⟩
  | .hbm, ⟨48, _⟩ => ⟨S100000x64, .f32⟩
  | .hbm, ⟨49, _⟩ => ⟨S100000x64, .f32⟩
  | .hbm, ⟨50, _⟩ => ⟨S1x64, .f32⟩
  | .hbm, ⟨51, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x1, .f32⟩
  | .local _ .vmem, ⟨3, _⟩ => ⟨S10000x1, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x1, .f32⟩
  | .local _ .vmem, ⟨9, _⟩ => ⟨S10000x1, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x1, .f32⟩
  | .local _ .vmem, ⟨21, _⟩ => ⟨S10000x1, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S10000x64, .f32⟩
  | .local _ .vmem, ⟨31, _⟩ => ⟨S10000x64, .f32⟩
  | .local _ .vmem, ⟨32, _⟩ => ⟨S10000x64, .f32⟩
  | .local _ .vmem, ⟨33, _⟩ => ⟨S10000x64, .f32⟩
  | .local _ .vmem, ⟨34, _⟩ => ⟨S10000x64, .f32⟩
  | .local _ .vmem, ⟨35, _⟩ => ⟨S10000x64, .f32⟩
  | .local _ .vmem, ⟨36, _⟩ => ⟨S192x64, .f32⟩
  | .local _ .vmem, ⟨37, _⟩ => ⟨S1x64, .f32⟩
  | .local _ .vmem, ⟨38, _⟩ => ⟨S10000x64, .f32⟩
  | .local _ .vmem, ⟨39, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_c_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19_0 : Ref sig .tc := ⟨.hbm, 33, rfl⟩
abbrev main_v19_1 : Ref sig .tc := ⟨.hbm, 34, rfl⟩
abbrev main_c_5 : Ref sig .tc := ⟨.hbm, 35, rfl⟩
abbrev main_v20 : Ref sig .tc := ⟨.hbm, 36, rfl⟩
abbrev main_v21 : Ref sig .tc := ⟨.hbm, 37, rfl⟩
abbrev main_c_6 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30_0 : Ref sig .tc := ⟨.hbm, 48, rfl⟩
abbrev main_v30_1 : Ref sig .tc := ⟨.hbm, 49, rfl⟩
abbrev main_v31 : Ref sig .tc := ⟨.hbm, 50, rfl⟩
abbrev main_v32 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem4_1 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem4_0 : DmaSem sig := 37
abbrev cc3_sem5_0 : DmaSem sig := 38
abbrev cc3_sem5_1 : DmaSem sig := 39

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S10000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S192x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  bcast_S_S1250000 : S_.BroadcastsInDim S1250000 (![] : Fin 0 → Fin S1250000.rank)
  bcast_S_S100000 : S_.BroadcastsInDim S100000 (![] : Fin 0 → Fin S100000.rank)
  bcast_S1250000_S1250000x1_0 : S1250000.BroadcastsInDim S1250000x1 (![0] : Fin 1 → Fin S1250000x1.rank)
  bcast_S100000_S100000x1_0 : S100000.BroadcastsInDim S100000x1 (![0] : Fin 1 → Fin S100000x1.rank)
  bcast_S_S100000x1 : S_.BroadcastsInDim S100000x1 (![] : Fin 0 → Fin S100000x1.rank)
  inb_S10000x64_S10000x64_0_0 : ∀ a, (![0, 0] : Fin 2 → Nat) a + S10000x64.size a ≤ S10000x64.size a
  h_S10000x64 : 0 < S10000x64.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  bcast_S_S100000x64 : S_.BroadcastsInDim S100000x64 (![] : Fin 0 → Fin S100000x64.rank)
  shapeCasts_S10000x64_S10000x64 : S10000x64.ShapeCasts S10000x64
  shapeCasts_S64_S1x64 : S64.ShapeCasts S1x64
  inb_S192x64_S64x64_0_0 : ∀ a, (![0, 0] : Fin 2 → Nat) a + S64x64.size a ≤ S192x64.size a
  h_S64x64 : 0 < S64x64.numel
  inb_S192x64_S64x64_64_0 : ∀ a, (![64, 0] : Fin 2 → Nat) a + S64x64.size a ≤ S192x64.size a
  inb_S192x64_S64x64_128_0 : ∀ a, (![128, 0] : Fin 2 → Nat) a + S64x64.size a ≤ S192x64.size a
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1250000x1_S1250000_n_0_0_1_wf : ScatterDims.WF S100000 S1250000x1 S1250000 [] [0] [0] 1
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S100000x1.size a
  hwx2_1 : ∀ i : grid2.Coords, EltTy.bits .f32 = 32 ∨ (Rect.block (s := S100000x1) S10000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x64.size a ≤ S100000x64.size a
  hwx2_4 : ∀ i : grid2.Coords, EltTy.bits .f32 = 32 ∨ (Rect.block (s := S100000x64) S10000x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S100000x64.size a
  hwx2_5 : ∀ i : grid2.Coords, EltTy.bits .f32 = 32 ∨ (Rect.block (s := S100000x64) S10000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S192x64.size a ≤ S192x64.size a
  hwx3_3 : ∀ i : grid3.Coords, EltTy.bits .f32 = 32 ∨ (Rect.block (s := S192x64) S192x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x64.size a ≤ S100000x64.size a
  hwx3_5 : ∀ i : grid3.Coords, EltTy.bits .f32 = 32 ∨ (Rect.block (s := S100000x64) S10000x64.size (cc3_transform_5 i) (hinb3_5 i)).WholeWords (EltTy.packing .f32)

variable [Facts₀]

def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v18) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S10000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg0) S10000x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v19_0) S10000x64.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v19_1) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v29) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v19_0) S10000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg0) S10000x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v30_0) S10000x64.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v30_1) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_arg0) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v19_0) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v30_0) S10000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg3) S192x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v31) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v32) S10000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x64 : Shape := ⟨2, ![100000, 64]⟩
abbrev S1250000 : Shape := ⟨1, ![1250000]⟩
abbrev S192x64 : Shape := ⟨2, ![192, 64]⟩
abbrev S64 : Shape := ⟨1, ![64]⟩
abbrev S_ : Shape := ⟨0, ![]⟩
abbrev S100000 : Shape := ⟨1, ![100000]⟩
abbrev S1250000x1 : Shape := ⟨2, ![1250000, 1]⟩
abbrev S100000x1 : Shape := ⟨2, ![100000, 1]⟩
abbrev S1250000x64 : Shape := ⟨2, ![1250000, 64]⟩
abbrev S100000x192 : Shape := ⟨2, ![100000, 192]⟩
abbrev S1x64 : Shape := ⟨2, ![1, 64]⟩

abbrev nBuf : Space → Nat
  | .hbm => 76
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1250000, .i32⟩
  | .hbm, ⟨2, _⟩ => ⟨S1250000, .i32⟩
  | .hbm, ⟨3, _⟩ => ⟨S192x64, .f32⟩
  | .hbm, ⟨4, _⟩ => ⟨S64, .f32⟩
  | .hbm, ⟨5, _⟩ => ⟨S_, .f32⟩
  | .hbm, ⟨6, _⟩ => ⟨S1250000, .f32⟩
  | .hbm, ⟨7, _⟩ => ⟨S_, .f32⟩
  | .hbm, ⟨8, _⟩ => ⟨S100000, .f32⟩
  | .hbm, ⟨9, _⟩ => ⟨S1250000x1, .i32⟩
  | .hbm, ⟨10, _⟩ => ⟨S100000, .f32⟩
  | .hbm, ⟨11, _⟩ => ⟨S_, .f32⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S100000x1, .f32⟩
  | .hbm, ⟨16, _⟩ => ⟨S_, .f32⟩
  | .hbm, ⟨17, _⟩ => ⟨S100000x1, .f32⟩
  | .hbm, ⟨18, _⟩ => ⟨S100000x1, .f32⟩
  | .hbm, ⟨19, _⟩ => ⟨S100000x64, .f32⟩
  | .hbm, ⟨20, _⟩ => ⟨S100000x64, .f32⟩
  | .hbm, ⟨21, _⟩ => ⟨S_, .i32⟩
  | .hbm, ⟨22, _⟩ => ⟨S1250000, .i32⟩
  | .hbm, ⟨23, _⟩ => ⟨S1250000, .i1⟩
  | .hbm, ⟨24, _⟩ => ⟨S_, .i32⟩
  | .hbm, ⟨25, _⟩ => ⟨S1250000, .i32⟩
  | .hbm, ⟨26, _⟩ => ⟨S1250000, .i32⟩
  | .hbm, ⟨27, _⟩ => ⟨S1250000, .i32⟩
  | .hbm, ⟨28, _⟩ => ⟨S1250000x1, .i32⟩
  | .hbm, ⟨29, _⟩ => ⟨S1250000x64, .f32⟩
  | .hbm, ⟨30, _⟩ => ⟨S_, .f32⟩
  | .hbm, ⟨31, _⟩ => ⟨S100000x64, .f32⟩
  | .hbm, ⟨32, _⟩ => ⟨S1250000x1, .i32⟩
  | .hbm, ⟨33, _⟩ => ⟨S100000x64, .f32⟩
  | .hbm, ⟨34, _⟩ => ⟨S100000x64, .f32⟩
  | .hbm, ⟨35, _⟩ => ⟨S100000x64, .f32⟩
  | .hbm, ⟨36, _⟩ => ⟨S_, .f32⟩
  | .hbm, ⟨37, _⟩ => ⟨S100000x64, .f32⟩
  | .hbm, ⟨38, _⟩ => ⟨S100000x64, .f32⟩
  | .hbm, ⟨39, _⟩ => ⟨S_, .f32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S100000x64, .f32⟩
  | .hbm, ⟨44, _⟩ => ⟨S100000x64, .f32⟩
  | .hbm, ⟨45, _⟩ => ⟨S_, .i32⟩
  | .hbm, ⟨46, _⟩ => ⟨S1250000, .i32⟩
  | .hbm, ⟨47, _⟩ => ⟨S1250000, .i1⟩
  | .hbm, ⟨48, _⟩ => ⟨S_, .i32⟩
  | .hbm, ⟨49, _⟩ => ⟨S1250000, .i32⟩
  | .hbm, ⟨50, _⟩ => ⟨S1250000, .i32⟩
  | .hbm, ⟨51, _⟩ => ⟨S1250000, .i32⟩
  | .hbm, ⟨52, _⟩ => ⟨S1250000x1, .i32⟩
  | .hbm, ⟨53, _⟩ => ⟨S1250000x64, .f32⟩
  | .hbm, ⟨54, _⟩ => ⟨S_, .f32⟩
  | .hbm, ⟨55, _⟩ => ⟨S100000x64, .f32⟩
  | .hbm, ⟨56, _⟩ => ⟨S1250000x1, .i32⟩
  | .hbm, ⟨57, _⟩ => ⟨S100000x64, .f32⟩
  | .hbm, ⟨58, _⟩ => ⟨S100000x64, .f32⟩
  | .hbm, ⟨59, _⟩ => ⟨S100000x64, .f32⟩
  | .hbm, ⟨60, _⟩ => ⟨S_, .f32⟩
  | .hbm, ⟨61, _⟩ => ⟨S100000x64, .f32⟩
  | .hbm, ⟨62, _⟩ => ⟨S100000x64, .f32⟩
  | .hbm, ⟨63, _⟩ => ⟨S_, .f32⟩
  | .hbm, ⟨64, _⟩ => ⟨S100000x64, .f32⟩
  | .hbm, ⟨65, _⟩ => ⟨S100000x64, .f32⟩
  | .hbm, ⟨66, _⟩ => ⟨S100000x64, .f32⟩
  | .hbm, ⟨67, _⟩ => ⟨S100000x64, .f32⟩
  | .hbm, ⟨68, _⟩ => ⟨S100000x192, .f32⟩
  | .hbm, ⟨69, _⟩ => ⟨S100000x64, .f32⟩
  | .hbm, ⟨70, _⟩ => ⟨S1x64, .f32⟩
  | .hbm, ⟨71, _⟩ => ⟨S100000x64, .f32⟩
  | .hbm, ⟨72, _⟩ => ⟨S100000x64, .f32⟩
  | .hbm, ⟨73, _⟩ => ⟨S_, .f32⟩
  | .hbm, ⟨74, _⟩ => ⟨S100000x64, .f32⟩
  | .hbm, ⟨75, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_7 : Ref sig .tc := ⟨.hbm, 45, rfl⟩
abbrev main_v29 : Ref sig .tc := ⟨.hbm, 46, rfl⟩
abbrev main_v30 : Ref sig .tc := ⟨.hbm, 47, rfl⟩
abbrev main_c_8 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_9 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_10 : Ref sig .tc := ⟨.hbm, 60, rfl⟩
abbrev main_v41 : Ref sig .tc := ⟨.hbm, 61, rfl⟩
abbrev main_v42 : Ref sig .tc := ⟨.hbm, 62, rfl⟩
abbrev main_cst_11 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_call1_cst : Ref sig .tc := ⟨.hbm, 73, rfl⟩
abbrev main_call1_v0 : Ref sig .tc := ⟨.hbm, 74, rfl⟩
abbrev main_v52 : Ref sig .tc := ⟨.hbm, 75, rfl⟩

abbrev nD : Nat := 1
abbrev τ : Topo := Topo.v7x

variable {F : FTy → Type} [FloatOps F]

class Facts₀ : Prop where
  bcast_S_S1250000 : S_.BroadcastsInDim S1250000 (![] : Fin 0 → Fin S1250000.rank)
  bcast_S_S100000 : S_.BroadcastsInDim S100000 (![] : Fin 0 → Fin S100000.rank)
  bcast_S1250000_S1250000x1_0 : S1250000.BroadcastsInDim S1250000x1 (![0] : Fin 1 → Fin S1250000x1.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  concatenates_S100000x64_S100000x64_S100000x64_S100000x192_d1 : Shape.Concatenates [S100000x64, S100000x64, S100000x64] S100000x192 1
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1250000x1_S1250000_n_0_0_1_wf : ScatterDims.WF S100000 S1250000x1 S1250000 [] [0] [0] 1
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S100000x192_S192x64_S100000x64_1_0_0_1_n_n_wf : DotDims.WF S100000x192 S192x64 S100000x64 [1] [0] [0] [1] [] []

variable [Facts₀]

def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S100000x192_S192x64_S100000x64_1_0_0_1_n_n : DotDims S100000x192 S192x64 S100000x64 where
  lhsContracting := [1]
  rhsContracting := [0]
  lhsNonContracting := [0]
  rhsNonContracting := [1]
  lhsBatch := []
  rhsBatch := []
  wf := dot_S100000x192_S192x64_S100000x64_1_0_0_1_n_n_wf

class Facts : Prop extends Facts₀ where

variable [Facts]
-- ==== Proof.Frame0.lean ====
/-
  Region 0 of @main: the row-scaling kernel on a grid of ten points, at a parameter V (the contents of the
  TensorCore's buffers when the region is entered), for any float instance.

  The kernel reads a (10000, 64) block of the table and the (10000, 1) block of the column that goes with it, and
  writes the block of the result: every entry of the table's block times the entry of the column in its row. Stated
  here: each window's block at a grid point, what the body leaves in the result's staging buffer as a function of
  the two input blocks, the body's triple on whole staging buffers, the pipeline's proof data at V, and the body
  obligation at every point.
-/
import proofs.«133161_j49383533969583_1_alg».proof.Proof.Gen.KernelIdeal.Launch
import proofs.«133161_j49383533969583_1_alg».proof.Proof.Gen.KernelIdeal.Skeleton
import proofs.«133161_j49383533969583_1_alg».proof.Proof.Gen.KernelIdeal.Points
import Idealize.ShloMosaic.Lib.Pipeline.FrameBody
import Idealize.ShloMosaic.Lib.Ring
import Idealize.ShloMosaic.Lib.Tactic

-- membership in a rectangle with ten thousand rows is looked at once per coordinate
set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-! ## The windows' blocks -/

/-- The block of window w at grid point t, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The table's staging buffer holds the table's block at every point, whether the block was fetched there or is
    still in place from the point before: for any proof data over V's arrays whose body leaves that buffer alone. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the column's staging buffer. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes -/

/-- The whole (10000, 64) staging buffer: what the body loads of the table's block, and what it stores. -/
abbrev tile0 : Rect S10000x64 := Rect.unit (s := S10000x64) ![0, 0] S10000x64.size inb_S10000x64_S10000x64_0_0
/-- The whole (10000, 1) staging buffer: what the body loads of the column's block. -/
abbrev col0 : Rect S10000x1 := Rect.unit (s := S10000x1) ![0, 0] S10000x1.size inb_S10000x1_S10000x1_0_0

/-! ## What the body leaves in the result's staging buffer -/

/-- The result's staging buffer after the body, from the two input blocks: one store over the whole buffer, of the
    product of the loaded table block and the loaded column block broadcast along the rows. -/
def out0_2 (x0 : Vec F S10000x64 .f32) (x1 : Vec F S10000x1 .f32) : Vec F S10000x64 .f32 :=
  View.canon [⟨tile0, k0_pay1 (View.ld x0 tile0) (View.ld x1 col0)⟩]

/-- The one store covers the buffer. -/
theorem cover0_2 (p0 : Vec F S10000x64 .f32) (y : S10000x64.Idx) :
    ∃ pc ∈ ([⟨tile0, p0⟩] : List (View.Piece (Elt F) S10000x64 .f32)), y ∈ pc.1.set :=
  View.cover_of_tiled [⟨tile0, p0⟩] S10000x64.size (by rfl) y

/-! ## The body's triple -/

set_option maxHeartbeats 1000000 in
/-- The body on whole staging buffers: with the table's at x0, the column's at x1 and the result's at anything (the
    body loads it before it stores over it), it runs to a continuation that holds the two inputs' as they were and
    the result's at out0_2 x0 x1. -/
theorem sound_kernel0 (c : Dev nD) (E : Set ℕ) (i : grid0.Coords)
    (arg1 : Memref sig .tc .vmem S10000x64 .f32) (harg1 : arg1.IsWhole)
    (arg2 : Memref sig .tc .vmem S10000x1 .f32) (harg2 : arg2.IsWhole)
    (arg3 : Memref sig .tc .vmem S10000x64 .f32) (harg3 : arg3.IsWhole)
    (x0 : Vec F S10000x64 .f32) (x1 : Vec F S10000x1 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__scale_kernel i arg1 harg1 arg2 harg2 arg3 harg3) K := by
  simp only [cc0__scale_kernel_eq_skeleton]; unfold cc0__scale_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the region's pipeline on core c: the arrays as the region finds them; after the body at point
    t the two inputs' buffers at their blocks and the result's at out0_2 of those blocks; the invariant that of a
    body touching nothing but its windows; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline's launch theorems, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Frame1.lean ====
/-
  Region 1 of @main: the first Chebyshev step (custom_call 1, `cc1__cheb_kernel`, pipeline 1), its class-A half at a
  PARAMETER `V` — the TensorCore's buffer contents when the region is entered —, at any float instance.

  The pipeline has six windows over a grid of ten points. Windows 0..3 are inputs: the aggregate table, the degree
  column, and the feature table twice (as the "self" and as the "previous" operand: two windows over ONE array);
  windows 4 and 5 are the outputs x and y = x · d. At every point each window's block is row block t of its array.
  The body loads the four input buffers whole, computes x from them, loads the first output buffer (a dead load),
  stores x over it, loads the second output buffer (dead again) and stores x · d over it. So after the body each
  input buffer holds its block as before and each output buffer is one store's payload laid over the whole buffer.
-/
import proofs.«133161_j49383533969583_1_alg».proof.Proof.Gen.KernelIdeal.Launch
import proofs.«133161_j49383533969583_1_alg».proof.Proof.Gen.KernelIdeal.Skeleton
import proofs.«133161_j49383533969583_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of ten thousand rows: the structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds the window's block at every point, for any proof data whose
    array is the entry contents and whose body leaves the block in place: the window is an input, never idle, its
    blocks tile the array (nothing is cut), so what a fetch would put there is the block, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: the whole table block and the whole column block -/

abbrev rT : Rect S10000x64 := Rect.unit (s := S10000x64) ![0, 0] S10000x64.size inb_S10000x64_S10000x64_0_0
abbrev rC : Rect S10000x1 := Rect.unit (s := S10000x1) ![0, 0] S10000x1.size inb_S10000x1_S10000x1_0_0

/-! ## What the body leaves in each output window's buffer -/

/-- The x buffer after the body, from the input blocks (aggregate `a`, column `d`, self `s`, previous `p`): its one
    store, whose payload is the skeleton's `k1_pay2` of the four loads. -/
def out1_4 (a : Vec F S10000x64 .f32) (d : Vec F S10000x1 .f32) (s p : Vec F S10000x64 .f32) : Vec F S10000x64 .f32 :=
  View.canon [⟨rT, k1_pay2 (View.ld d rC) (View.ld a rT) (View.ld s rT) (View.ld p rT)⟩]

/-- The y buffer after the body: its one store, of `k1_pay3` of the same four loads. -/
def out1_5 (a : Vec F S10000x64 .f32) (d : Vec F S10000x1 .f32) (s p : Vec F S10000x64 .f32) : Vec F S10000x64 .f32 :=
  View.canon [⟨rT, k1_pay3 (View.ld d rC) (View.ld a rT) (View.ld s rT) (View.ld p rT)⟩]

/-- One whole-buffer store covers the buffer. -/
theorem cover1_T (p0 : Vec F S10000x64 .f32) (y : S10000x64.Idx) :
    ∃ pc ∈ ([⟨rT, p0⟩] : List (View.Piece (Elt F) S10000x64 .f32)), y ∈ pc.1.set :=
  View.cover_of_tiled [⟨rT, p0⟩] S10000x64.size (by rfl) y

/-! ## The body's triple -/

set_option maxHeartbeats 1000000 in
/-- The kernel body on whole staging memrefs — the four inputs' at read contents `a d s p`, the two outputs' at
    anything — runs to the continuation holding the inputs' as they were and the outputs' at `out1_4`, `out1_5` of the
    inputs': the printed function is its skeleton, a straight line of six loads and two stores. -/
theorem sound_kernel1 (c : Dev nD) (E : Set ℕ) (i : grid1.Coords)
    (arg1 : Memref sig .tc .vmem S10000x64 .f32) (harg1 : arg1.IsWhole) (arg2 : Memref sig .tc .vmem S10000x1 .f32) (harg2 : arg2.IsWhole)
    (arg3 : Memref sig .tc .vmem S10000x64 .f32) (harg3 : arg3.IsWhole) (arg4 : Memref sig .tc .vmem S10000x64 .f32) (harg4 : arg4.IsWhole)
    (arg5 : Memref sig .tc .vmem S10000x64 .f32) (harg5 : arg5.IsWhole) (arg6 : Memref sig .tc .vmem S10000x64 .f32) (harg6 : arg6.IsWhole)
    (a : Vec F S10000x64 .f32) (d : Vec F S10000x1 .f32) (s p : Vec F S10000x64 .f32) (K : PUnit → sProp 𝕄) :
    iprop(owns (c : Thread nD τ) arg1 fullShare a ∗ owns (c : Thread nD τ) arg2 fullShare d
        ∗ owns (c : Thread nD τ) arg3 fullShare s ∗ owns (c : Thread nD τ) arg4 fullShare p
        ∗ (∃ z, owns (c : Thread nD τ) arg5 fullShare z) ∗ (∃ z, owns (c : Thread nD τ) arg6 fullShare z)
        ∗ (iprop(owns (c : Thread nD τ) arg1 fullShare a ∗ owns (c : Thread nD τ) arg2 fullShare d
            ∗ owns (c : Thread nD τ) arg3 fullShare s ∗ owns (c : Thread nD τ) arg4 fullShare p
            ∗ owns (c : Thread nD τ) arg5 fullShare (out1_4 a d s p) ∗ owns (c : Thread nD τ) arg6 fullShare (out1_5 a d s p)) -∗ K ⟨⟩))
      ⊢ wp frame (wpE (defs₀ (F := F)) Variants.none c none) E (cc1__cheb_kernel i arg1 harg1 arg2 harg2 arg3 harg3 arg4 harg4 arg5 harg5 arg6 harg6) K := by
  simp only [cc1__cheb_kernel_eq_skeleton]; unfold cc1__cheb_kernel_skel
  unfold owns
  iintro ⟨⟨%f1, %hf1, H1⟩, ⟨%f2, %hf2, H2⟩, ⟨%f3, %hf3, H3⟩, ⟨%f4, %hf4, H4⟩, ⟨%z5, %f5, -, H5⟩, ⟨%z6, %f6, -, H6⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1_T _)
  iexists _; isplitr
  swap; · iexact H6
  ipureintro
  exact View.read_writes_eq_canon _ _ _ (cover1_T _)

/-! ## The pipeline's proof data -/

/-- The proof data of pipeline 1 on core `c`: the arrays as the region finds them; after the body at point `t` each
    input's buffer at its block and each output's at `out1_4`, `out1_5` of the four input blocks; the invariant the
    scoped rest and the generator register, untouched; nothing owed. Every array is held whole but the feature
    table, which two windows read: they hold the two halves of its share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
    | ⟨5, _⟩ => out1_5 (iblk1 V c 0 t) (iblk1 V c 1 t) (iblk1 V c 2 t) (iblk1 V c 3 t)
  Φ _ := Pipeline.ΦA spec1 c
  q := fun w => match w with
    | ⟨0, _⟩ => fullShare
    | ⟨1, _⟩ => fullShare
    | ⟨2, _⟩ => fullShare.left
    | ⟨3, _⟩ => fullShare.right
    | ⟨4, _⟩ => fullShare
    | ⟨5, _⟩ => fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]
theorem after1_5 (c : Dev nD) (t : Fin cfg1.N) :
    (dat1 V c).after 5 t = out1_5 (iblk1 V c 0 t) (iblk1 V c 1 t) (iblk1 V c 2 t) (iblk1 V c 3 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the kernel's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Frame2.lean ====
/-
  Region 2 of the program: the second Chebyshev step (custom call 2), stated at a parameter `V`, the contents of the
  TensorCore's buffers when the region is entered, and at any float instance.

  The region runs over ten grid points. At point t it reads row block t of the aggregate table, of the degree
  column, of the previous table and of the table before it, and writes row block t of two tables: the new table
  x = a·(agg·d) + b·self + c·prev, and its rescaling y = x·d. This module gives each window's block at a point, what
  the body leaves in each output's staging buffer as a function of the four input blocks, the body's triple, the
  pipeline's proof data at `V` and the body obligation.
-/
import proofs.«133161_j49383533969583_1_alg».proof.Proof.Gen.KernelIdeal.Launch
import proofs.«133161_j49383533969583_1_alg».proof.Proof.Gen.KernelIdeal.Skeleton
import proofs.«133161_j49383533969583_1_alg».proof.Proof.Gen.KernelIdeal.Points
import Idealize.ShloMosaic.Lib.Pipeline.FrameBody
import Idealize.ShloMosaic.Lib.Ring
import Idealize.ShloMosaic.Lib.Tactic

-- membership in a rectangle of 10000 rows is looked at once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The aggregate's window (0): its staging buffer holds its block wherever the body is handed it, for any proof data
    over `V`'s array that leaves the block in place. The window is an input, never idle and never cut. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The degree column's window (1), likewise. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- The previous table's window (2), likewise. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- The window of the table before that (3), likewise. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: the whole tile and the whole column -/

abbrev tile2 : Rect S10000x64 := Rect.unit (s := S10000x64) ![0, 0] S10000x64.size inb_S10000x64_S10000x64_0_0
abbrev col2 : Rect S10000x1 := Rect.unit (s := S10000x1) ![0, 0] S10000x1.size inb_S10000x1_S10000x1_0_0

/-! ## What the body leaves in each output's buffer -/

/-- The new table's buffer (window 4) after the body, from the four input blocks: its one store, of the combination
    a·(agg·d) + b·self + c·prev, over the whole tile. -/
def out2_4 (x0 : Vec F S10000x64 .f32) (x1 : Vec F S10000x1 .f32) (x2 : Vec F S10000x64 .f32) (x3 : Vec F S10000x64 .f32) : Vec F S10000x64 .f32 :=
  View.canon [⟨tile2, k2_pay2 (View.ld x1 col2) (View.ld x0 tile2) (View.ld x2 tile2) (View.ld x3 tile2)⟩]

/-- The rescaled table's buffer (window 5) after the body: its one store, of the combination times the column. -/
def out2_5 (x0 : Vec F S10000x64 .f32) (x1 : Vec F S10000x1 .f32) (x2 : Vec F S10000x64 .f32) (x3 : Vec F S10000x64 .f32) : Vec F S10000x64 .f32 :=
  View.canon [⟨tile2, k2_pay3 (View.ld x1 col2) (View.ld x0 tile2) (View.ld x2 tile2) (View.ld x3 tile2)⟩]

/-- One store over the whole tile covers the buffer. -/
theorem cover2_4 (p0 : Vec F S10000x64 .f32) (y : S10000x64.Idx) :
    ∃ pc ∈ ([⟨tile2, p0⟩] : List (View.Piece (Elt F) S10000x64 .f32)), y ∈ pc.1.set :=
  View.cover_of_tiled [⟨tile2, p0⟩] S10000x64.size (by rfl) y
theorem cover2_5 (p0 : Vec F S10000x64 .f32) (y : S10000x64.Idx) :
    ∃ pc ∈ ([⟨tile2, p0⟩] : List (View.Piece (Elt F) S10000x64 .f32)), y ∈ pc.1.set :=
  View.cover_of_tiled [⟨tile2, p0⟩] S10000x64.size (by rfl) y

/-! ## The body's triple -/

set_option maxHeartbeats 1000000 in
/-- The body on whole staging memrefs, the four inputs' at contents `x0 … x3` and the two outputs' at anything, runs
    to the continuation holding the inputs' as they were and the outputs' at `out2_4`, `out2_5` of the inputs'. It loads
    each output's buffer before it stores into it, so the outputs' buffers are held at some contents. -/
theorem sound_kernel2 (c : Dev nD) (E : Set ℕ) (i : grid2.Coords)
    (arg1 : Memref sig .tc .vmem S10000x64 .f32) (harg1 : arg1.IsWhole) (arg2 : Memref sig .tc .vmem S10000x1 .f32) (harg2 : arg2.IsWhole)
    (arg3 : Memref sig .tc .vmem S10000x64 .f32) (harg3 : arg3.IsWhole) (arg4 : Memref sig .tc .vmem S10000x64 .f32) (harg4 : arg4.IsWhole)
    (arg5 : Memref sig .tc .vmem S10000x64 .f32) (harg5 : arg5.IsWhole) (arg6 : Memref sig .tc .vmem S10000x64 .f32) (harg6 : arg6.IsWhole)
    (x0 : Vec F S10000x64 .f32) (x1 : Vec F S10000x1 .f32) (x2 : Vec F S10000x64 .f32) (x3 : Vec F S10000x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out2_4 x0 x1 x2 x3)
            ∗ owns (c : Thread nD τ) arg6 fullShare (out2_5 x0 x1 x2 x3)) -∗ K ⟨⟩))
      ⊢ wp frame (wpE (defs₀ (F := F)) Variants.none c none) E (cc2__cheb_kernel i arg1 harg1 arg2 harg2 arg3 harg3 arg4 harg4 arg5 harg5 arg6 harg6) K := by
  simp only [cc2__cheb_kernel_eq_skeleton]; unfold cc2__cheb_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover2_4 _)
  iexists _; isplitr
  swap; · iexact H5
  ipureintro
  exact View.read_writes_eq_canon _ _ _ (cover2_5 _)

/-! ## The pipeline's proof data -/

/-- The proof data of pipeline 2 on core `c`: the arrays as the region finds them; after the body at point `t` each
    input's buffer at its block and each output's at `out2_4`, `out2_5` of the four input blocks; the invariant the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
    | ⟨5, _⟩ => out2_5 (iblk2 V c 0 t) (iblk2 V c 1 t) (iblk2 V c 2 t) (iblk2 V c 3 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]
theorem after2_5 (c : Dev nD) (t : Fin cfg2.N) :
    (dat2 V c).after 5 t = out2_5 (iblk2 V c 0 t) (iblk2 V c 1 t) (iblk2 V c 2 t) (iblk2 V c 3 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _
    (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.Frame3.lean ====
/-
  Region 3 of @main: the rectified dense layer over three node tables (custom_call 3, pipeline 3), stated at a
  PARAMETER V — what every unscoped buffer of a core holds when the region is entered — and for any float
  instance.

  The grid has ten points. At point t the body is handed six staging buffers: the t-th row block (10000 rows, 64
  columns) of each of three node tables, the whole weight table (192 rows, 64 columns), the whole bias row, and the
  buffer of the t-th row block of the result. It reads the three 64-row blocks of the weight table (rows 0, 64 and
  128 onward), the three row blocks whole and the bias row whole, and writes the result's buffer whole, once. So what
  the body leaves in the result's buffer is a closed function of the five input blocks: the one payload laid over
  the whole buffer. The weight table and the bias row have a constant block index: the pipeline fetches them at the
  first point only, and at every later point their buffers still hold the block, which the body leaves in place.

  Here: the blocks (iblk3), what an input buffer holds before the body (before3_w), what the body leaves in the
  result's buffer (out3_5), the body's triple (sound_kernel3), the pipeline's proof data (dat3) and the body
  obligation at every point (body_obligation3).
-/
import proofs.«133161_j49383533969583_1_alg».proof.Proof.Gen.KernelIdeal.Launch
import proofs.«133161_j49383533969583_1_alg».proof.Proof.Gen.KernelIdeal.Skeleton
import proofs.«133161_j49383533969583_1_alg».proof.Proof.Gen.KernelIdeal.Points
import Idealize.ShloMosaic.Lib.Pipeline.FrameBody
import Idealize.ShloMosaic.Lib.Ring
import Idealize.ShloMosaic.Lib.Tactic

-- membership in a rectangle of ten thousand rows is looked at coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3

variable (V : (c : Dev nD) → (b : Ref sig .tc) → Buf (Elt F) ((c : Thread nD τ).loc b))

/-! ## Blocks -/

/-- The block of window w at grid point t, read off the window's array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## What an input buffer holds before the body

For proof data whose array of the window is V's and whose body leaves the window's block where it found it, the
window's current staging buffer holds the block at every point. Where the pipeline fetched, that is what the fetch
brought; where it did not, the block index is the previous point's, and so is the block. None of the five input
windows is cut at its array's end and none has an idle point. -/

theorem before3_0_of {c : Dev nD} (dat : Dat τ (Elt F) Unit ℕ (UR sig nD τ) ℕ cfg3 c)
    (hA : dat.A 0 = V c (Pipeline.arrRef spec3 0)) (hafter : ∀ t, dat.after 0 t = iblk3 V c 0 t)
    (t : Fin cfg3.N) (d) : dat.before 0 t d = iblk3 V c 0 t := by
  have hkeep : ∀ s, (cfg3.win 0).cut (cfg3.grid.coords s) (dat.after 0 s) = dat.blockOf 0 s := fun s => by
    rw [hafter]; unfold Dat.blockOf iblk3; rw [hA]; try rfl
  rw [dat.before_in_eq_fetched 0 rfl (fun _ => rfl) (fun _ _ _ => rfl) hkeep t d]
  unfold Dat.fetched Dat.blockOf iblk3; rw [hA]; try rfl

theorem before3_1_of {c : Dev nD} (dat : Dat τ (Elt F) Unit ℕ (UR sig nD τ) ℕ cfg3 c)
    (hA : dat.A 1 = V c (Pipeline.arrRef spec3 1)) (hafter : ∀ t, dat.after 1 t = iblk3 V c 1 t)
    (t : Fin cfg3.N) (d) : dat.before 1 t d = iblk3 V c 1 t := by
  have hkeep : ∀ s, (cfg3.win 1).cut (cfg3.grid.coords s) (dat.after 1 s) = dat.blockOf 1 s := fun s => by
    rw [hafter]; unfold Dat.blockOf iblk3; rw [hA]; try rfl
  rw [dat.before_in_eq_fetched 1 rfl (fun _ => rfl) (fun _ _ _ => rfl) hkeep t d]
  unfold Dat.fetched Dat.blockOf iblk3; rw [hA]; try rfl

theorem before3_2_of {c : Dev nD} (dat : Dat τ (Elt F) Unit ℕ (UR sig nD τ) ℕ cfg3 c)
    (hA : dat.A 2 = V c (Pipeline.arrRef spec3 2)) (hafter : ∀ t, dat.after 2 t = iblk3 V c 2 t)
    (t : Fin cfg3.N) (d) : dat.before 2 t d = iblk3 V c 2 t := by
  have hkeep : ∀ s, (cfg3.win 2).cut (cfg3.grid.coords s) (dat.after 2 s) = dat.blockOf 2 s := fun s => by
    rw [hafter]; unfold Dat.blockOf iblk3; rw [hA]; try rfl
  rw [dat.before_in_eq_fetched 2 rfl (fun _ => rfl) (fun _ _ _ => rfl) hkeep t d]
  unfold Dat.fetched Dat.blockOf iblk3; rw [hA]; try rfl

/-- The weight table: one block, the whole table, at every point. -/
theorem before3_3_of {c : Dev nD} (dat : Dat τ (Elt F) Unit ℕ (UR sig nD τ) ℕ cfg3 c)
    (hA : dat.A 3 = V c (Pipeline.arrRef spec3 3)) (hafter : ∀ t, dat.after 3 t = iblk3 V c 3 t)
    (t : Fin cfg3.N) (d) : dat.before 3 t d = iblk3 V c 3 t := by
  have hkeep : ∀ s, (cfg3.win 3).cut (cfg3.grid.coords s) (dat.after 3 s) = dat.blockOf 3 s := fun s => by
    rw [hafter]; unfold Dat.blockOf iblk3; rw [hA]; try rfl
  rw [dat.before_in_eq_fetched 3 rfl (fun _ => rfl) (fun _ _ _ => rfl) hkeep t d]
  unfold Dat.fetched Dat.blockOf iblk3; rw [hA]; try rfl

/-- The bias row: one block, the whole row, at every point. -/
theorem before3_4_of {c : Dev nD} (dat : Dat τ (Elt F) Unit ℕ (UR sig nD τ) ℕ cfg3 c)
    (hA : dat.A 4 = V c (Pipeline.arrRef spec3 4)) (hafter : ∀ t, dat.after 4 t = iblk3 V c 4 t)
    (t : Fin cfg3.N) (d) : dat.before 4 t d = iblk3 V c 4 t := by
  have hkeep : ∀ s, (cfg3.win 4).cut (cfg3.grid.coords s) (dat.after 4 s) = dat.blockOf 4 s := fun s => by
    rw [hafter]; unfold Dat.blockOf iblk3; rw [hA]; try rfl
  rw [dat.before_in_eq_fetched 4 rfl (fun _ => rfl) (fun _ _ _ => rfl) hkeep t d]
  unfold Dat.fetched Dat.blockOf iblk3; rw [hA]; try rfl

/-! ## The rectangles the body reads and writes through -/

/-- A row block of a node table, whole. -/
abbrev rX3 : Rect S10000x64 := Rect.unit (s := S10000x64) ![0, 0] S10000x64.size inb_S10000x64_S10000x64_0_0
/-- Rows 0 to 63 of the weight table. -/
abbrev rW3_0 : Rect S192x64 := Rect.unit (s := S192x64) ![0, 0] S64x64.size inb_S192x64_S64x64_0_0
/-- Rows 64 to 127 of the weight table. -/
abbrev rW3_1 : Rect S192x64 := Rect.unit (s := S192x64) ![64, 0] S64x64.size inb_S192x64_S64x64_64_0
/-- Rows 128 to 191 of the weight table. -/
abbrev rW3_2 : Rect S192x64 := Rect.unit (s := S192x64) ![128, 0] S64x64.size inb_S192x64_S64x64_128_0
/-- The bias row, whole. -/
abbrev rB3 : Rect S1x64 := Rect.unit (s := S1x64) ![0, 0] S1x64.size inb_S1x64_S1x64_0_0

/-! ## What the body leaves in the result's buffer -/

/-- The result's staging buffer after the body, as a function of the five input blocks: the body's one store, over
    the whole buffer, of the payload at what the seven loads read. -/
def out3_5 (x0 x1 x2 : Vec F S10000x64 .f32) (x3 : Vec F S192x64 .f32) (x4 : Vec F S1x64 .f32) : Vec F S10000x64 .f32 :=
  View.canon [⟨rX3, k3_pay1 (View.ld x3 rW3_0) (View.ld x3 rW3_1) (View.ld x3 rW3_2)
    (View.ld x0 rX3) (View.ld x1 rX3) (View.ld x2 rX3) (View.ld x4 rB3)⟩]

/-- The one store is the whole buffer, so every index of the buffer lies under it. -/
theorem cover3_5 (p : Vec F S10000x64 .f32) (y : S10000x64.Idx) :
    ∃ pc ∈ ([⟨rX3, p⟩] : List (View.Piece (Elt F) S10000x64 .f32)), y ∈ pc.1.set :=
  View.cover_of_tiled [⟨rX3, p⟩] S10000x64.size (by rfl) y

/-! ## The body's triple -/

set_option maxHeartbeats 2000000 in
/-- The body on six whole staging memrefs — the five inputs' at read contents x0 … x4, the result's at anything —
    runs to a continuation that is given the inputs' as they were and the result's at out3_5 of the inputs'. The
    body is its list of memory operations over the payload; it also loads the result's buffer before it stores into
    it, which is why the result's buffer is held at SOME contents. -/
theorem sound_kernel3 (c : Dev nD) (E : Set ℕ) (i : grid3.Coords)
    (arg1 : Memref sig .tc .vmem S10000x64 .f32) (harg1 : arg1.IsWhole)
    (arg2 : Memref sig .tc .vmem S10000x64 .f32) (harg2 : arg2.IsWhole)
    (arg3 : Memref sig .tc .vmem S10000x64 .f32) (harg3 : arg3.IsWhole)
    (arg4 : Memref sig .tc .vmem S192x64 .f32) (harg4 : arg4.IsWhole)
    (arg5 : Memref sig .tc .vmem S1x64 .f32) (harg5 : arg5.IsWhole)
    (arg6 : Memref sig .tc .vmem S10000x64 .f32) (harg6 : arg6.IsWhole)
    (x0 x1 x2 : Vec F S10000x64 .f32) (x3 : Vec F S192x64 .f32) (x4 : Vec F S1x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E
          (cc3__matmul_relu_kernel i arg1 harg1 arg2 harg2 arg3 harg3 arg4 harg4 arg5 harg5 arg6 harg6) K := by
  simp only [cc3__matmul_relu_kernel_eq_skeleton]; unfold cc3__matmul_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of pipeline 3 on core c. The arrays are the region's entry contents. After the body at point t
    each input's buffer holds its block and the result's holds out3_5 of the five input blocks. The invariant is
    the scoped rest and the generator register, untouched; nothing is owed; the shares are full. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t
      = out3_5 (iblk3 V c 0 t) (iblk3 V c 1 t) (iblk3 V c 2 t) (iblk3 V c 3 t) (iblk3 V c 4 t) := by
  dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation -/

/-- What the body is called with at point t: the invariant, the core's debts, and the six current staging buffers,
    each at what the pipeline left in it. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- What it returns: the same, each buffer at what the proof data says the body leaves. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' buffers hold their blocks, so the body's triple applies at the blocks; the
    invariant and the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _
    (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline's proof data, at every point. -/
theorem body_obligation3 (c : Dev nD) :
    BodyObligation (dat3 (F := F) V c) (defs₀ (F := F)) Variants.none () Set.univ := fun t => by
  rw [bigSep_W3, bigSep_W3]
  exact sound_body3 V c t

end Region3

end Cert.KernelIdeal.Hand

end
-- ==== Proof.Fold.lean ====
/-
  The contents of every unscoped buffer of the program, followed from the launch to the return: a host stretch applies
  its operations to what it finds; a kernel region leaves each output array at what its write-backs make of it and
  every other buffer as it was.
-/
import proofs.«133161_j49383533969583_1_alg».proof.Proof.Frame0
import proofs.«133161_j49383533969583_1_alg».proof.Proof.Frame1
import proofs.«133161_j49383533969583_1_alg».proof.Proof.Frame2
import proofs.«133161_j49383533969583_1_alg».proof.Proof.Frame3
import proofs.«133161_j49383533969583_1_alg».proof.Proof.Gen.KernelIdeal.Launch
import proofs.«133161_j49383533969583_1_alg».proof.Proof.Gen.KernelIdeal.Regions
import Idealize.ShloMosaic.Lib.Pipeline.FrameBody

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-! ## The buffers' contents at each boundary between two items of the program -/

/-- Core `c`'s buffers at launch. -/
abbrev W0 : Dev nD → Valuation τ sig (Elt F) := fun c b => m (c, b)
/-- After the first three host stretches (the degree column is computed): region 0's entry. -/
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
/-- The same read at the TensorCore's references. -/
abbrev V3 : (c : Dev nD) → (b : Ref sig .tc) → Buf (Elt F) ((c : Thread nD τ).loc b) := fun c b => W3 m c b
/-- At region 0's exit: its output array at what the write-backs leave, every other buffer as entered. -/
def W4 (c : Dev nD) : Valuation τ sig (Elt F) :=
  Function.update (W3 m c) main_v8 ((dat0 (V3 m) c).arrAt 2 cfg0.N)
abbrev V4 : (c : Dev nD) → (b : Ref sig .tc) → Buf (Elt F) ((c : Thread nD τ).loc b) := fun c b => W4 m c b
/-- After the first gather and scatter: region 1's entry. -/
abbrev W5 : Dev nD → Valuation τ sig (Elt F) := fun c => StableHlo.after hostOps1 (W4 m c)
abbrev V5 : (c : Dev nD) → (b : Ref sig .tc) → Buf (Elt F) ((c : Thread nD τ).loc b) := fun c b => W5 m c b
/-- At region 1's exit. -/
def W6 (c : Dev nD) : Valuation τ sig (Elt F) :=
  Function.update (Function.update (W5 m c) main_v19_0 ((dat1 (V5 m) c).arrAt 4 cfg1.N)) main_v19_1 ((dat1 (V5 m) c).arrAt 5 cfg1.N)
abbrev V6 : (c : Dev nD) → (b : Ref sig .tc) → Buf (Elt F) ((c : Thread nD τ).loc b) := fun c b => W6 m c b
/-- After the second gather and scatter: region 2's entry. -/
abbrev W7 : Dev nD → Valuation τ sig (Elt F) := fun c => StableHlo.after hostOps2 (W6 m c)
abbrev V7 : (c : Dev nD) → (b : Ref sig .tc) → Buf (Elt F) ((c : Thread nD τ).loc b) := fun c b => W7 m c b
/-- At region 2's exit. -/
def W8 (c : Dev nD) : Valuation τ sig (Elt F) :=
  Function.update (Function.update (W7 m c) main_v30_0 ((dat2 (V7 m) c).arrAt 4 cfg2.N)) main_v30_1 ((dat2 (V7 m) c).arrAt 5 cfg2.N)
abbrev V8 : (c : Dev nD) → (b : Ref sig .tc) → Buf (Elt F) ((c : Thread nD τ).loc b) := fun c b => W8 m c b
/-- After the bias is laid out as a row: region 3's entry. -/
abbrev W9 : Dev nD → Valuation τ sig (Elt F) := fun c => StableHlo.after hostOps3 (W8 m c)
abbrev V9 : (c : Dev nD) → (b : Ref sig .tc) → Buf (Elt F) ((c : Thread nD τ).loc b) := fun c b => W9 m c b
/-- At region 3's exit: the return. -/
def W10 (c : Dev nD) : Valuation τ sig (Elt F) :=
  Function.update (W9 m c) main_v32 ((dat3 (V9 m) c).arrAt 5 cfg3.N)
abbrev V10 : (c : Dev nD) → (b : Ref sig .tc) → Buf (Elt F) ((c : Thread nD τ).loc b) := fun c b => W10 m c b

/-! ## What a region's exit contents hold -/

theorem W4_out (c : Dev nD) : W4 m c (Proc.devRef .tc main_v8) = (dat0 (V3 m) c).arrAt 2 cfg0.N := by
  unfold W4; exact Function.update_self ..
theorem W4_of_ne (c : Dev nD) (b : Ref sig .tc) (hb : b ≠ main_v8) : W4 m c (Proc.devRef .tc b) = W3 m c (Proc.devRef .tc b) := by
  unfold W4; exact Function.update_of_ne (StableHlo.devRef_ne_of_ne hb) _ _

theorem W6_out0 (c : Dev nD) : W6 m c (Proc.devRef .tc main_v19_0) = (dat1 (V5 m) c).arrAt 4 cfg1.N := by
  unfold W6
  rw [Function.update_of_ne (StableHlo.devRef_ne_of_ne (by decide : main_v19_0 ≠ main_v19_1))]
  exact Function.update_self ..
theorem W6_out1 (c : Dev nD) : W6 m c (Proc.devRef .tc main_v19_1) = (dat1 (V5 m) c).arrAt 5 cfg1.N := by
  unfold W6; exact Function.update_self ..
theorem W6_of_ne (c : Dev nD) (b : Ref sig .tc) (h0 : b ≠ main_v19_0) (h1 : b ≠ main_v19_1) :
    W6 m c (Proc.devRef .tc b) = W5 m c (Proc.devRef .tc b) := by
  unfold W6
  rw [Function.update_of_ne (StableHlo.devRef_ne_of_ne h1), Function.update_of_ne (StableHlo.devRef_ne_of_ne h0)]

theorem W8_out0 (c : Dev nD) : W8 m c (Proc.devRef .tc main_v30_0) = (dat2 (V7 m) c).arrAt 4 cfg2.N := by
  unfold W8
  rw [Function.update_of_ne (StableHlo.devRef_ne_of_ne (by decide : main_v30_0 ≠ main_v30_1))]
  exact Function.update_self ..
theorem W8_out1 (c : Dev nD) : W8 m c (Proc.devRef .tc main_v30_1) = (dat2 (V7 m) c).arrAt 5 cfg2.N := by
  unfold W8; exact Function.update_self ..
theorem W8_of_ne (c : Dev nD) (b : Ref sig .tc) (h0 : b ≠ main_v30_0) (h1 : b ≠ main_v30_1) :
    W8 m c (Proc.devRef .tc b) = W7 m c (Proc.devRef .tc b) := by
  unfold W8
  rw [Function.update_of_ne (StableHlo.devRef_ne_of_ne h1), Function.update_of_ne (StableHlo.devRef_ne_of_ne h0)]

theorem W10_out (c : Dev nD) : W10 m c (Proc.devRef .tc main_v32) = (dat3 (V9 m) c).arrAt 5 cfg3.N := by
  unfold W10; exact Function.update_self ..
theorem W10_of_ne (c : Dev nD) (b : Ref sig .tc) (hb : b ≠ main_v32) : W10 m c (Proc.devRef .tc b) = W9 m c (Proc.devRef .tc b) := by
  unfold W10; exact Function.update_of_ne (StableHlo.devRef_ne_of_ne hb) _ _

end Cert.KernelIdeal.Hand

end
-- ==== Proof.Run.lean ====
/-
  The run of the whole program: four pipelined kernel regions among stretches of host operations.
  The contents of every unscoped buffer are followed from the launch to the return: a host stretch applies its
  operations, a region leaves its input arrays as they were and each output array at what its write-backs make of it.
  Region 1 reads one array through two windows: that array is held in two half shares while the region runs.
  At the return every unscoped buffer holds the last contents so computed.
-/
import proofs.«133161_j49383533969583_1_alg».proof.Proof.Fold
import proofs.«133161_j49383533969583_1_alg».proof.Proof.Gen.KernelIdeal.Launch
import proofs.«133161_j49383533969583_1_alg».proof.Proof.Gen.KernelIdeal.Skeleton
import proofs.«133161_j49383533969583_1_alg».proof.Proof.Gen.KernelIdeal.Points
import proofs.«133161_j49383533969583_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- At region 0's exit each of its arrays holds what the pipeline leaves, every other buffer what it held. -/
theorem hF0 (c : Dev nD) (w : Fin cfg0.W) : (dat0 (V3 m) c).arrAt w cfg0.N = V4 m c (Pipeline.arrRef spec0 w) := by
  fin_cases w
  · exact (((dat0 (V3 m) c).arrAt_in 0 rfl _).trans (A_eq0 (V3 m) c 0)).trans (W4_of_ne m c main_arg0 (by decide)).symm
  · exact (((dat0 (V3 m) c).arrAt_in 1 rfl _).trans (A_eq0 (V3 m) c 1)).trans (W4_of_ne m c main_v7 (by decide)).symm
  · exact (W4_out m c).symm
theorem hrest0 (c : Dev nD) : ∀ b, b ∉ Finset.univ.image (Pipeline.arrRef spec0) → V4 m c b = V3 m c b :=
  fun b hb => W4_of_ne m c b fun h => hb (h ▸ Finset.mem_image.mpr ⟨2, Finset.mem_univ _, rfl⟩)

theorem hF2 (c : Dev nD) (w : Fin cfg2.W) : (dat2 (V7 m) c).arrAt w cfg2.N = V8 m c (Pipeline.arrRef spec2 w) := by
  fin_cases w
  · exact (((dat2 (V7 m) c).arrAt_in 0 rfl _).trans (A_eq2 (V7 m) c 0)).trans (W8_of_ne m c main_v29 (by decide) (by decide)).symm
  · exact (((dat2 (V7 m) c).arrAt_in 1 rfl _).trans (A_eq2 (V7 m) c 1)).trans (W8_of_ne m c main_v7 (by decide) (by decide)).symm
  · exact (((dat2 (V7 m) c).arrAt_in 2 rfl _).trans (A_eq2 (V7 m) c 2)).trans (W8_of_ne m c main_v19_0 (by decide) (by decide)).symm
  · exact (((dat2 (V7 m) c).arrAt_in 3 rfl _).trans (A_eq2 (V7 m) c 3)).trans (W8_of_ne m c main_arg0 (by decide) (by decide)).symm
  · exact (W8_out0 m c).symm
  · exact (W8_out1 m c).symm
theorem hrest2 (c : Dev nD) : ∀ b, b ∉ Finset.univ.image (Pipeline.arrRef spec2) → V8 m c b = V7 m c b :=
  fun b hb => W8_of_ne m c b (fun h => hb (h ▸ Finset.mem_image.mpr ⟨4, Finset.mem_univ _, rfl⟩))
    (fun h => hb (h ▸ Finset.mem_image.mpr ⟨5, Finset.mem_univ _, rfl⟩))

theorem hF3 (c : Dev nD) (w : Fin cfg3.W) : (dat3 (V9 m) c).arrAt w cfg3.N = V10 m c (Pipeline.arrRef spec3 w) := by
  fin_cases w
  · exact (((dat3 (V9 m) c).arrAt_in 0 rfl _).trans (A_eq3 (V9 m) c 0)).trans (W10_of_ne m c main_arg0 (by decide)).symm
  · exact (((dat3 (V9 m) c).arrAt_in 1 rfl _).trans (A_eq3 (V9 m) c 1)).trans (W10_of_ne m c main_v19_0 (by decide)).symm
  · exact (((dat3 (V9 m) c).arrAt_in 2 rfl _).trans (A_eq3 (V9 m) c 2)).trans (W10_of_ne m c main_v30_0 (by decide)).symm
  · exact (((dat3 (V9 m) c).arrAt_in 3 rfl _).trans (A_eq3 (V9 m) c 3)).trans (W10_of_ne m c main_arg3 (by decide)).symm
  · exact (((dat3 (V9 m) c).arrAt_in 4 rfl _).trans (A_eq3 (V9 m) c 4)).trans (W10_of_ne m c main_v31 (by decide)).symm
  · exact (W10_out m c).symm
theorem hrest3 (c : Dev nD) : ∀ b, b ∉ Finset.univ.image (Pipeline.arrRef spec3) → V10 m c b = V9 m c b :=
  fun b hb => W10_of_ne m c b fun h => hb (h ▸ Finset.mem_image.mpr ⟨5, Finset.mem_univ _, rfl⟩)

/-- Region 1: what its windows' arrays hold at the exit, window by window (the two windows on one table agree). -/
theorem hF1 (c : Dev nD) (w : Fin cfg1.W) : (dat1 (V5 m) c).arrAt w cfg1.N = V6 m c (Pipeline.arrRef spec1 w) := by
  fin_cases w
  · exact (((dat1 (V5 m) c).arrAt_in 0 rfl _).trans (A_eq1 (V5 m) c 0)).trans (W6_of_ne m c main_v18 (by decide) (by decide)).symm
  · exact (((dat1 (V5 m) c).arrAt_in 1 rfl _).trans (A_eq1 (V5 m) c 1)).trans (W6_of_ne m c main_v7 (by decide) (by decide)).symm
  · exact (((dat1 (V5 m) c).arrAt_in 2 rfl _).trans (A_eq1 (V5 m) c 2)).trans (W6_of_ne m c main_arg0 (by decide) (by decide)).symm
  · exact (((dat1 (V5 m) c).arrAt_in 3 rfl _).trans (A_eq1 (V5 m) c 3)).trans (W6_of_ne m c main_arg0 (by decide) (by decide)).symm
  · exact (W6_out0 m c).symm
  · exact (W6_out1 m c).symm
theorem hrest1 (c : Dev nD) : ∀ b, b ∉ Finset.univ.image (Pipeline.arrRef spec1) → V6 m c b = V5 m c b :=
  fun b hb => W6_of_ne m c b (fun h => hb (h ▸ Finset.mem_image.mpr ⟨4, Finset.mem_univ _, rfl⟩))
    (fun h => hb (h ▸ Finset.mem_image.mpr ⟨5, Finset.mem_univ _, rfl⟩))

/-! ## The proof data family and the thread state -/

/-- Every pipeline's proof data, each at its region's entry contents. -/
def pdats : (p : Fin 4) → (c : Dev nD) → Dat τ (Elt F) Unit ℕ (UR sig nD τ) ℕ (Pipeline.pin (pcfgs (F := F)) Gen.adm p) c
  | ⟨0, _⟩ => fun c => dat0 (V3 m) c
  | ⟨1, _⟩ => fun c => dat1 (V5 m) c
  | ⟨2, _⟩ => fun c => dat2 (V7 m) c
  | ⟨3, _⟩ => fun c => dat3 (V9 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last contents, the generator register at some state. -/
abbrev Tₙ (c : Dev nD) : sProp 𝕄 := iprop(StableHlo.held (c : Thread nD τ) (Pipeline.ucRefs τ sig) (W10 m c) ∗ ∃ r, prngReg c r)

/-! ## The regions as segments -/

set_option backward.isDefEq.respectTransparency.types false in
/-- Region 0 over the thread state: entered from every unscoped buffer at its entry contents, left at its exit contents.
    Its arrays are taken out of the unscoped buffers and put back at the exit contents; the generator register goes into
    the region invariant and comes back; nothing is owed; the kernel has no semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1: one array behind two windows -/

/-- The five distinct buffers behind region 1's six windows. -/
theorem arrRefs1 : Finset.univ.image (Pipeline.arrRef spec1)
    = ([main_v18, main_v7, main_arg0, main_v19_0, main_v19_1] : List (Ref sig .tc)).toFinset := by decide

section Shares
variable (Vd : (c : Dev nD) → (b : Ref sig .tc) → Buf (Elt F) ((c : Thread nD τ).loc b)) (c : Dev nD)
theorem share1_0 : (dat1 Vd c).share 0 = fullShare := by unfold Dat.share; rw [if_neg (by decide)]; dsimp only [dat1]
theorem share1_1 : (dat1 Vd c).share 1 = fullShare := by unfold Dat.share; rw [if_neg (by decide)]; dsimp only [dat1]
theorem share1_2 : (dat1 Vd c).share 2 = fullShare.left := by unfold Dat.share; rw [if_neg (by decide)]; dsimp only [dat1]
theorem share1_3 : (dat1 Vd c).share 3 = fullShare.right := by unfold Dat.share; rw [if_neg (by decide)]; dsimp only [dat1]
theorem share1_4 : (dat1 Vd c).share 4 = fullShare := by unfold Dat.share; rw [if_pos (by decide)]
theorem share1_5 : (dat1 Vd c).share 5 = fullShare := by unfold Dat.share; rw [if_pos (by decide)]
end Shares

/-- Region 1's six arrays as points-to facts on the five buffers, the table read through two windows in two halves. -/
theorem arrays1_eq (c : Dev nD) (Vd : (c : Dev nD) → (b : Ref sig .tc) → Buf (Elt F) ((c : Thread nD τ).loc b))
    (Vx : (b : Ref sig .tc) → Buf (Elt F) ((c : Thread nD τ).loc b)) :
    ((dat1 Vd c).arrays (fun w => Vx (Pipeline.arrRef spec1 w)) : sProp 𝕄)
      = iprop((((c : Thread nD τ).loc main_v18) ↦{fullShare} Vx main_v18) ∗ (((c : Thread nD τ).loc main_v7) ↦{fullShare} Vx main_v7)
        ∗ (((c : Thread nD τ).loc main_arg0) ↦{fullShare.left} Vx main_arg0) ∗ (((c : Thread nD τ).loc main_arg0) ↦{fullShare.right} Vx main_arg0)
        ∗ (((c : Thread nD τ).loc main_v19_0) ↦{fullShare} Vx main_v19_0) ∗ (((c : Thread nD τ).loc main_v19_1) ↦{fullShare} Vx main_v19_1)) := by
  unfold Dat.arrays
  rw [bigSep_W1, share1_0, share1_1, share1_2, share1_3, share1_4, share1_5]
  simp only [View.set_whole]

/-- The five buffers behind region 1's windows, one by one. -/
theorem arrBufs1_eq (c : Dev nD) (Vx : (b : Ref sig .tc) → Buf (Elt F) ((c : Thread nD τ).loc b)) :
    (Pipeline.arrBufs (Ix := Unit) (Name := ℕ) (U := UR sig nD τ) (Lvl := ℕ) spec1 c Vx : sProp 𝕄)
      = iprop((((c : Thread nD τ).loc main_v18) ↦{fullShare} Vx main_v18) ∗ (((c : Thread nD τ).loc main_v7) ↦{fullShare} Vx main_v7)
        ∗ (((c : Thread nD τ).loc main_arg0) ↦{fullShare} Vx main_arg0)
        ∗ (((c : Thread nD τ).loc main_v19_0) ↦{fullShare} Vx main_v19_0) ∗ (((c : Thread nD τ).loc main_v19_1) ↦{fullShare} Vx main_v19_1)) := by
  unfold Pipeline.arrBufs
  rw [bigSep_eq_bigSepL_of_eq _ arrRefs1 (by decide)]
  simp only [bigSepL_cons_cons, bigSepL_singleton]
  rfl

/-- Entering region 1: every unscoped buffer held whole gives the region's arrays (the twice-read table in two halves)
    and the rest. -/
theorem enter1 (c : Dev nD) :
    (StableHlo.held (c : Thread nD τ) (Pipeline.ucRefs τ sig) (W5 m c) : sProp 𝕄)
      ⊢ iprop((dat1 (V5 m) c).arrays ((dat1 (V5 m) c).arrAt · 0)
          ∗ Pipeline.unscopedRest (Ix := Unit) (Name := ℕ) (U := UR sig nD τ) (Lvl := ℕ) spec1 c (V5 m c)) := by
  have hs : (unscopedBufs c (V5 m c) : sProp 𝕄) = iprop(Pipeline.arrBufs spec1 c (V5 m c) ∗ Pipeline.unscopedRest spec1 c (V5 m c)) :=
    Pipeline.unscopedBufs_split₀ cfgs 1 winFacts₀1.arr_unscoped c (V5 m c)
  rw [← Pipeline.unscopedBufs_held (Ix := Unit) (Name := ℕ) (U := UR sig nD τ) (Lvl := ℕ) c (W5 m c), hs,
    show ((dat1 (V5 m) c).arrAt · 0) = fun w => V5 m c (Pipeline.arrRef spec1 w) from funext fun w => A_eq1 (V5 m) c w,
    arrays1_eq c (V5 m) (V5 m c), arrBufs1_eq c (V5 m c)]
  iintro ⟨⟨H0, H1, H2, H3, H4⟩, Hrest⟩
  ihave H2' := (pointsTo_share (PosShare.mem_left_op_right fullShare)).1 $$ H2
  icases H2' with ⟨H2a, H2b⟩
  isplitr [Hrest]
  · isplitl [H0]; · iexact H0
    isplitl [H1]; · iexact H1
    isplitl [H2a]; · iexact H2a
    isplitl [H2b]; · iexact H2b
    isplitl [H3]; · iexact H3
    iexact H4
  iexact Hrest

/-- Leaving region 1: the arrays at their final contents (the two halves of the twice-read table rejoined) and the rest
    are every unscoped buffer at the exit contents. -/
theorem leave1 (c : Dev nD) :
    iprop((dat1 (V5 m) c).arrays ((dat1 (V5 m) c).arrAt · cfg1.N)
        ∗ Pipeline.unscopedRest (Ix := Unit) (Name := ℕ) (U := UR sig nD τ) (Lvl := ℕ) spec1 c (V5 m c))
      ⊢ (StableHlo.held (c : Thread nD τ) (Pipeline.ucRefs τ sig) (W6 m c) : sProp 𝕄) := by
  have hrest : (Pipeline.unscopedRest (Ix := Unit) (Name := ℕ) (U := UR sig nD τ) (Lvl := ℕ) spec1 c (V5 m c) : sProp 𝕄)
      = Pipeline.unscopedRest spec1 c (V6 m c) := by
    unfold Pipeline.unscopedRest
    exact bigSep_congr fun b hb => by rw [hrest1 m c b (Finset.mem_sdiff.mp hb).2]
  have hs : (unscopedBufs c (V6 m c) : sProp 𝕄) = iprop(Pipeline.arrBufs spec1 c (V6 m c) ∗ Pipeline.unscopedRest spec1 c (V6 m c)) :=
    Pipeline.unscopedBufs_split₀ cfgs 1 winFacts₀1.arr_unscoped c (V6 m c)
  rw [← Pipeline.unscopedBufs_held (Ix := Unit) (Name := ℕ) (U := UR sig nD τ) (Lvl := ℕ) c (W6 m c), hs,
    show ((dat1 (V5 m) c).arrAt · cfg1.N) = fun w => V6 m c (Pipeline.arrRef spec1 w) from funext fun w => hF1 m c w,
    arrays1_eq c (V5 m) (V6 m c), arrBufs1_eq c (V6 m c), hrest]
  iintro ⟨⟨H0, H1, H2a, H2b, H3, H4⟩, Hrest⟩
  ihave H2 := (pointsTo_share (PosShare.mem_left_op_right fullShare)).2 $$ [H2a H2b]
  · isplitl [H2a]; · iexact H2a
    iexact H2b
  isplitr [Hrest]
  · isplitl [H0]; · iexact H0
    isplitl [H1]; · iexact H1
    isplitl [H2]; · iexact H2
    isplitl [H3]; · iexact H3
    iexact H4
  iexact Hrest

set_option backward.isDefEq.respectTransparency.types false in
/-- Region 1 over the thread state. One table is read through two windows, so its buffer is held in two halves while the
    region runs; otherwise as the other regions. -/
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    iintro ⟨⟨Hub, Hp, HO⟩, -, -⟩
    ihave H := (enter1 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (leave1 m c)
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at its entry contents, left at its exit contents.
    Its arrays are taken out of the unscoped buffers and put back at the exit contents; the generator register goes into
    the region invariant and comes back; nothing is owed; the kernel has no semaphore of its own. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (V7 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (V7 m c) (V8 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at its entry contents, left at its exit contents.
    Its arrays are taken out of the unscoped buffers and put back at the exit contents; the generator register goes into
    the region invariant and comes back; nothing is owed; the kernel has no semaphore of its own. -/
def reg3 : Pipeline.RegionSeg (pcfgs (F := F)) Gen.adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V9 m) c).loose
  hwaits := Pipeline.hwaits_of_owed_zero _ _ _ _ L lv 3 fun _ _ => rfl
  pre c := iprop(StableHlo.held (c : Thread nD τ) (Pipeline.ucRefs τ sig) (W9 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V9 m c)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (V9 m c) (V10 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's ten items in order: a host segment per stretch from its boundary's contents, a region per kernel call. -/
abbrev segs : List (Pipeline.Seg (pcfgs (F := F)) Gen.adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m),
    .host (hseg hostOps3 hostOps3_sub hostOps3_fresh (W8 m)),
    .region (reg3 m) ]
/-- The program is the run of its segments. -/
theorem main_run (c : Dev nD) : main (F := F) c = Pipeline.Seg.run (segs m) := by
  rw [main_chain c, Pipeline.Seg.run_eq_chain]
  rfl

set_option backward.isDefEq.respectTransparency.types false in
/-- Every weakly fair execution of the program from memory `m` with zero counters terminates, nothing faulting, and at
    the end every unscoped buffer holds the last contents of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) Gen.adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

end Cert.KernelIdeal.Hand

end
-- ==== Proof.Kept.lean ====
/-
  No item of the program writes an argument: each argument's buffer holds at the return what it held at launch.

  A host stretch changes only the buffers its operations write, and a kernel region only its output arrays. A buffer
  that is in none of the host stretches' written lists and is no region's output is therefore carried unchanged across
  every boundary, from the launch to the return; the five arguments are such buffers.
-/
import proofs.«133161_j49383533969583_1_alg».proof.Proof.Fold

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ)

/-- A buffer that no host stretch writes and that is no region's output holds at the return what it held at launch:
    boundary by boundary, a region's exit keeps every buffer but its outputs, and a host stretch keeps every buffer
    outside its written list. -/
theorem W10_of_unwritten (c : Dev nD) (r : Ref sig .tc)
    (h0 : r ∉ hostOps0_W) (h1 : r ∉ hostOps0_1_W) (h2 : r ∉ hostOps0_2_W)
    (hr0 : r ≠ main_v8)
    (h4 : r ∉ hostOps1_W)
    (hr1a : r ≠ main_v19_0) (hr1b : r ≠ main_v19_1)
    (h6 : r ∉ hostOps2_W)
    (hr2a : r ≠ main_v30_0) (hr2b : r ≠ main_v30_1)
    (h8 : r ∉ hostOps3_W)
    (hr3 : r ≠ main_v32) :
    W10 m c (Proc.devRef .tc r) = m ((c : Thread nD τ).loc r) :=
  (W10_of_ne m c r hr3).trans <|
  (StableHlo.after_of_writes_sub hostOps3 _ hostOps3_writes h8).trans <|
  (W8_of_ne m c r hr2a hr2b).trans <|
  (StableHlo.after_of_writes_sub hostOps2 _ hostOps2_writes h6).trans <|
  (W6_of_ne m c r hr1a hr1b).trans <|
  (StableHlo.after_of_writes_sub hostOps1 _ hostOps1_writes h4).trans <|
  (W4_of_ne m c r hr0).trans <|
  (StableHlo.after_of_writes_sub hostOps0_2 _ hostOps0_2_writes h2).trans <|
  (StableHlo.after_of_writes_sub hostOps0_1 _ hostOps0_1_writes h1).trans <|
  (StableHlo.after_of_writes_sub hostOps0 _ hostOps0_writes h0).trans rfl

/-- The node table is as launched. -/
theorem W10_main_arg0 (m : (ℓ : Loc nD τ sig) → Buf (Elt F) ℓ) (c : Dev nD) :
    W10 m c (Proc.devRef .tc main_arg0) = m ((c : Thread nD τ).loc main_arg0) :=
  W10_of_unwritten m c main_arg0 (by decide) (by decide) (by decide) (by decide) (by decide) (by decide) (by decide)
    (by decide) (by decide) (by decide) (by decide) (by decide)

/-- The source nodes of the edges are as launched. -/
theorem W10_main_arg1 (m : (ℓ : Loc nD τ sig) → Buf (Elt F) ℓ) (c : Dev nD) :
    W10 m c (Proc.devRef .tc main_arg1) = m ((c : Thread nD τ).loc main_arg1) :=
  W10_of_unwritten m c main_arg1 (by decide) (by decide) (by decide) (by decide) (by decide) (by decide) (by decide)
    (by decide) (by decide) (by decide) (by decide) (by decide)

/-- The destination nodes of the edges are as launched. -/
theorem W10_main_arg2 (m : (ℓ : Loc nD τ sig) → Buf (Elt F) ℓ) (c : Dev nD) :
    W10 m c (Proc.devRef .tc main_arg2) = m ((c : Thread nD τ).loc main_arg2) :=
  W10_of_unwritten m c main_arg2 (by decide) (by decide) (by decide) (by decide) (by decide) (by decide) (by decide)
    (by decide) (by decide) (by decide) (by decide) (by decide)

/-- The weight table is as launched. -/
theorem W10_main_arg3 (m : (ℓ : Loc nD τ sig) → Buf (Elt F) ℓ) (c : Dev nD) :
    W10 m c (Proc.devRef .tc main_arg3) = m ((c : Thread nD τ).loc main_arg3) :=
  W10_of_unwritten m c main_arg3 (by decide) (by decide) (by decide) (by decide) (by decide) (by decide) (by decide)
    (by decide) (by decide) (by decide) (by decide) (by decide)

/-- The bias vector is as launched. -/
theorem W10_main_arg4 (m : (ℓ : Loc nD τ sig) → Buf (Elt F) ℓ) (c : Dev nD) :
    W10 m c (Proc.devRef .tc main_arg4) = m ((c : Thread nD τ).loc main_arg4) :=
  W10_of_unwritten m c main_arg4 (by decide) (by decide) (by decide) (by decide) (by decide) (by decide) (by decide)
    (by decide) (by decide) (by decide) (by decide) (by decide)

end Cert.KernelIdeal.Hand

end
-- ==== Proof.Spec.lean ====
/-
  The Chebyshev graph convolution of order three as functions of whole arrays over the extended reals.
  A node table x : [100000, 64] is scaled row by row by a column d : [100000, 1] (the inverse square roots of the
  clipped in-degrees); one step of the recursion combines the scaled aggregate of the previous table with the two
  tables before it; the result is the rectified sum of three 64-wide products with the three row blocks of the
  weight table W : [192, 64] plus the bias row. The aggregation over the edges (gather the rows at the source
  nodes, add them up at the destination nodes) and the degree column enter as parameters: both programs compute
  them by the same host operations.
-/
import Idealize.ShloMosaic.PureOps.Ideal
import Idealize.ShloMosaic.Lib.ValueIdx

noncomputable section

namespace Cert.Cheb

open Idealize.ShloMosaic Idealize.ShloMosaic.ValueIdx

abbrev SN64 : Shape := ⟨2, ![100000, 64]⟩
abbrev SN1 : Shape := ⟨2, ![100000, 1]⟩
abbrev SW : Shape := ⟨2, ![192, 64]⟩
abbrev SB : Shape := ⟨2, ![1, 64]⟩
abbrev SV : Shape := ⟨1, ![64]⟩

/-- The float constants the two programs share, as extended reals: 0, -1, -2. -/
abbrev cZ : EReal := Ideal.ofBits .f32 0x00000000#32
abbrev cM1 : EReal := Ideal.ofBits .f32 0xBF800000#32
abbrev cM2 : EReal := Ideal.ofBits .f32 0xC0000000#32

/-- Row r of the table x times entry r of the column d. -/
def scale (x : FVec Ideal SN64 .f32) (d : FVec Ideal SN1 .f32) : FVec Ideal SN64 .f32 :=
  fun j => x j * d (ix2 (j 0) (0 : Fin 1))

/-- One step of the recursion: a · (agg · d) + b · self + c · prev, entry by entry. -/
def cheb (a b c : EReal) (agg : FVec Ideal SN64 .f32) (d : FVec Ideal SN1 .f32) (self prev : FVec Ideal SN64 .f32) :
    FVec Ideal SN64 .f32 :=
  fun j => (a * (agg j * d (ix2 (j 0) (0 : Fin 1))) + b * self j) + c * prev j

/-- Row r of x times row block o of W (rows o .. o+63), at column q. -/
def blockDot (x : FVec Ideal SN64 .f32) (W : FVec Ideal SW .f32) (o : Nat) (ho : o + 64 ≤ 192) (r : Fin 100000) (q : Fin 64) : EReal :=
  ∑ k : Fin 64, x (ix2 r k) * W (ix2 (⟨o + k.val, by have := k.isLt; omega⟩ : Fin 192) q)

/-- The rectified dense layer over the three tables: max(x0·W[0:64] + x1·W[64:128] + x2·W[128:192] + b, 0). -/
def dense (x0 x1 x2 : FVec Ideal SN64 .f32) (W : FVec Ideal SW .f32) (b : FVec Ideal SB .f32) : FVec Ideal SN64 .f32 :=
  fun j => max ((((blockDot x0 W 0 (by omega) (j 0) (j 1)) + blockDot x1 W 64 (by omega) (j 0) (j 1))
      + blockDot x2 W 128 (by omega) (j 0) (j 1)) + b (ix2 (0 : Fin 1) (j 1))) cZ

/-- A vector of 64 entries as a table of one row. -/
def row (b : FVec Ideal SV .f32) : FVec Ideal SB .f32 := fun j => b (ix1 (j 1))

/-- The layer, given the edge aggregation A and the degree column d. -/
def layer (A : FVec Ideal SN64 .f32 → FVec Ideal SN64 .f32) (d : FVec Ideal SN1 .f32)
    (feat : FVec Ideal SN64 .f32) (W : FVec Ideal SW .f32) (b : FVec Ideal SB .f32) : FVec Ideal SN64 .f32 :=
  let x1 := cheb cM1 cZ cZ (A (scale feat d)) d feat feat
  let x2 := cheb cM2 cZ cM1 (A (scale x1 d)) d x1 feat
  dense feat x1 x2 W b

end Cert.Cheb

end
-- ==== Proof.LibScaleTile.lean ====
/-
  A tile scaled by a column on the left and a row on the right, read at one entry.

  For a tile `a` of shape [r, l], a column `ci` of shape [r, 1] and a row `rj` of shape [1, l], the vector
  expression  (broadcast ci) * a * (broadcast rj)  — the column broadcast along the lanes, the row along the
  sublanes, the two products taken left to right — has at entry (p, q) the value  (ci[p,0] * a[p,q]) * rj[0,q].
  Every operation involved is pointwise or a re-indexing, so this holds at every float instance: nothing about
  the arithmetic of the products is used. A consequence used for tiles that are only partly meaningful: the
  entry (p, q) depends on the operands only through ci[p,0], a[p,q] and rj[0,q].
  Also the keepdims column forms the library's layout lemmas leave out: a column [r, 1] broadcast along the lanes, and
  a vector [a] cast to a column [a, 1].
-/
import Idealize.ShloMosaic.Lib.Pipeline.Value
import Idealize.ShloMosaic.Lib.ValueLayout

noncomputable section

namespace Cert.ScaleTile

open Idealize.ShloMosaic Idealize.ShloMosaic.ValueIdx

variable {α : Type}

/-- A column [r, 1] broadcast along the lanes to [r, l] reads, at (p, q), the column's entry p. -/
theorem colBroadcast_apply {r l : ℕ} (v : (⟨2, ![r, 1]⟩ : Shape).Idx → α) (h : (⟨2, ![r, 1]⟩ : Shape).Broadcasts ⟨2, ![r, l]⟩)
    (p : Fin r) (q : Fin l) : broadcastTo ⟨2, ![r, l]⟩ v h (ix2 p q) = v (ix2 p (0 : Fin 1)) := by
  refine broadcastTo_apply v h (ix2 p q) (ix2 p (0 : Fin 1)) fun ax => ?_
  match ax with
  | ⟨0, _⟩ =>
    show p.val = if r = 1 then 0 else p.val
    split
    · have := p.isLt; omega
    · rfl
  | ⟨1, _⟩ => rfl

/-- A vector [a] cast to a column [a, 1] reads, at (i, 0), the vector's entry i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

variable {F : FTy → Type} [FloatOps F]

/-- The scaled tile at entry (p, q): the column's entry p times the tile's entry (p, q), times the row's entry q. The two
    shape casts are casts of a shape to itself, as the kernel's lowering leaves them. -/
theorem scaled_apply {r l : ℕ} (ci : FVec F ⟨2, ![r, 1]⟩ .f32) (a : FVec F ⟨2, ![r, l]⟩ .f32) (rj : FVec F ⟨2, ![1, l]⟩ .f32)
    (hc : (⟨2, ![r, 1]⟩ : Shape).ShapeCasts ⟨2, ![r, 1]⟩) (hcb : (⟨2, ![r, 1]⟩ : Shape).Broadcasts ⟨2, ![r, l]⟩)
    (hr : (⟨2, ![1, l]⟩ : Shape).ShapeCasts ⟨2, ![1, l]⟩) (hrb : (⟨2, ![1, l]⟩ : Shape).Broadcasts ⟨2, ![r, l]⟩)
    (p : Fin r) (q : Fin l) :
    mulf (mulf (broadcastTo ⟨2, ![r, l]⟩ (shapeCast ⟨2, ![r, 1]⟩ ci hc) hcb) a)
        (broadcastTo ⟨2, ![r, l]⟩ (shapeCast ⟨2, ![1, l]⟩ rj hr) hrb) (ix2 p q)
      = FloatOps.mulf (FloatOps.mulf (ci (ix2 p (0 : Fin 1))) (a (ix2 p q))) (rj (ix2 (0 : Fin 1) q)) := by
  show FloatOps.mulf (FloatOps.mulf (broadcastTo ⟨2, ![r, l]⟩ (shapeCast ⟨2, ![r, 1]⟩ ci hc) hcb (ix2 p q)) (a (ix2 p q)))
      (broadcastTo ⟨2, ![r, l]⟩ (shapeCast ⟨2, ![1, l]⟩ rj hr) hrb (ix2 p q)) = _
  rw [colBroadcast_apply, broadcastTo_1b_ab_apply, shapeCast_self, shapeCast_self]

end Cert.ScaleTile

end
-- ==== Proof.Value0.lean ====
/-
  What the row-scaling region leaves in its result array, as one function of the arrays it is entered with, over
  the extended reals: row r of the table times entry r of the column.

  Grid point t handles rows 10000 t to 10000 t + 9999: the table's block, the column's block and the result's block
  at t all start at row 10000 t, so entry (p, q) of each block is entry (10000 t + p, q) of its array (q = 0 for the
  column). The body's payload at (p, q) is the table block's entry (p, q) times the column block's entry (p, 0);
  hence what point t writes back is the block at t of the scaled table. The ten blocks cover the hundred thousand
  rows (row r lies in the block of point r / 10000), so the result array ends holding the scaled table.
-/
import proofs.«133161_j49383533969583_1_alg».proof.Proof.Frame0
import proofs.«133161_j49383533969583_1_alg».proof.Proof.Spec
import proofs.«133161_j49383533969583_1_alg».proof.Proof.LibScaleTile
import Idealize.ShloMosaic.Lib.Pipeline.Value
import Idealize.ShloMosaic.Lib.ValueIdx
import Idealize.ShloMosaic.Lib.ValueLayout

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b)) (c : Dev nD)

namespace Region0

/-! ## The payload at an entry -/

/-- The offsets of a whole-buffer access are zero on both axes. -/
theorem zero_off : (![0, 0] : Fin 2 → Nat) = fun _ => 0 := funext fun a => by fin_cases a <;> rfl

/-- Entry (p, q) of the body's product: the table block's entry (p, q) times the column block's entry (p, 0). -/
theorem pay_apply (x0 : FVec Ideal S10000x64 .f32) (x1 : FVec Ideal S10000x1 .f32) (p : Fin 10000) (q : Fin 64) :
    k0_pay1 x0 x1 (ix2 p q) = x0 (ix2 p q) * x1 (ix2 p (0 : Fin 1)) := by
  show mulf x0 (broadcastTo S10000x64 (shapeCast S10000x1 x1 shapeCasts_S10000x1_S10000x1) broadcasts_S10000x1_S10000x64) (ix2 p q) = _
  rw [mulf_apply, Cert.ScaleTile.colBroadcast_apply, shapeCast_self]

/-! ## Where the blocks sit in their arrays -/

/-- The grid has ten points. -/
theorem point_lt (t : Fin cfg0.N) : t.val < 10 := lt_of_lt_of_eq t.isLt N_0

/-- Row p of the block at point t is row 10000 t + p of the array. -/
def rowAt (t : Fin cfg0.N) (p : Fin 10000) : Fin 100000 :=
  ⟨t.val * 10000 + p.val, by have := point_lt t; have := p.isLt; omega⟩

/-- The three index maps over the grid: each window's block at point t is row block t, column block 0. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Entry (p, q) of the table's block at t sits at (10000 t + p, q) of the table. -/
theorem emb_table (t : Fin cfg0.N) (p : Fin 10000) (q : Fin 64) :
    ((cfg0.win 0).blk t).view.emb (ix2 p q) = (ix2 (rowAt t p) q : S100000x64.Idx) := by
  obtain ⟨e0, e1, -, -, -, -⟩ := block_index t
  funext a; apply Fin.ext
  match a with
  | ⟨0, _⟩ => show win0_0.index t (0 : Fin 2) * 10000 + 1 * p.val = t.val * 10000 + p.val; rw [e0]; omega
  | ⟨1, _⟩ => show win0_0.index t (1 : Fin 2) * 64 + 1 * q.val = q.val; rw [e1]; omega

/-- Entry (p, 0) of the column's block at t sits at (10000 t + p, 0) of the column. -/
theorem emb_column (t : Fin cfg0.N) (p : Fin 10000) (u : Fin 1) :
    ((cfg0.win 1).blk t).view.emb (ix2 p u) = (ix2 (rowAt t p) (0 : Fin 1) : S100000x1.Idx) := by
  obtain ⟨-, -, e2, e3, -, -⟩ := block_index t
  funext a; apply Fin.ext
  match a with
  | ⟨0, _⟩ => show win0_1.index t (0 : Fin 2) * 10000 + 1 * p.val = t.val * 10000 + p.val; rw [e2]; omega
  | ⟨1, _⟩ => show win0_1.index t (1 : Fin 2) * 1 + 1 * u.val = 0; rw [e3]; have := u.isLt; omega

/-- Entry (p, q) of the result's block at t sits at (10000 t + p, q) of the result. -/
theorem emb_result (t : Fin cfg0.N) (p : Fin 10000) (q : Fin 64) :
    ((cfg0.win 2).blk t).view.emb (ix2 p q) = (ix2 (rowAt t p) q : S100000x64.Idx) := by
  obtain ⟨-, -, -, -, e4, e5⟩ := block_index t
  funext a; apply Fin.ext
  match a with
  | ⟨0, _⟩ => show win0_2.index t (0 : Fin 2) * 10000 + 1 * p.val = t.val * 10000 + p.val; rw [e4]; omega
  | ⟨1, _⟩ => show win0_2.index t (1 : Fin 2) * 64 + 1 * q.val = q.val; rw [e5]; omega

/-! ## What a point writes back -/

/-- The table as the region finds it, at its literal type. -/
abbrev tableAt : FVec Ideal S100000x64 .f32 := V c main_arg0
/-- The column as the region finds it, at its literal type. -/
abbrev columnAt : FVec Ideal S100000x1 .f32 := V c main_v7

/-- Point t writes back the block at t of the scaled table. -/
theorem flushed_eq (t : Fin cfg0.N) :
    (dat0 (F := Ideal) V c).flushed 2 t
      = ((cfg0.win 2).blk t).view.read (Elt Ideal) (Cert.Cheb.scale (V c main_arg0) (V c main_v7)) := by
  show (cfg0.win 2).cut (grid0.coords t) ((dat0 V c).after 2 t) = _
  rw [after0_2]
  unfold out0_2
  rw [View.canon_unit_zero zero_off]
  simp only [View.ld_unit_zero (S := S10000x64) zero_off, View.ld_unit_zero (S := S10000x1) zero_off]
  funext j
  obtain ⟨p, q, rfl⟩ : ∃ (p : Fin 10000) (q : Fin 64), j = ix2 p q := ⟨j 0, j 1, eq_ix2 j⟩
  show k0_pay1 (iblk0 V c 0 t) (iblk0 V c 1 t) (ix2 p q)
    = Cert.Cheb.scale (V c main_arg0) (V c main_v7) (((cfg0.win 2).blk t).view.emb (ix2 p q))
  rw [pay_apply, emb_result]
  show tableAt V c (((cfg0.win 0).blk t).view.emb (ix2 p q)) * columnAt V c (((cfg0.win 1).blk t).view.emb (ix2 p (0 : Fin 1)))
    = tableAt V c (ix2 (rowAt t p) q) * columnAt V c (ix2 (rowAt t p) (0 : Fin 1))
  rw [emb_table, emb_column]

/-! ## The blocks cover the array -/

/-- An index of the result array is in the block of point t iff each coordinate is in the block's range. -/
theorem mem_block (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v8).slice (win0_2.rect t)).set ↔ _
  rw [View.set_slice_whole, Rect.mem_set_unit]
  exact Iff.rfl

/-- Row r lies in the block of point r / 10000. -/
theorem covered (i : S100000x64.Idx) :
    ∃ t : Fin cfg0.N, (cfg0.win 2).flush t = true ∧ i ∈ ((cfg0.win 2).blk t).view.set := by
  have hr : (i 0).val < 100000 := (i 0).isLt
  have hq : (i 1).val < 64 := (i 1).isLt
  have hN : cfg0.N = 10 := N_0
  let t : Fin cfg0.N := ⟨(i 0).val / 10000, by rw [hN]; omega⟩
  obtain ⟨-, -, -, -, e4, e5⟩ := block_index t
  have ht : t.val = (i 0).val / 10000 := rfl
  refine ⟨t, flush0_2 t, ?_⟩
  rw [mem_block]
  intro a
  match a with
  | ⟨0, _⟩ =>
    show win0_2.index t (0 : Fin 2) * 10000 ≤ (i 0).val ∧ (i 0).val < win0_2.index t (0 : Fin 2) * 10000 + 10000
    rw [e4, ht]; omega
  | ⟨1, _⟩ =>
    show win0_2.index t (1 : Fin 2) * 64 ≤ (i 1).val ∧ (i 1).val < win0_2.index t (1 : Fin 2) * 64 + 64
    rw [e5]; omega

end Region0

/-! ## The array after the region -/

/-- The result array after the region is the table scaled row by row by the column. -/
theorem final0_2 : (Cert.KernelIdeal.Hand.dat0 (F := Ideal) V c).arrAt 2 cfg0.N = Cert.Cheb.scale (V c main_arg0) (V c main_v7) :=
  (dat0 (F := Ideal) V c).arrAt_eq_of_cover 2 (Cert.Cheb.scale (V c main_arg0) (V c main_v7))
    (fun t _ => Region0.flushed_eq V c t) Region0.covered

end Cert.KernelIdeal.HandValue

end
-- ==== Proof.Value1.lean ====
/-
  Region 1 of @main at the extended reals: each of its two output ARRAYS after the region as ONE function of the
  arrays the region finds.

  The body's two payloads are trees of pointwise operations, one shape cast of a shape to itself and one broadcast of
  the degree column [10000, 1] along the 64 lanes. So at row i and lane q of a block the x payload is
      (-1 · (a[i,q] · d[i,0]) + 0 · s[i,q]) + 0 · p[i,q]
  and the y payload is that times d[i,0]. At grid point t every window's block is row block t of its array (the index
  maps are all (t, 0), decided once over the ten points), so row i of the block is row 10000·t + i of the array: what
  point t writes back is row block t of the Chebyshev step of the whole arrays. The ten row blocks tile the array
  (row r lies in the block of point r / 10000), so the array ends holding that function everywhere.
-/
import proofs.«133161_j49383533969583_1_alg».proof.Proof.Frame1
import proofs.«133161_j49383533969583_1_alg».proof.Proof.Spec
import Idealize.ShloMosaic.Lib.Pipeline.Value
import Idealize.ShloMosaic.Lib.ValueIdx
import Idealize.ShloMosaic.Lib.ValueLayout
import proofs.«133161_j49383533969583_1_alg».proof.Proof.LibScaleTile

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b)) (c : Dev nD)

namespace Region1

/-! ## The payloads at an entry -/

/-- The x payload at row i, lane q. -/
theorem pay_x_apply (d : FVec Ideal S10000x1 .f32) (a s p : FVec Ideal S10000x64 .f32) (i : Fin 10000) (q : Fin 64) :
    k1_pay2 (F := Ideal) d a s p (ix2 i q)
      = (Cheb.cM1 * (a (ix2 i q) * d (ix2 i (0 : Fin 1))) + Cheb.cZ * s (ix2 i q)) + Cheb.cZ * p (ix2 i q) := by
  unfold k1_pay2 k1_pay1
  simp only [addf_apply, mulf_apply, broadcast_apply, shapeCast_self]
  rw [Cert.ScaleTile.colBroadcast_apply]
  rfl

/-- The y payload at row i, lane q: the x payload there times the column's entry i. -/
theorem pay_y_apply (d : FVec Ideal S10000x1 .f32) (a s p : FVec Ideal S10000x64 .f32) (i : Fin 10000) (q : Fin 64) :
    k1_pay3 (F := Ideal) d a s p (ix2 i q)
      = ((Cheb.cM1 * (a (ix2 i q) * d (ix2 i (0 : Fin 1))) + Cheb.cZ * s (ix2 i q)) + Cheb.cZ * p (ix2 i q)) * d (ix2 i (0 : Fin 1)) := by
  unfold k1_pay3
  simp only [mulf_apply]
  rw [pay_x_apply]
  unfold k1_pay1
  rw [shapeCast_self, Cert.ScaleTile.colBroadcast_apply]

/-! ## The entry contents and the two results, as whole arrays -/

/-- The x array: the first Chebyshev step of the arrays the region finds. -/
abbrev X1 : FVec Ideal Cheb.SN64 .f32 :=
  Cheb.cheb Cheb.cM1 Cheb.cZ Cheb.cZ (V c main_v18) (V c main_v7) (V c main_arg0) (V c main_arg0)

/-- The y array: x scaled row by row by the degree column. -/
abbrev Y1 : FVec Ideal Cheb.SN64 .f32 := Cheb.scale (X1 V c) (V c main_v7)

theorem zero_offsets : (![0, 0] : Fin 2 → Nat) = fun _ => 0 := funext fun a => by fin_cases a <;> rfl

/-- The printed index maps, decided over the ten points: every window's block index at point t is (t, 0). -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- Each input block at (i, q) is its array at row 10000·t + i (lane q; lane 0 for the column). -/
theorem blk0_apply (t : Fin cfg1.N) (i : Fin 10000) (q : Fin 64) (k : Fin 100000) (hk : k.val = 10000 * t.val + i.val) :
    (iblk1 V c 0 t : Vec Ideal S10000x64 .f32) (ix2 i q) = (V c main_v18 : S100000x64.Idx → Ideal .f32) (ix2 k q) := by
  obtain ⟨e0, e1, -⟩ := block_index t
  unfold iblk1
  rw [View.read_apply]
  show V c main_v18 _ = V c main_v18 _
  congr 1
  funext a
  apply Fin.ext
  match a with
  | ⟨0, _⟩ => show win1_0.index t (0 : Fin 2) * 10000 + 1 * i.val = k.val; rw [e0, hk]; omega
  | ⟨1, _⟩ => show win1_0.index t (1 : Fin 2) * 64 + 1 * q.val = q.val; rw [e1]; omega

theorem blk1_apply (t : Fin cfg1.N) (i : Fin 10000) (k : Fin 100000) (hk : k.val = 10000 * t.val + i.val) :
    (iblk1 V c 1 t : Vec Ideal S10000x1 .f32) (ix2 i (0 : Fin 1)) = (V c main_v7 : S100000x1.Idx → Ideal .f32) (ix2 k (0 : Fin 1)) := by
  obtain ⟨-, -, e0, e1, -⟩ := block_index t
  unfold iblk1
  rw [View.read_apply]
  show V c main_v7 _ = V c main_v7 _
  congr 1
  funext a
  apply Fin.ext
  match a with
  | ⟨0, _⟩ => show win1_1.index t (0 : Fin 2) * 10000 + 1 * i.val = k.val; rw [e0, hk]; omega
  | ⟨1, _⟩ => show win1_1.index t (1 : Fin 2) * 1 + 1 * 0 = 0; rw [e1]

theorem blk2_apply (t : Fin cfg1.N) (i : Fin 10000) (q : Fin 64) (k : Fin 100000) (hk : k.val = 10000 * t.val + i.val) :
    (iblk1 V c 2 t : Vec Ideal S10000x64 .f32) (ix2 i q) = (V c main_arg0 : S100000x64.Idx → Ideal .f32) (ix2 k q) := by
  obtain ⟨-, -, -, -, e0, e1, -⟩ := block_index t
  unfold iblk1
  rw [View.read_apply]
  show V c main_arg0 _ = V c main_arg0 _
  congr 1
  funext a
  apply Fin.ext
  match a with
  | ⟨0, _⟩ => show win1_2.index t (0 : Fin 2) * 10000 + 1 * i.val = k.val; rw [e0, hk]; omega
  | ⟨1, _⟩ => show win1_2.index t (1 : Fin 2) * 64 + 1 * q.val = q.val; rw [e1]; omega

theorem blk3_apply (t : Fin cfg1.N) (i : Fin 10000) (q : Fin 64) (k : Fin 100000) (hk : k.val = 10000 * t.val + i.val) :
    (iblk1 V c 3 t : Vec Ideal S10000x64 .f32) (ix2 i q) = (V c main_arg0 : S100000x64.Idx → Ideal .f32) (ix2 k q) := by
  obtain ⟨-, -, -, -, -, -, e0, e1, -⟩ := block_index t
  unfold iblk1
  rw [View.read_apply]
  show V c main_arg0 _ = V c main_arg0 _
  congr 1
  funext a
  apply Fin.ext
  match a with
  | ⟨0, _⟩ => show win1_3.index t (0 : Fin 2) * 10000 + 1 * i.val = k.val; rw [e0, hk]; omega
  | ⟨1, _⟩ => show win1_3.index t (1 : Fin 2) * 64 + 1 * q.val = q.val; rw [e1]; omega

/-- Where the two output windows' block at point t puts its entry (i, q): row 10000·t + i, lane q of the array. -/
theorem out4_emb (t : Fin cfg1.N) (i : Fin 10000) (q : Fin 64) (k : Fin 100000) (hk : k.val = 10000 * t.val + i.val) :
    ((cfg1.win 4).blk t).view.emb (ix2 i q) = (ix2 k q : S100000x64.Idx) := by
  obtain ⟨-, -, -, -, -, -, -, -, e0, e1, -⟩ := block_index t
  funext a
  apply Fin.ext
  match a with
  | ⟨0, _⟩ => show win1_4.index t (0 : Fin 2) * 10000 + 1 * i.val = k.val; rw [e0, hk]; omega
  | ⟨1, _⟩ => show win1_4.index t (1 : Fin 2) * 64 + 1 * q.val = q.val; rw [e1]; omega

theorem out5_emb (t : Fin cfg1.N) (i : Fin 10000) (q : Fin 64) (k : Fin 100000) (hk : k.val = 10000 * t.val + i.val) :
    ((cfg1.win 5).blk t).view.emb (ix2 i q) = (ix2 k q : S100000x64.Idx) := by
  obtain ⟨-, -, -, -, -, -, -, -, -, -, e0, e1⟩ := block_index t
  funext a
  apply Fin.ext
  match a with
  | ⟨0, _⟩ => show win1_5.index t (0 : Fin 2) * 10000 + 1 * i.val = k.val; rw [e0, hk]; omega
  | ⟨1, _⟩ => show win1_5.index t (1 : Fin 2) * 64 + 1 * q.val = q.val; rw [e1]; omega

/-! ## What a point writes back -/

/-- The x payload of the four input blocks at point t, entry (i, q), is the x array at row 10000·t + i, lane q. -/
theorem x_entry (t : Fin cfg1.N) (i : Fin 10000) (q : Fin 64) (k : Fin 100000) (hk : k.val = 10000 * t.val + i.val) :
    k1_pay2 (F := Ideal) (iblk1 V c 1 t) (iblk1 V c 0 t) (iblk1 V c 2 t) (iblk1 V c 3 t) (ix2 i q) = X1 V c (ix2 k q) := by
  rw [pay_x_apply, blk0_apply V c t i q k hk, blk1_apply V c t i k hk, blk2_apply V c t i q k hk, blk3_apply V c t i q k hk]
  rfl

/-- The y payload likewise is the y array there. -/
theorem y_entry (t : Fin cfg1.N) (i : Fin 10000) (q : Fin 64) (k : Fin 100000) (hk : k.val = 10000 * t.val + i.val) :
    k1_pay3 (F := Ideal) (iblk1 V c 1 t) (iblk1 V c 0 t) (iblk1 V c 2 t) (iblk1 V c 3 t) (ix2 i q) = Y1 V c (ix2 k q) := by
  rw [pay_y_apply, blk0_apply V c t i q k hk, blk1_apply V c t i k hk, blk2_apply V c t i q k hk, blk3_apply V c t i q k hk]
  rfl

theorem row_lt (t : Fin cfg1.N) (i : Fin 10000) : 10000 * t.val + i.val < 100000 := by
  have hN : cfg1.N = 10 := N_1
  have := t.isLt; have := i.isLt; omega

/-- Point t writes back row block t of the x array. -/
theorem flushed4_eq (t : Fin cfg1.N) :
    (dat1 V c).flushed 4 t = ((cfg1.win 4).blk t).view.read (Elt Ideal) (X1 V c) := by
  show (cfg1.win 4).cut (grid1.coords t) ((dat1 V c).after 4 t) = _
  rw [after1_4]
  unfold out1_4
  rw [View.canon_unit_zero zero_offsets]
  simp only [View.ld_unit_zero (S := S10000x64) zero_offsets, View.ld_unit_zero (S := S10000x1) zero_offsets]
  funext j
  obtain ⟨i, q, rfl⟩ : ∃ (i : Fin 10000) (q : Fin 64), j = ix2 i q := ⟨j 0, j 1, eq_ix2 j⟩
  rw [View.read_apply, out4_emb t i q ⟨10000 * t.val + i.val, row_lt t i⟩ rfl]
  exact x_entry V c t i q _ rfl

/-- Point t writes back row block t of the y array. -/
theorem flushed5_eq (t : Fin cfg1.N) :
    (dat1 V c).flushed 5 t = ((cfg1.win 5).blk t).view.read (Elt Ideal) (Y1 V c) := by
  show (cfg1.win 5).cut (grid1.coords t) ((dat1 V c).after 5 t) = _
  rw [after1_5]
  unfold out1_5
  rw [View.canon_unit_zero zero_offsets]
  simp only [View.ld_unit_zero (S := S10000x64) zero_offsets, View.ld_unit_zero (S := S10000x1) zero_offsets]
  funext j
  obtain ⟨i, q, rfl⟩ : ∃ (i : Fin 10000) (q : Fin 64), j = ix2 i q := ⟨j 0, j 1, eq_ix2 j⟩
  rw [View.read_apply, out5_emb t i q ⟨10000 * t.val + i.val, row_lt t i⟩ rfl]
  exact y_entry V c t i q _ rfl

/-! ## The ten row blocks tile the array -/

/-- An index of the x array is in point t's block iff each coordinate is in the block's range on its axis. -/
theorem mem_blk4 (t : Fin cfg1.N) (i : S100000x64.Idx) :
    i ∈ ((cfg1.win 4).blk t).view.set ↔ ∀ a : Fin 2, win1_4.index t a * S10000x64.size a ≤ (i a).val ∧ (i a).val < win1_4.index t a * S10000x64.size a + S10000x64.size a := by
  show i ∈ ((View.whole main_v19_0).slice (win1_4.rect t)).set ↔ _
  rw [View.set_slice_whole, Rect.mem_set_unit]
  exact Iff.rfl

theorem mem_blk5 (t : Fin cfg1.N) (i : S100000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v19_1).slice (win1_5.rect t)).set ↔ _
  rw [View.set_slice_whole, Rect.mem_set_unit]
  exact Iff.rfl

/-- Row r of the x array lies in the block of point r / 10000. -/
theorem cover4 (i : S100000x64.Idx) : ∃ t : Fin cfg1.N, (cfg1.win 4).flush t = true ∧ i ∈ ((cfg1.win 4).blk t).view.set := by
  have hN : cfg1.N = 10 := N_1
  have hi0 : (i 0).val < 100000 := (i 0).isLt
  have hi1 : (i 1).val < 64 := (i 1).isLt
  obtain ⟨t, ht⟩ : ∃ t : Fin cfg1.N, t.val = (i 0).val / 10000 := ⟨⟨(i 0).val / 10000, by omega⟩, rfl⟩
  obtain ⟨-, -, -, -, -, -, -, -, e0, e1, -⟩ := block_index t
  refine ⟨t, flush1_4 t, ?_⟩
  rw [mem_blk4]
  intro a
  match a with
  | ⟨0, _⟩ => show win1_4.index t (0 : Fin 2) * 10000 ≤ (i 0).val ∧ (i 0).val < win1_4.index t (0 : Fin 2) * 10000 + 10000; omega
  | ⟨1, _⟩ => show win1_4.index t (1 : Fin 2) * 64 ≤ (i 1).val ∧ (i 1).val < win1_4.index t (1 : Fin 2) * 64 + 64; omega

/-- Row r of the y array lies in the block of point r / 10000. -/
theorem cover5 (i : S100000x64.Idx) : ∃ t : Fin cfg1.N, (cfg1.win 5).flush t = true ∧ i ∈ ((cfg1.win 5).blk t).view.set := by
  have hN : cfg1.N = 10 := N_1
  have hi0 : (i 0).val < 100000 := (i 0).isLt
  have hi1 : (i 1).val < 64 := (i 1).isLt
  obtain ⟨t, ht⟩ : ∃ t : Fin cfg1.N, t.val = (i 0).val / 10000 := ⟨⟨(i 0).val / 10000, by omega⟩, rfl⟩
  obtain ⟨-, -, -, -, -, -, -, -, -, -, e0, e1⟩ := block_index t
  refine ⟨t, flush1_5 t, ?_⟩
  rw [mem_blk5]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 64 ≤ (i 1).val ∧ (i 1).val < win1_5.index t (1 : Fin 2) * 64 + 64; omega

end Region1

/-! ## The arrays after the region -/

/-- The x array after the region is the first Chebyshev step of the arrays the region finds. -/
theorem final1_4 : (Cert.KernelIdeal.Hand.dat1 (F := Ideal) V c).arrAt 4 cfg1.N
    = Cert.Cheb.cheb Cert.Cheb.cM1 Cert.Cheb.cZ Cert.Cheb.cZ (V c main_v18) (V c main_v7) (V c main_arg0) (V c main_arg0) :=
  (dat1 V c).arrAt_eq_of_cover 4 (Region1.X1 V c) (fun t _ => Region1.flushed4_eq V c t) Region1.cover4

/-- The y array after the region is that step scaled row by row by the degree column. -/
theorem final1_5 : (Cert.KernelIdeal.Hand.dat1 (F := Ideal) V c).arrAt 5 cfg1.N
    = Cert.Cheb.scale (Cert.Cheb.cheb Cert.Cheb.cM1 Cert.Cheb.cZ Cert.Cheb.cZ (V c main_v18) (V c main_v7) (V c main_arg0) (V c main_arg0)) (V c main_v7) :=
  (dat1 V c).arrAt_eq_of_cover 5 (Region1.Y1 V c) (fun t _ => Region1.flushed5_eq V c t) Region1.cover5

end Cert.KernelIdeal.HandValue

end
-- ==== Proof.Value2.lean ====
/-
  Region 2 at the extended reals: the new table after the region as one function of the four arrays the region reads.

  At grid point t the body combines row block t of the aggregate, of the degree column, of the previous table and of
  the table before it into  -2 · (agg · d) + 0 · self + -1 · prev, entry by entry, the column's entry taken on the
  entry's row. The ten row blocks tile the table, so the table ends holding that combination of the whole arrays:
  the specification's step `cheb` at the constants -2, 0, -1.
-/
import proofs.«133161_j49383533969583_1_alg».proof.Proof.Frame2
import proofs.«133161_j49383533969583_1_alg».proof.Proof.Spec
import proofs.«133161_j49383533969583_1_alg».proof.Proof.LibScaleTile
import Idealize.ShloMosaic.Lib.Pipeline.Value
import Idealize.ShloMosaic.Lib.ValueIdx
import Idealize.ShloMosaic.Lib.ValueLayout

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b)) (c : Dev nD)

/-- The zero offsets of a whole-buffer access, as a constant function. -/
theorem r2_zeros : (![0, 0] : Fin 2 → Nat) = fun _ => 0 := funext fun a => by fin_cases a <;> rfl

/-! ## The body's combination at an entry -/

/-- Entry (p, q) of what the body stores into the new table's buffer: -2 times the aggregate's entry scaled by the
    column's entry on row p, plus 0 times the previous table's entry, plus -1 times the entry of the table before. -/
theorem r2_combo_apply (d : Vec Ideal S10000x1 .f32) (agg self prev : Vec Ideal S10000x64 .f32) (p : Fin 10000) (q : Fin 64) :
    k2_pay2 d agg self prev (ix2 p q)
      = (Cert.Cheb.cM2 * (agg (ix2 p q) * d (ix2 p (0 : Fin 1))) + Cert.Cheb.cZ * self (ix2 p q)) + Cert.Cheb.cM1 * prev (ix2 p q) := by
  unfold k2_pay2 k2_pay1
  simp only [addf_apply, mulf_apply, broadcast_apply, shapeCast_self]
  rw [Cert.ScaleTile.colBroadcast_apply]
  rfl

/-- The same, as a function of the entry. -/
theorem r2_combo_eq (d : Vec Ideal S10000x1 .f32) (agg self prev : Vec Ideal S10000x64 .f32) :
    k2_pay2 d agg self prev
      = fun j : S10000x64.Idx => (Cert.Cheb.cM2 * (agg j * d (ix2 (j 0) (0 : Fin 1))) + Cert.Cheb.cZ * self j) + Cert.Cheb.cM1 * prev j := by
  funext j
  obtain ⟨p, q, rfl⟩ : ∃ (p : Fin 10000) (q : Fin 64), j = ix2 p q := ⟨j 0, j 1, eq_ix2 j⟩
  exact r2_combo_apply d agg self prev p q

/-! ## The windows' block indices, decided once over the grid -/

/-- At point t every window of the region is on row block t, column block 0. -/
theorem r2_block_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-! ## What a point writes back -/

/-- Point t writes back block t of the specification's step applied to the whole arrays. -/
theorem r2_flushed4_eq (t : Fin cfg2.N) :
    (dat2 (F := Ideal) V c).flushed 4 t = ((cfg2.win 4).blk t).view.read (Elt Ideal)
      (Cert.Cheb.cheb Cert.Cheb.cM2 Cert.Cheb.cZ Cert.Cheb.cM1 (V c main_v29) (V c main_v7) (V c main_v19_0) (V c main_arg0)) := by
  show (cfg2.win 4).cut (grid2.coords t) ((dat2 V c).after 4 t) = _
  rw [after2_4]
  unfold out2_4
  rw [View.canon_unit_zero r2_zeros]
  simp only [View.ld_unit_zero (S := S10000x64) r2_zeros, View.ld_unit_zero (S := S10000x1) r2_zeros]
  rw [r2_combo_eq]
  obtain ⟨a0, b0, a1, b1, a2, b2, a3, b3, a4, b4⟩ := r2_block_index t
  funext j
  have h0 : ((cfg2.win 0).blk t).view.emb j = ((cfg2.win 4).blk t).view.emb j := by
    funext a; apply Fin.ext
    match a with
    | ⟨0, _⟩ => show win2_0.index t (0 : Fin 2) * 10000 + 1 * (j 0).val = win2_4.index t (0 : Fin 2) * 10000 + 1 * (j 0).val; rw [a0, a4]
    | ⟨1, _⟩ => show win2_0.index t (1 : Fin 2) * 64 + 1 * (j 1).val = win2_4.index t (1 : Fin 2) * 64 + 1 * (j 1).val; rw [b0, b4]
  have h2 : ((cfg2.win 2).blk t).view.emb j = ((cfg2.win 4).blk t).view.emb j := by
    funext a; apply Fin.ext
    match a with
    | ⟨0, _⟩ => show win2_2.index t (0 : Fin 2) * 10000 + 1 * (j 0).val = win2_4.index t (0 : Fin 2) * 10000 + 1 * (j 0).val; rw [a2, a4]
    | ⟨1, _⟩ => show win2_2.index t (1 : Fin 2) * 64 + 1 * (j 1).val = win2_4.index t (1 : Fin 2) * 64 + 1 * (j 1).val; rw [b2, b4]
  have h3 : ((cfg2.win 3).blk t).view.emb j = ((cfg2.win 4).blk t).view.emb j := by
    funext a; apply Fin.ext
    match a with
    | ⟨0, _⟩ => show win2_3.index t (0 : Fin 2) * 10000 + 1 * (j 0).val = win2_4.index t (0 : Fin 2) * 10000 + 1 * (j 0).val; rw [a3, a4]
    | ⟨1, _⟩ => show win2_3.index t (1 : Fin 2) * 64 + 1 * (j 1).val = win2_4.index t (1 : Fin 2) * 64 + 1 * (j 1).val; rw [b3, b4]
  have h1 : ((cfg2.win 1).blk t).view.emb (ix2 (j 0) (0 : Fin 1)) = ix2 ((((cfg2.win 4).blk t).view.emb j) 0) (0 : Fin 1) := by
    funext a; apply Fin.ext
    match a with
    | ⟨0, _⟩ => show win2_1.index t (0 : Fin 2) * 10000 + 1 * (j 0).val = win2_4.index t (0 : Fin 2) * 10000 + 1 * (j 0).val; rw [a1, a4]
    | ⟨1, _⟩ => show win2_1.index t (1 : Fin 2) * 1 + 1 * 0 = 0; rw [b1]
  have key : ∀ (A : FVec Ideal S100000x64 .f32) (D : FVec Ideal S100000x1 .f32) (S P : FVec Ideal S100000x64 .f32),
      Cert.Cheb.cM2 * (A (((cfg2.win 0).blk t).view.emb j) * D (((cfg2.win 1).blk t).view.emb (ix2 (j 0) (0 : Fin 1))))
          + Cert.Cheb.cZ * S (((cfg2.win 2).blk t).view.emb j) + Cert.Cheb.cM1 * P (((cfg2.win 3).blk t).view.emb j)
        = Cert.Cheb.cheb Cert.Cheb.cM2 Cert.Cheb.cZ Cert.Cheb.cM1 A D S P (((cfg2.win 4).blk t).view.emb j) := by
    intro A D S P
    rw [h0, h1, h2, h3]
    rfl
  exact key (V c main_v29) (V c main_v7) (V c main_v19_0) (V c main_arg0)

/-! ## The blocks tile the table -/

/-- An index of the table is in point t's block iff each coordinate is in the block's range on its axis. -/
theorem r2_mem_block4 (t : Fin cfg2.N) (i : S100000x64.Idx) :
    i ∈ ((cfg2.win 4).blk t).view.set ↔ ∀ a : Fin 2, win2_4.index t a * S10000x64.size a ≤ (i a).val
      ∧ (i a).val < win2_4.index t a * S10000x64.size a + S10000x64.size a := by
  show i ∈ ((View.whole main_v30_0).slice (win2_4.rect t)).set ↔ _
  rw [View.set_slice_whole, Rect.mem_set_unit]
  exact Iff.rfl

/-- Row r of the table lies in the block of point r / 10000, and every point writes its block back. -/
theorem r2_covered4 (i : S100000x64.Idx) :
    ∃ t : Fin cfg2.N, (cfg2.win 4).flush t = true ∧ i ∈ ((cfg2.win 4).blk t).view.set := by
  have hr : (i 0).val < 100000 := (i 0).isLt
  have hq : (i 1).val < 64 := (i 1).isLt
  have hN : cfg2.N = 10 := N_2
  obtain ⟨t, ht⟩ : ∃ t : Fin cfg2.N, t.val = (i 0).val / 10000 := ⟨⟨(i 0).val / 10000, by rw [hN]; omega⟩, rfl⟩
  obtain ⟨-, -, -, -, -, -, -, -, a4, b4⟩ := r2_block_index t
  refine ⟨t, flush2_4 t, ?_⟩
  rw [r2_mem_block4]
  intro a
  match a with
  | ⟨0, _⟩ =>
    show win2_4.index t (0 : Fin 2) * 10000 ≤ (i 0).val ∧ (i 0).val < win2_4.index t (0 : Fin 2) * 10000 + 10000
    rw [a4, ht]; omega
  | ⟨1, _⟩ =>
    show win2_4.index t (1 : Fin 2) * 64 ≤ (i 1).val ∧ (i 1).val < win2_4.index t (1 : Fin 2) * 64 + 64
    rw [b4]; omega

/-! ## The table after the region -/

/-- The new table after the region is the specification's step, at the constants -2, 0, -1, of the four arrays as
    the region finds them. -/
theorem final2_4 : (Cert.KernelIdeal.Hand.dat2 (F := Ideal) V c).arrAt 4 cfg2.N = Cert.Cheb.cheb Cert.Cheb.cM2 Cert.Cheb.cZ Cert.Cheb.cM1 (V c main_v29) (V c main_v7) (V c main_v19_0) (V c main_arg0) :=
  (dat2 (F := Ideal) V c).arrAt_eq_of_cover 4 _ (fun t _ => r2_flushed4_eq V c t) (fun i => r2_covered4 i)

end Cert.KernelIdeal.HandValue

end
-- ==== Proof.LibPlainProduct.lean ====
/-
  A matrix product with one contracted axis, read at an entry over the extended reals: the kernel's product into a
  zero accumulator and the host's product are both the plain sum, over the contracted coordinate, of the left
  operand's row entry times the right operand's column entry — whatever formats the operands carry.
-/
import Idealize.ShloMosaic.Lib.ValueIdx
import Idealize.ShloMosaic.PureOps.Ideal.Laws

namespace Cert.PlainProduct

open Idealize.ShloMosaic Idealize.ShloMosaic.ValueIdx

variable {M K N : ℕ}

/-- The left operand is read at the output's row … -/
theorem lhs_row (j : (⟨2, ![M, N]⟩ : Shape).Idx) (q : (DotDims.plain M K N).contr.Idx) :
    ((DotDims.plain M K N).lhsIdx j q 0).val = (j 0).val := rfl
/-- … and the contracted coordinate; -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- the right operand at the contracted coordinate … -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and the output's column. -/
theorem rhs_col (j : (⟨2, ![M, N]⟩ : Shape).Idx) (q : (DotDims.plain M K N).contr.Idx) :
    ((DotDims.plain M K N).rhsIdx j q 1).val = (j 1).val := rfl

/-- The sum over the contraction's index set is the sum over the K values of its one coordinate. -/
theorem sum_contr {φ₁ φ₂ : FTy} (lhs : FVec Ideal ⟨2, ![M, K]⟩ φ₁) (rhs : FVec Ideal ⟨2, ![K, N]⟩ φ₂) (p : Fin M) (q : Fin N) :
    (∑ k : (DotDims.plain M K N).contr.Idx,
        lhs ((DotDims.plain M K N).lhsIdx (ix2 p q) k) * rhs ((DotDims.plain M K N).rhsIdx (ix2 p q) k))
      = ∑ x : Fin K, lhs (ix2 p x) * rhs (ix2 x q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

/-- The kernel's product into the zero accumulator, at (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    matmul (F := Ideal) (DotDims.plain M K N) prec lhs rhs (constant (F := Ideal) ⟨2, ![M, N]⟩ .f32 0x00000000#32) (ix2 p q)
      = ∑ x : Fin K, lhs (ix2 p x) * rhs (ix2 x q) :=
  (Ideal.matmul_constant_zero_apply (DotDims.plain M K N) prec lhs rhs (ix2 p q)).trans (sum_contr lhs rhs p q)

/-- The host's product, at (p, q). -/
theorem dotGeneral_apply {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral (F := Ideal) (DotDims.plain M K N) prec lhs rhs (ix2 p q)
      = ∑ x : Fin K, lhs (ix2 p x) * rhs (ix2 x q) := by
  simp only [Host.dotGeneral]
  exact (Ideal.dotGeneral_apply (DotDims.plain M K N) prec _ lhs rhs (ix2 p q)).trans (sum_contr lhs rhs p q)

/-- The product of an [M, K] array by a [K, N] array as one array: entry (p, q) is the sum over x of lhs (p, x) · rhs (x, q). -/
noncomputable def prod {φ₁ φ₂ : FTy} (lhs : FVec Ideal ⟨2, ![M, K]⟩ φ₁) (rhs : FVec Ideal ⟨2, ![K, N]⟩ φ₂) :
    FVec Ideal ⟨2, ![M, N]⟩ .f32 :=
  fun i => ∑ x : Fin K, lhs (ix2 (i 0) x) * rhs (ix2 x (i 1))

theorem prod_apply {φ₁ φ₂ : FTy} (lhs : FVec Ideal ⟨2, ![M, K]⟩ φ₁) (rhs : FVec Ideal ⟨2, ![K, N]⟩ φ₂) (p : Fin M) (q : Fin N) :
    prod lhs rhs (ix2 p q) = ∑ x : Fin K, lhs (ix2 p x) * rhs (ix2 x q) := rfl

/-- The host's product is that array. -/
theorem dotGeneral_eq_prod {φ₁ φ₂ : FTy} (prec : Option ContractPrecision)
    (lhs : FVec Ideal ⟨2, ![M, K]⟩ φ₁) (rhs : FVec Ideal ⟨2, ![K, N]⟩ φ₂) :
    Host.dotGeneral (F := Ideal) (DotDims.plain M K N) prec lhs rhs = prod lhs rhs := by
  funext i
  obtain ⟨p, q, rfl⟩ : ∃ (p : Fin M) (q : Fin N), i = ix2 p q := ⟨i 0, i 1, eq_ix2 i⟩
  exact dotGeneral_apply prec lhs rhs p q

end Cert.PlainProduct
-- ==== Proof.Value3.lean ====
/-
  Region 3 of @main over the extended reals: the result array after the region, as ONE function of the five arrays
  the region reads as it finds them — the rectified dense layer of the specification.

  The body's value at row p, column q of its block is the maximum with zero of three 64-term sums (row p of each
  node block against column q of one 64-row block of the weight table; narrowing the operands' format does nothing
  over the extended reals, and a product into a zero accumulator is the plain sum over the contracted coordinate)
  plus entry q of the bias row. Row p of point t's block of a node table is row 10000 t + p of the table; the weight
  table and the bias row are their own one block; the result's block at point t is rows 10000 t to 10000 t + 9999 of
  the result array. So point t writes back block t of the dense layer of the entry arrays; row r of the result array
  is covered by point r / 10000; hence the array ends holding the dense layer.
-/
import proofs.«133161_j49383533969583_1_alg».proof.Proof.Frame3
import proofs.«133161_j49383533969583_1_alg».proof.Proof.Spec
import proofs.«133161_j49383533969583_1_alg».proof.Proof.LibPlainProduct
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

/-! ## The body's value at an entry -/

/-- The body's three products are plain ones: 10000 × 64 by 64 × 64, contracted on the shared 64. -/
theorem dot3_plain : dot_S10000x64_S64x64_S10000x64_1_0_0_1_n_n = DotDims.plain 10000 64 64 := rfl

/-- The body's value at row p, column q of its block. -/
theorem pay3_apply (w0 w1 w2 : Vec Ideal S64x64 .f32) (x0 x1 x2 : Vec Ideal S10000x64 .f32) (b : Vec Ideal S1x64 .f32)
    (p : Fin 10000) (q : Fin 64) :
    k3_pay1 w0 w1 w2 x0 x1 x2 b (ix2 p q)
      = max ((((∑ k : Fin 64, x0 (ix2 p k) * w0 (ix2 k q)) + ∑ k : Fin 64, x1 (ix2 p k) * w1 (ix2 k q))
          + ∑ k : Fin 64, x2 (ix2 p k) * w2 (ix2 k q)) + b (ix2 (0 : Fin 1) q)) Cert.Cheb.cZ := by
  unfold k3_pay1
  simp only [shapeCast_self]
  rw [maximumf_apply, addf_apply, addf_apply, addf_apply, broadcast_apply, broadcastTo_1b_ab_apply, dot3_plain,
    Cert.PlainProduct.matmul_zero_apply, Cert.PlainProduct.matmul_zero_apply, Cert.PlainProduct.matmul_zero_apply]
  rfl

/-! ## Where the blocks sit in their arrays -/

/-- The block indices over the grid: the three node tables and the result move with the point along the rows, the
    weight table and the bias row stay at their one block. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- There are ten points. -/
theorem point_lt (t : Fin cfg3.N) : t.val < 10 := by
  have h := t.isLt
  have hN : cfg3.N = 10 := N_3
  omega

/-- Row p of point t's block is row 10000 t + p of the table. -/
def row3 (t : Fin cfg3.N) (p : Fin 10000) : Fin 100000 :=
  ⟨t.val * 10000 + p.val, by have := point_lt t; have := p.isLt; omega⟩

variable (V : (c : Dev nD) → (b : Ref sig .tc) → Buf (Elt Ideal) ((c : Thread nD τ).loc b)) (c : Dev nD)

theorem iblk3_0_apply (t : Fin cfg3.N) (p : Fin 10000) (k : Fin 64) :
    (iblk3 V c 0 t : Vec Ideal S10000x64 .f32) (ix2 p k) = (V c main_arg0 : FVec Ideal S100000x64 .f32) (ix2 (row3 t p) k) := by
  obtain ⟨e0, e1, -⟩ := idx_facts3 t
  unfold iblk3
  rw [View.read_apply]
  show V c main_arg0 _ = V c main_arg0 _
  congr 1
  funext a
  apply Fin.ext
  match a with
  | ⟨0, _⟩ => show win3_0.index t (0 : Fin 2) * 10000 + 1 * p.val = t.val * 10000 + p.val; omega
  | ⟨1, _⟩ => show win3_0.index t (1 : Fin 2) * 64 + 1 * k.val = k.val; omega

theorem iblk3_1_apply (t : Fin cfg3.N) (p : Fin 10000) (k : Fin 64) :
    (iblk3 V c 1 t : Vec Ideal S10000x64 .f32) (ix2 p k) = (V c main_v19_0 : FVec Ideal S100000x64 .f32) (ix2 (row3 t p) k) := by
  obtain ⟨-, -, e0, e1, -⟩ := idx_facts3 t
  unfold iblk3
  rw [View.read_apply]
  show V c main_v19_0 _ = V c main_v19_0 _
  congr 1
  funext a
  apply Fin.ext
  match a with
  | ⟨0, _⟩ => show win3_1.index t (0 : Fin 2) * 10000 + 1 * p.val = t.val * 10000 + p.val; omega
  | ⟨1, _⟩ => show win3_1.index t (1 : Fin 2) * 64 + 1 * k.val = k.val; omega

theorem iblk3_2_apply (t : Fin cfg3.N) (p : Fin 10000) (k : Fin 64) :
    (iblk3 V c 2 t : Vec Ideal S10000x64 .f32) (ix2 p k) = (V c main_v30_0 : FVec Ideal S100000x64 .f32) (ix2 (row3 t p) k) := by
  obtain ⟨-, -, -, -, e0, e1, -⟩ := idx_facts3 t
  unfold iblk3
  rw [View.read_apply]
  show V c main_v30_0 _ = V c main_v30_0 _
  congr 1
  funext a
  apply Fin.ext
  match a with
  | ⟨0, _⟩ => show win3_2.index t (0 : Fin 2) * 10000 + 1 * p.val = t.val * 10000 + p.val; omega
  | ⟨1, _⟩ => show win3_2.index t (1 : Fin 2) * 64 + 1 * k.val = k.val; omega

/-- Entry (k, q) of the 64-row block of the weight table's one block that starts at row o is entry (o + k, q) of
    the table. -/
theorem wblk3_apply (t : Fin cfg3.N) (o : Nat) (ho : o + 64 ≤ 192)
    (inb : ∀ a, (![o, 0] : Fin 2 → Nat) a + S64x64.size a ≤ S192x64.size a) (k q : Fin 64) :
    View.ld (iblk3 V c 3 t : Vec Ideal S192x64 .f32) (Rect.unit (s := S192x64) ![o, 0] S64x64.size inb) (ix2 k q)
      = (V c main_arg3 : FVec Ideal S192x64 .f32) (ix2 (⟨o + k.val, by have := k.isLt; omega⟩ : Fin 192) q) := by
  obtain ⟨-, -, -, -, -, -, e0, e1, -⟩ := idx_facts3 t
  show iblk3 V c 3 t _ = _
  unfold iblk3
  rw [View.read_apply]
  show V c main_arg3 _ = V c main_arg3 _
  congr 1
  funext a
  apply Fin.ext
  match a with
  | ⟨0, _⟩ => show win3_3.index t (0 : Fin 2) * 192 + 1 * (o + 1 * k.val) = o + k.val; omega
  | ⟨1, _⟩ => show win3_3.index t (1 : Fin 2) * 64 + 1 * (0 + 1 * q.val) = q.val; omega

/-- The bias row's one block is the row. -/
theorem bblk3_apply (t : Fin cfg3.N) (q : Fin 64) :
    (iblk3 V c 4 t : Vec Ideal S1x64 .f32) (ix2 (0 : Fin 1) q) = (V c main_v31 : FVec Ideal S1x64 .f32) (ix2 (0 : Fin 1) q) := by
  obtain ⟨-, -, -, -, -, -, -, -, e0, e1, -⟩ := idx_facts3 t
  unfold iblk3
  rw [View.read_apply]
  show V c main_v31 _ = V c main_v31 _
  congr 1
  funext a
  apply Fin.ext
  match a with
  | ⟨0, _⟩ => show win3_4.index t (0 : Fin 2) * 1 + 1 * 0 = 0; omega
  | ⟨1, _⟩ => show win3_4.index t (1 : Fin 2) * 64 + 1 * q.val = q.val; omega

/-- Entry (p, q) of the result's block at point t is entry (10000 t + p, q) of the result array. -/
theorem oblk3_emb (t : Fin cfg3.N) (p : Fin 10000) (q : Fin 64) :
    ((cfg3.win 5).blk t).view.emb (ix2 p q) = (ix2 (row3 t p) q : S100000x64.Idx) := by
  obtain ⟨-, -, -, -, -, -, -, -, -, -, e0, e1⟩ := idx_facts3 t
  funext a
  apply Fin.ext
  match a with
  | ⟨0, _⟩ => show win3_5.index t (0 : Fin 2) * 10000 + 1 * p.val = t.val * 10000 + p.val; omega
  | ⟨1, _⟩ => show win3_5.index t (1 : Fin 2) * 64 + 1 * q.val = q.val; omega

/-! ## From the blocks to the array -/

theorem hz3 : (![0, 0] : Fin 2 → Nat) = fun _ => 0 := funext fun a => by fin_cases a <;> rfl

/-- The dense layer of the five arrays as the region finds them. -/
abbrev G3 : FVec Ideal Cert.Cheb.SN64 .f32 :=
  Cert.Cheb.dense (V c main_arg0) (V c main_v19_0) (V c main_v30_0) (V c main_arg3) (V c main_v31)

/-- What point t writes back is block t of the dense layer. -/
theorem flushed3_5_eq (t : Fin cfg3.N) :
    (dat3 (F := Ideal) V c).flushed 5 t = ((cfg3.win 5).blk t).view.read (Elt Ideal) (G3 V c) := by
  show (cfg3.win 5).cut (grid3.coords t) ((dat3 V c).after 5 t) = _
  rw [after3_5]
  unfold out3_5
  rw [View.canon_unit_zero hz3]
  simp only [View.ld_unit_zero (S := S10000x64) hz3, View.ld_unit_zero (S := S1x64) hz3]
  funext j
  obtain ⟨p, q, rfl⟩ : ∃ (p : Fin 10000) (q : Fin 64), j = ix2 p q := ⟨j 0, j 1, eq_ix2 j⟩
  show k3_pay1 _ _ _ _ _ _ _ (ix2 p q) = G3 V c (((cfg3.win 5).blk t).view.emb (ix2 p q))
  rw [pay3_apply, oblk3_emb]
  simp only [iblk3_0_apply, iblk3_1_apply, iblk3_2_apply, bblk3_apply,
    wblk3_apply V c t 0 (by omega), wblk3_apply V c t 64 (by omega), wblk3_apply V c t 128 (by omega)]
  rfl

/-- Row r of the result array lies in the block of point r / 10000. -/
theorem cover3_5_arr (i : S100000x64.Idx) :
    ∃ t : Fin cfg3.N, (cfg3.win 5).flush t = true ∧ i ∈ ((cfg3.win 5).blk t).view.set := by
  have hi0 : (i 0).val < 100000 := (i 0).isLt
  have hi1 : (i 1).val < 64 := (i 1).isLt
  have hN : cfg3.N = 10 := N_3
  have hlt : (i 0).val / 10000 < cfg3.N := by rw [hN]; omega
  refine ⟨⟨(i 0).val / 10000, hlt⟩, flush3_5 _, ?_⟩
  obtain ⟨-, -, -, -, -, -, -, -, -, -, e0, e1⟩ := idx_facts3 ⟨(i 0).val / 10000, hlt⟩
  show i ∈ ((View.whole main_v32).slice (win3_5.rect ⟨(i 0).val / 10000, hlt⟩)).set
  rw [View.set_slice_whole, Rect.mem_set_unit]
  intro a
  match a with
  | ⟨0, _⟩ =>
    show win3_5.index ⟨(i 0).val / 10000, hlt⟩ (0 : Fin 2) * 10000 ≤ (i 0).val
      ∧ (i 0).val < win3_5.index ⟨(i 0).val / 10000, hlt⟩ (0 : Fin 2) * 10000 + 10000
    rw [e0]; show (i 0).val / 10000 * 10000 ≤ (i 0).val ∧ (i 0).val < (i 0).val / 10000 * 10000 + 10000; omega
  | ⟨1, _⟩ =>
    show win3_5.index ⟨(i 0).val / 10000, hlt⟩ (1 : Fin 2) * 64 ≤ (i 1).val
      ∧ (i 1).val < win3_5.index ⟨(i 0).val / 10000, hlt⟩ (1 : Fin 2) * 64 + 64
    rw [e1]; omega

/-- The result array after the region is the dense layer of the arrays the region finds. -/
theorem final3_5 : (Cert.KernelIdeal.Hand.dat3 (F := Ideal) V c).arrAt 5 cfg3.N
    = Cert.Cheb.dense (V c main_arg0) (V c main_v19_0) (V c main_v30_0) (V c main_arg3) (V c main_v31) :=
  (dat3 (F := Ideal) V c).arrAt_eq_of_cover 5 (G3 V c) (fun t _ => flushed3_5_eq V c t) (cover3_5_arr)

end Cert.KernelIdeal.HandValue

end
-- ==== Proof.KernelValue.lean ====
/-
  The result buffer at the return, over the extended reals, as the specification's layer of the arguments.

  The contents of the buffers are followed from the launch to the return. The first three host stretches compute the
  degree column d from the destination nodes and leave the arguments alone. Region 0 leaves the node table scaled by
  d. The next host stretch gathers its rows at the source nodes and adds them up at the destination nodes: the edge
  aggregation, one fixed function of the two index vectors and a table. Region 1 leaves the first step x1 of the
  recursion and x1 scaled by d; the aggregation is applied again; region 2 leaves the second step x2; the bias vector
  is laid out as a row; region 3 leaves the rectified dense layer of the node table, x1, x2, the weights and the bias
  row. Each host stretch's result is read off its operations; every buffer a stretch does not write and a region does
  not have for an output is carried across unchanged. The edge aggregation and the degree column are never opened:
  they enter the specification as parameters.
-/
import proofs.«133161_j49383533969583_1_alg».proof.Proof.Fold
import proofs.«133161_j49383533969583_1_alg».proof.Proof.Value0
import proofs.«133161_j49383533969583_1_alg».proof.Proof.Value1
import proofs.«133161_j49383533969583_1_alg».proof.Proof.Value2
import proofs.«133161_j49383533969583_1_alg».proof.Proof.Value3
import proofs.«133161_j49383533969583_1_alg».proof.Proof.Spec
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx

/-! ## The two host computations the specification takes as parameters -/

/-- The edge aggregation: the rows of a table gathered at the edges' source nodes (a negative index wrapped once
    by the number of nodes) and added up, from zero, at the edges' destination nodes. -/
def aggK (src dst : IVec S1250000 32) (y : FVec Ideal S100000x64 .f32) : FVec Ideal S100000x64 .f32 :=
  Host.scatterAdd scatter_S100000x64_S1250000x1_S1250000x64_1_0_0_1 (broadcastInDim S100000x64 ![] bcast_S_S100000x64 (constant S_ .f32 0x00000000#32)) (broadcastInDim S1250000x1 ![0] bcast_S1250000_S1250000x1_0 dst)
    (Host.gather gather_S100000x64_S1250000x1_S1250000x64_1_0_n_n_0_1_164 y (broadcastInDim S1250000x1 ![0] bcast_S1250000_S1250000x1_0 (select (cmpi .slt src (broadcastInDim S1250000 ![] bcast_S_S1250000 (constantI S_ 32 0#32))) (addi src (broadcastInDim S1250000 ![] bcast_S_S1250000 (constantI S_ 32 100000#32))) src)))
/-- The degree column: per node the number of edges ending there, counted by adding ones up at the destination
    nodes, clipped below at one, laid out as a column and raised to the power minus one half. -/
def degK (dst : IVec S1250000 32) : FVec Ideal S100000x1 .f32 :=
  Host.powf (broadcastInDim S100000x1 ![0] bcast_S100000_S100000x1_0 (maximumf (broadcastInDim S100000 ![] bcast_S_S100000 (id (constant S_ .f32 0x3F800000#32))) (Host.scatterAdd scatter_S100000_S1250000x1_S1250000_n_0_0_1 (broadcastInDim S100000 ![] bcast_S_S100000 (constant S_ .f32 0x00000000#32)) (broadcastInDim S1250000x1 ![0] bcast_S1250000_S1250000x1_0 dst) (broadcastInDim S1250000 ![] bcast_S_S1250000 (constant S_ .f32 0x3F800000#32)))))
    (broadcastInDim S100000x1 ![] bcast_S_S100000x1 (constant S_ .f32 0xBF000000#32))

namespace Chain

/-! ## What each host stretch leaves in the buffer a region reads, from any contents -/

section HostReads

variable (X : Valuation τ sig (Elt Ideal))

/-- The first stretch counts, per node, the edges that end there, -/
theorem count_read : Eq (α := FVec Ideal S100000 .f32) (StableHlo.after hostOps0 X (Proc.devRef .tc main_v3))
    (Host.scatterAdd scatter_S100000_S1250000x1_S1250000_n_0_0_1 (broadcastInDim S100000 ![] bcast_S_S100000 (constant S_ .f32 0x00000000#32)) (broadcastInDim S1250000x1 ![0] bcast_S1250000_S1250000x1_0 (X (Proc.devRef .tc main_arg2))) (broadcastInDim S1250000 ![] bcast_S_S1250000 (constant S_ .f32 0x3F800000#32))) := by
  after_results
  all_goals rfl

/-- and leaves the constant one for the clip. -/
theorem one_read : Eq (α := FVec Ideal S_ .f32) (StableHlo.after hostOps0 X (Proc.devRef .tc main_cst_1)) (constant S_ .f32 0x3F800000#32) := by
  after_results
  all_goals rfl

/-- The clip takes the larger of one and the count. -/
theorem clip_read : Eq (α := FVec Ideal S100000 .f32) (StableHlo.after hostOps0_1 X (Proc.devRef .tc main_v4))
    (maximumf (broadcastInDim S100000 ![] bcast_S_S100000 (id (X (Proc.devRef .tc main_cst_1) : FVec Ideal S_ .f32))) (X (Proc.devRef .tc main_v3) : FVec Ideal S100000 .f32)) := by
  after_results
  all_goals rfl

/-- The third stretch raises the clipped count, as a column, to the power minus one half. -/
theorem pow_read : Eq (α := FVec Ideal S100000x1 .f32) (StableHlo.after hostOps0_2 X (Proc.devRef .tc main_v7))
    (Host.powf (broadcastInDim S100000x1 ![0] bcast_S100000_S100000x1_0 (X (Proc.devRef .tc main_v4) : FVec Ideal S100000 .f32))
        (broadcastInDim S100000x1 ![] bcast_S_S100000x1 (constant S_ .f32 0xBF000000#32))) := by
  after_results
  all_goals rfl

set_option maxHeartbeats 2000000 in
/-- The stretch before region 1 aggregates region 0's output over the edges, -/
theorem agg1_read : (StableHlo.after hostOps1 X (Proc.devRef .tc main_v18) : FVec Ideal S100000x64 .f32)
    = aggK (X (Proc.devRef .tc main_arg1)) (X (Proc.devRef .tc main_arg2)) (X (Proc.devRef .tc main_v8)) := by
  after_results
  all_goals rfl

set_option maxHeartbeats 2000000 in
/-- the stretch before region 2 region 1's second output. -/
theorem agg2_read : (StableHlo.after hostOps2 X (Proc.devRef .tc main_v29) : FVec Ideal S100000x64 .f32)
    = aggK (X (Proc.devRef .tc main_arg1)) (X (Proc.devRef .tc main_arg2)) (X (Proc.devRef .tc main_v19_1)) := by
  after_results
  all_goals rfl

/-- The last stretch lays the bias vector out as a table of one row: entry (0, q) is entry q. -/
theorem row_read (u : Fin 1) (q : Fin 64) : (StableHlo.after hostOps3 X (Proc.devRef .tc main_v31) : FVec Ideal S1x64 .f32) (ix2 u q)
    = (X (Proc.devRef .tc main_arg4) : FVec Ideal S64 .f32) (ix1 q) := by
  after_results
  show shapeCast S1x64 (X (Proc.devRef .tc main_arg4) : FVec Ideal S64 .f32) shapeCasts_S64_S1x64 (ix2 u q) = _
  refine shapeCast_apply _ _ _ _ ?_
  show (S64.rowMajor (ix1 q)).val = (S1x64.rowMajor (ix2 u q)).val
  rw [Shape.rowMajor_val_one, Shape.rowMajor_val_two]
  show q.val = u.val * 64 + q.val
  have := u.isLt
  omega

end HostReads

variable (m : (ℓ : Loc nD τ sig) → Buf (Elt Ideal) ℓ) (c : Dev nD)

/-! ## The arguments and the quantities of the recursion, at their literal types -/

/-- The node table at launch. -/
abbrev featOf : FVec Ideal S100000x64 .f32 := m ((c.tc : Thread nD τ).loc main_arg0)
/-- The edges' source nodes at launch. -/
abbrev srcOf : IVec S1250000 32 := m ((c.tc : Thread nD τ).loc main_arg1)
/-- The edges' destination nodes at launch. -/
abbrev dstOf : IVec S1250000 32 := m ((c.tc : Thread nD τ).loc main_arg2)
/-- The weight table at launch. -/
abbrev weightOf : FVec Ideal S192x64 .f32 := m ((c.tc : Thread nD τ).loc main_arg3)
/-- The bias vector at launch. -/
abbrev biasOf : FVec Ideal S64 .f32 := m ((c.tc : Thread nD τ).loc main_arg4)
/-- The degree column. -/
abbrev colOf : FVec Ideal S100000x1 .f32 := degK (dstOf m c)
/-- The node table scaled by the column. -/
abbrev y0Of : FVec Ideal S100000x64 .f32 := Cert.Cheb.scale (featOf m c) (colOf m c)
/-- The first step of the recursion. -/
abbrev x1Of : FVec Ideal S100000x64 .f32 :=
  Cert.Cheb.cheb Cert.Cheb.cM1 Cert.Cheb.cZ Cert.Cheb.cZ (aggK (srcOf m c) (dstOf m c) (y0Of m c)) (colOf m c) (featOf m c) (featOf m c)
/-- The first step scaled by the column. -/
abbrev y1Of : FVec Ideal S100000x64 .f32 := Cert.Cheb.scale (x1Of m c) (colOf m c)
/-- The second step of the recursion. -/
abbrev x2Of : FVec Ideal S100000x64 .f32 :=
  Cert.Cheb.cheb Cert.Cheb.cM2 Cert.Cheb.cZ Cert.Cheb.cM1 (aggK (srcOf m c) (dstOf m c) (y1Of m c)) (colOf m c) (x1Of m c) (featOf m c)

/-! ## Buffers carried across -/

/-- A buffer no host stretch writes and no region but possibly the last has for an output. -/
abbrev Untouched (r : Ref sig .tc) : Prop :=
  r ∉ hostOps0_W ∧ r ∉ hostOps0_1_W ∧ r ∉ hostOps0_2_W ∧ r ≠ main_v8 ∧ r ∉ hostOps1_W ∧ r ≠ main_v19_0 ∧ r ≠ main_v19_1
    ∧ r ∉ hostOps2_W ∧ r ≠ main_v30_0 ∧ r ≠ main_v30_1 ∧ r ∉ hostOps3_W

/-- The host stretch before region 1 keeps what it does not write. -/
theorem host5 (r : Ref sig .tc) (h : r ∉ hostOps1_W) : W5 m c (Proc.devRef .tc r) = W4 m c (Proc.devRef .tc r) :=
  StableHlo.after_of_writes_sub hostOps1 _ hostOps1_writes h
/-- The host stretch before region 2 keeps what it does not write. -/
theorem host7 (r : Ref sig .tc) (h : r ∉ hostOps2_W) : W7 m c (Proc.devRef .tc r) = W6 m c (Proc.devRef .tc r) :=
  StableHlo.after_of_writes_sub hostOps2 _ hostOps2_writes h
/-- The host stretch before region 3 keeps what it does not write. -/
theorem host9 (r : Ref sig .tc) (h : r ∉ hostOps3_W) : W9 m c (Proc.devRef .tc r) = W8 m c (Proc.devRef .tc r) :=
  StableHlo.after_of_writes_sub hostOps3 _ hostOps3_writes h

/-- An untouched buffer at each boundary from region 0's entry to region 3's entry holds its launch contents. -/
theorem kept3 (r : Ref sig .tc) (h : Untouched r) : W3 m c (Proc.devRef .tc r) = m ((c.tc : Thread nD τ).loc r) :=
  (StableHlo.after_of_writes_sub hostOps0_2 _ hostOps0_2_writes h.2.2.1).trans <|
  (StableHlo.after_of_writes_sub hostOps0_1 _ hostOps0_1_writes h.2.1).trans <|
  (StableHlo.after_of_writes_sub hostOps0 _ hostOps0_writes h.1).trans rfl
theorem kept4 (r : Ref sig .tc) (h : Untouched r) : W4 m c (Proc.devRef .tc r) = m ((c.tc : Thread nD τ).loc r) :=
  (W4_of_ne m c r h.2.2.2.1).trans (kept3 m c r h)
theorem kept5 (r : Ref sig .tc) (h : Untouched r) : W5 m c (Proc.devRef .tc r) = m ((c.tc : Thread nD τ).loc r) :=
  (host5 m c r h.2.2.2.2.1).trans (kept4 m c r h)
theorem kept6 (r : Ref sig .tc) (h : Untouched r) : W6 m c (Proc.devRef .tc r) = m ((c.tc : Thread nD τ).loc r) :=
  (W6_of_ne m c r h.2.2.2.2.2.1 h.2.2.2.2.2.2.1).trans (kept5 m c r h)
theorem kept7 (r : Ref sig .tc) (h : Untouched r) : W7 m c (Proc.devRef .tc r) = m ((c.tc : Thread nD τ).loc r) :=
  (host7 m c r h.2.2.2.2.2.2.2.1).trans (kept6 m c r h)
theorem kept8 (r : Ref sig .tc) (h : Untouched r) : W8 m c (Proc.devRef .tc r) = m ((c.tc : Thread nD τ).loc r) :=
  (W8_of_ne m c r h.2.2.2.2.2.2.2.2.1 h.2.2.2.2.2.2.2.2.2.1).trans (kept7 m c r h)
theorem kept9 (r : Ref sig .tc) (h : Untouched r) : W9 m c (Proc.devRef .tc r) = m ((c.tc : Thread nD τ).loc r) :=
  (host9 m c r h.2.2.2.2.2.2.2.2.2.2).trans (kept8 m c r h)

theorem arg0_untouched : Untouched main_arg0 := by decide
theorem arg1_untouched : Untouched main_arg1 := by decide
theorem arg2_untouched : Untouched main_arg2 := by decide
theorem arg3_untouched : Untouched main_arg3 := by decide
theorem arg4_untouched : Untouched main_arg4 := by decide

/-! ## The arguments at the boundaries where they are read -/

theorem feat3 : W3 m c (Proc.devRef .tc main_arg0) = featOf m c := kept3 m c main_arg0 arg0_untouched
theorem src4 : W4 m c (Proc.devRef .tc main_arg1) = srcOf m c := kept4 m c main_arg1 arg1_untouched
theorem dst4 : W4 m c (Proc.devRef .tc main_arg2) = dstOf m c := kept4 m c main_arg2 arg2_untouched
theorem feat5 : W5 m c (Proc.devRef .tc main_arg0) = featOf m c := kept5 m c main_arg0 arg0_untouched
theorem src6 : W6 m c (Proc.devRef .tc main_arg1) = srcOf m c := kept6 m c main_arg1 arg1_untouched
theorem dst6 : W6 m c (Proc.devRef .tc main_arg2) = dstOf m c := kept6 m c main_arg2 arg2_untouched
theorem feat7 : W7 m c (Proc.devRef .tc main_arg0) = featOf m c := kept7 m c main_arg0 arg0_untouched
theorem bias8 : W8 m c (Proc.devRef .tc main_arg4) = biasOf m c := kept8 m c main_arg4 arg4_untouched
theorem feat9 : W9 m c (Proc.devRef .tc main_arg0) = featOf m c := kept9 m c main_arg0 arg0_untouched
theorem weight9 : W9 m c (Proc.devRef .tc main_arg3) = weightOf m c := kept9 m c main_arg3 arg3_untouched

/-! ## Region 0: the degree column, then the scaled node table -/

/-- After the first stretch: the count of the edges ending at each node, -/
theorem count1 : Eq (α := FVec Ideal S100000 .f32) (W1 m c (Proc.devRef .tc main_v3))
    (Host.scatterAdd scatter_S100000_S1250000x1_S1250000_n_0_0_1 (broadcastInDim S100000 ![] bcast_S_S100000 (constant S_ .f32 0x00000000#32)) (broadcastInDim S1250000x1 ![0] bcast_S1250000_S1250000x1_0 (dstOf m c)) (broadcastInDim S1250000 ![] bcast_S_S1250000 (constant S_ .f32 0x3F800000#32))) :=
  count_read (W0 m c)
/-- and the constant one. -/
theorem one1 : Eq (α := FVec Ideal S_ .f32) (W1 m c (Proc.devRef .tc main_cst_1)) (constant S_ .f32 0x3F800000#32) :=
  one_read (W0 m c)
/-- After the clip: the larger of one and the count. -/
theorem clip2 : Eq (α := FVec Ideal S100000 .f32) (W2 m c (Proc.devRef .tc main_v4))
    (maximumf (broadcastInDim S100000 ![] bcast_S_S100000 (id (W1 m c (Proc.devRef .tc main_cst_1) : FVec Ideal S_ .f32))) (W1 m c (Proc.devRef .tc main_v3) : FVec Ideal S100000 .f32)) :=
  clip_read (W1 m c)
/-- After the third stretch: the power of the clipped count. -/
theorem pow3 : Eq (α := FVec Ideal S100000x1 .f32) (W3 m c (Proc.devRef .tc main_v7))
    (Host.powf (broadcastInDim S100000x1 ![0] bcast_S100000_S100000x1_0 (W2 m c (Proc.devRef .tc main_v4) : FVec Ideal S100000 .f32))
        (broadcastInDim S100000x1 ![] bcast_S_S100000x1 (constant S_ .f32 0xBF000000#32))) :=
  pow_read (W2 m c)

/-- The first three host stretches leave the degree column in its buffer. -/
theorem col3 : W3 m c (Proc.devRef .tc main_v7) = colOf m c := by
  rw [pow3, clip2, one1, count1]
  rfl

/-- Region 0 leaves the node table scaled by the column. -/
theorem y0_4 : W4 m c (Proc.devRef .tc main_v8) = y0Of m c := by
  rw [W4_out, final0_2 (V3 m) c]
  show Cert.Cheb.scale (W3 m c (Proc.devRef .tc main_arg0)) (W3 m c (Proc.devRef .tc main_v7)) = _
  rw [feat3, col3]

/-! ## Region 1: the aggregation of the scaled table, then the first step -/

/-- The host stretch before region 1 leaves the aggregation of the scaled node table in its buffer. -/
theorem agg5 : W5 m c (Proc.devRef .tc main_v18) = aggK (srcOf m c) (dstOf m c) (y0Of m c) := by
  rw [show W5 m c (Proc.devRef .tc main_v18) = _ from agg1_read (W4 m c), src4, dst4, y0_4]

/-- The degree column is still in its buffer at region 1's entry. -/
theorem col5 : W5 m c (Proc.devRef .tc main_v7) = colOf m c :=
  (host5 m c main_v7 (by decide)).trans ((W4_of_ne m c main_v7 (by decide)).trans (col3 m c))

/-- Region 1 leaves the first step of the recursion in its first output, -/
theorem x1_6 : W6 m c (Proc.devRef .tc main_v19_0) = x1Of m c := by
  rw [W6_out0, final1_4 (V5 m) c]
  show Cert.Cheb.cheb Cert.Cheb.cM1 Cert.Cheb.cZ Cert.Cheb.cZ (W5 m c (Proc.devRef .tc main_v18)) (W5 m c (Proc.devRef .tc main_v7))
      (W5 m c (Proc.devRef .tc main_arg0)) (W5 m c (Proc.devRef .tc main_arg0)) = _
  rw [agg5, col5, feat5]

/-- and the first step scaled by the column in its second. -/
theorem y1_6 : W6 m c (Proc.devRef .tc main_v19_1) = y1Of m c := by
  rw [W6_out1, final1_5 (V5 m) c]
  show Cert.Cheb.scale (Cert.Cheb.cheb Cert.Cheb.cM1 Cert.Cheb.cZ Cert.Cheb.cZ (W5 m c (Proc.devRef .tc main_v18)) (W5 m c (Proc.devRef .tc main_v7))
      (W5 m c (Proc.devRef .tc main_arg0)) (W5 m c (Proc.devRef .tc main_arg0))) (W5 m c (Proc.devRef .tc main_v7)) = _
  rw [agg5, col5, feat5]

/-! ## Region 2: the aggregation of the scaled first step, then the second step -/

/-- The host stretch before region 2 leaves the aggregation of the scaled first step in its buffer. -/
theorem agg7 : W7 m c (Proc.devRef .tc main_v29) = aggK (srcOf m c) (dstOf m c) (y1Of m c) := by
  rw [show W7 m c (Proc.devRef .tc main_v29) = _ from agg2_read (W6 m c), src6, dst6, y1_6]

/-- The degree column is still in its buffer at region 2's entry, -/
theorem col7 : W7 m c (Proc.devRef .tc main_v7) = colOf m c :=
  (host7 m c main_v7 (by decide)).trans ((W6_of_ne m c main_v7 (by decide) (by decide)).trans (col5 m c))

/-- and the first step in its. -/
theorem x1_7 : W7 m c (Proc.devRef .tc main_v19_0) = x1Of m c :=
  (host7 m c main_v19_0 (by decide)).trans (x1_6 m c)

/-- Region 2 leaves the second step of the recursion in its first output. -/
theorem x2_8 : W8 m c (Proc.devRef .tc main_v30_0) = x2Of m c := by
  rw [W8_out0, final2_4 (V7 m) c]
  show Cert.Cheb.cheb Cert.Cheb.cM2 Cert.Cheb.cZ Cert.Cheb.cM1 (W7 m c (Proc.devRef .tc main_v29)) (W7 m c (Proc.devRef .tc main_v7))
      (W7 m c (Proc.devRef .tc main_v19_0)) (W7 m c (Proc.devRef .tc main_arg0)) = _
  rw [agg7, col7, x1_7, feat7]

/-! ## Region 3: the bias as a row, then the dense layer -/

/-- The first step is still in its buffer at region 3's entry, -/
theorem x1_9 : W9 m c (Proc.devRef .tc main_v19_0) = x1Of m c :=
  (host9 m c main_v19_0 (by decide)).trans ((W8_of_ne m c main_v19_0 (by decide) (by decide)).trans (x1_7 m c))

/-- and the second step in its. -/
theorem x2_9 : W9 m c (Proc.devRef .tc main_v30_0) = x2Of m c :=
  (host9 m c main_v30_0 (by decide)).trans (x2_8 m c)

/-- The last host stretch lays the bias vector out as a table of one row. -/
theorem row9 : W9 m c (Proc.devRef .tc main_v31) = Cert.Cheb.row (biasOf m c) := by
  funext j
  obtain ⟨u, q, rfl⟩ : ∃ (u : Fin 1) (q : Fin 64), j = ix2 u q := ⟨j 0, j 1, eq_ix2 j⟩
  show (StableHlo.after hostOps3 (W8 m c) (Proc.devRef .tc main_v31) : FVec Ideal S1x64 .f32) (ix2 u q) = biasOf m c (ix1 q)
  rw [row_read, bias8]

end Chain

/-! ## The return -/

open Chain in
/-- The result buffer at the return is the layer of the arguments, the edge aggregation and the degree column its
    parameters. -/
theorem result_eq (m : (ℓ : Loc nD τ sig) → Buf (Elt Ideal) ℓ) (c : Dev nD) :
    Cert.KernelIdeal.Hand.W10 (F := Ideal) m c (Proc.devRef .tc main_v32)
      = Cert.Cheb.layer (aggK (m ((c.tc : Thread nD τ).loc main_arg1)) (m ((c.tc : Thread nD τ).loc main_arg2))) (degK (m ((c.tc : Thread nD τ).loc main_arg2)))
          (m ((c.tc : Thread nD τ).loc main_arg0)) (m ((c.tc : Thread nD τ).loc main_arg3)) (Cert.Cheb.row (m ((c.tc : Thread nD τ).loc main_arg4))) := by
  rw [W10_out, final3_5 (V9 m) c]
  show Cert.Cheb.dense (W9 m c (Proc.devRef .tc main_arg0)) (W9 m c (Proc.devRef .tc main_v19_0)) (W9 m c (Proc.devRef .tc main_v30_0))
      (W9 m c (Proc.devRef .tc main_arg3)) (W9 m c (Proc.devRef .tc main_v31)) = _
  rw [feat9, x1_9, x2_9, weight9, row9]
  unfold Cert.Cheb.layer
  rfl

end Cert.KernelIdeal.HandValue

end
-- ==== Proof.LibJoinThree.lean ====
/-
  Three [n, 64] arrays joined along the second axis into one [n, 192] array, read at an entry: column
  k of the first stretch of 64 columns is column k of the first array, column 64 + k that of the second,
  column 128 + k that of the third; the row is kept.
-/
import Idealize.ShloMosaic.Lib.ValueIdx
import Idealize.ShloMosaic.Lib.Pipeline.Value

namespace Cert.JoinThree

open Idealize.ShloMosaic Idealize.ShloMosaic.ValueIdx

variable {α : Type} {n : ℕ}

/-- The list of the three pieces. -/
abbrev pieces (u0 u1 u2 : (⟨2, ![n, 64]⟩ : Shape).Idx → α) : List ((s : Shape) × (s.Idx → α)) :=
  [⟨⟨2, ![n, 64]⟩, u0⟩, ⟨⟨2, ![n, 64]⟩, u1⟩, ⟨⟨2, ![n, 64]⟩, u2⟩]

/-- Columns 0 … 63 of the joined array are the first array's. -/
theorem join_first (u0 u1 u2 : (⟨2, ![n, 64]⟩ : Shape).Idx → α)
    (h : Shape.Concatenates ((pieces u0 u1 u2).map (·.1)) ⟨2, ![n, 192]⟩ 1) (r : Fin n) (k : Fin 64) :
    concatenate ⟨2, ![n, 192]⟩ 1 (pieces u0 u1 u2) h (ix2 r (⟨k.val, by omega⟩ : Fin 192)) = u0 (ix2 r k) :=
  concatenate_apply_piece 1 (pieces u0 u1 u2) h _ 0 (by show (0 : ℕ) < 3; omega) ⟨2, ![n, 64]⟩ u0 rfl rfl 0 rfl (ix2 r k)
    (fun b hb => by
      match b with
      | ⟨0, _⟩ => rfl
      | ⟨1, _⟩ => exact absurd (Fin.ext rfl) hb)
    (by show 0 + k.val = k.val; omega)

/-- Columns 64 … 127 of the joined array are the second array's. -/
theorem join_second (u0 u1 u2 : (⟨2, ![n, 64]⟩ : Shape).Idx → α)
    (h : Shape.Concatenates ((pieces u0 u1 u2).map (·.1)) ⟨2, ![n, 192]⟩ 1) (r : Fin n) (k : Fin 64) :
    concatenate ⟨2, ![n, 192]⟩ 1 (pieces u0 u1 u2) h (ix2 r (⟨64 + k.val, by omega⟩ : Fin 192)) = u1 (ix2 r k) :=
  concatenate_apply_piece 1 (pieces u0 u1 u2) h _ 1 (by show (1 : ℕ) < 3; omega) ⟨2, ![n, 64]⟩ u1 rfl rfl 64 rfl (ix2 r k)
    (fun b hb => by
      match b with
      | ⟨0, _⟩ => rfl
      | ⟨1, _⟩ => exact absurd (Fin.ext rfl) hb)
    (by show 64 + k.val = 64 + k.val; rfl)

/-- Columns 128 … 191 of the joined array are the third array's. -/
theorem join_third (u0 u1 u2 : (⟨2, ![n, 64]⟩ : Shape).Idx → α)
    (h : Shape.Concatenates ((pieces u0 u1 u2).map (·.1)) ⟨2, ![n, 192]⟩ 1) (r : Fin n) (k : Fin 64) :
    concatenate ⟨2, ![n, 192]⟩ 1 (pieces u0 u1 u2) h (ix2 r (⟨128 + k.val, by omega⟩ : Fin 192)) = u2 (ix2 r k) :=
  concatenate_apply_piece 1 (pieces u0 u1 u2) h _ 2 (by show (2 : ℕ) < 3; omega) ⟨2, ![n, 64]⟩ u2 rfl rfl 128 rfl (ix2 r k)
    (fun b hb => by
      match b with
      | ⟨0, _⟩ => rfl
      | ⟨1, _⟩ => exact absurd (Fin.ext rfl) hb)
    (by show 128 + k.val = 128 + k.val; rfl)

end Cert.JoinThree
-- ==== Proof.RefValue.lean ====
/-
  The reference program's result over the extended reals, read as the order-three Chebyshev layer of the
  specification. The degree column d is the host's (clip(in-degree, 1))^(-1/2); the edge aggregation A gathers
  the rows of a table at the source nodes and adds them up at the destination nodes. Stage by stage the
  reference computes feat · d, A(feat · d), x1 = (-1) · (A(feat · d) · d) + feat · 0, x1 · d, A(x1 · d),
  x2 = ((-2) · (A(x1 · d) · d) + 0 · x1) - feat, the table [feat | x1 | x2] of 192 columns, its product with
  W, the bias row added and the maximum with 0. On the extended reals 0 · x = x · 0 = 0 and a + 0 = a hold with
  no finiteness condition, a - x = a + (-1) · x, and the contraction over 192 columns is the sum of the three
  contractions over 64 columns against the three row blocks of W: so the result is the specification's layer at
  A, d. The gather, the scatters and the power are never opened: both sides carry them as the same functions.
-/
import proofs.«133161_j49383533969583_1_alg».proof.Proof.Gen.ReferenceIdeal.Run
import proofs.«133161_j49383533969583_1_alg».proof.Proof.Gen.ReferenceIdeal.Read
import proofs.«133161_j49383533969583_1_alg».proof.Proof.Spec
import proofs.«133161_j49383533969583_1_alg».proof.Proof.LibJoinThree
import Mathlib.Algebra.BigOperators.Fin
import Mathlib.Data.EReal.Operations

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The edge aggregation as the reference's host operations spell it: the rows of y gathered at the source nodes
    (a negative source index moved up by the number of nodes) and added up at the destination nodes. -/
def aggR (src dst : IVec S1250000 32) (y : FVec Ideal S100000x64 .f32) : FVec Ideal S100000x64 .f32 :=
  Host.scatterAdd scatter_S100000x64_S1250000x1_S1250000x64_1_0_0_1 (broadcastInDim S100000x64 ![] bcast_S_S100000x64 (constant S_ .f32 0x00000000#32)) (broadcastInDim S1250000x1 ![0] bcast_S1250000_S1250000x1_0 dst)
    (Host.gather gather_S100000x64_S1250000x1_S1250000x64_1_0_n_n_0_1_164 y (broadcastInDim S1250000x1 ![0] bcast_S1250000_S1250000x1_0 (select (cmpi .slt src (broadcastInDim S1250000 ![] bcast_S_S1250000 (constantI S_ 32 0#32))) (addi src (broadcastInDim S1250000 ![] bcast_S_S1250000 (constantI S_ 32 100000#32))) src)))

/-- The degree column as the host operations spell it: the in-degrees (ones added up at the destination nodes),
    clipped below at one, to the power -1/2. -/
def degR (dst : IVec S1250000 32) : FVec Ideal S100000x1 .f32 :=
  Host.powf (broadcastInDim S100000x1 ![0] bcast_S100000_S100000x1_0 (maximumf (broadcastInDim S100000 ![] bcast_S_S100000 (id (constant S_ .f32 0x3F800000#32))) (Host.scatterAdd scatter_S100000_S1250000x1_S1250000_n_0_0_1 (broadcastInDim S100000 ![] bcast_S_S100000 (constant S_ .f32 0x00000000#32)) (broadcastInDim S1250000x1 ![0] bcast_S1250000_S1250000x1_0 dst) (broadcastInDim S1250000 ![] bcast_S_S1250000 (constant S_ .f32 0x3F800000#32)))))
    (broadcastInDim S100000x1 ![] bcast_S_S100000x1 (constant S_ .f32 0xBF000000#32))

/-! ## The shared host chains are the stages' own terms -/

/-- The degree column is the stage of the power. -/
theorem v7_eq (dst : IVec S1250000 32) : val_main_v7 (F := Ideal) dst = degR dst := by
  unfold val_main_v7 val_main_v6 val_main_cst_2 val_main_v5 val_main_v4 val_main_call0_v1 val_main_call0_v0 val_main_cst_1
    val_main_v3 val_main_v1 val_main_cst_0 val_main_v2 val_main_v0 val_main_cst degR
  rfl

/-- The first scatter is the aggregation of the scaled features. -/
theorem v19_eq (feat : FVec Ideal S100000x64 .f32) (src dst : IVec S1250000 32) :
    val_main_v19 (F := Ideal) feat src dst = aggR src dst (val_main_v9 (F := Ideal) feat dst) := by
  unfold val_main_v19 val_main_v18 val_main_v17 val_main_cst_4 val_main_v16 val_main_v15 val_main_v14 val_main_v13 val_main_v12
    val_main_c_3 val_main_v11 val_main_v10 val_main_c aggR
  rfl

/-- The second scatter is the aggregation of the scaled first table. -/
theorem v38_eq (feat : FVec Ideal S100000x64 .f32) (src dst : IVec S1250000 32) :
    val_main_v38 (F := Ideal) feat src dst = aggR src dst (val_main_v28 (F := Ideal) feat src dst) := by
  unfold val_main_v38 val_main_v37 val_main_v36 val_main_cst_9 val_main_v35 val_main_v34 val_main_v33 val_main_v32 val_main_v31
    val_main_c_8 val_main_v30 val_main_v29 val_main_c_7 aggR
  rfl

/-! ## The constants -/

/-- The word 0xBF800000 denotes -1. -/
theorem cM1_eq : Cert.Cheb.cM1 = -1 := by
  show Ideal.ofBits .f32 0xBF800000#32 = -1
  simp [Ideal.ofBits, Ideal.ieee, -EReal.coe_mul]
  norm_num

/-! ## Where the layout operations read -/

theorem idx8 (i : S100000x64.Idx) : idx_main_v8 i = ix2 (i 0) (0 : Fin 1) :=
  funext fun a => Fin.ext (by match a with | ⟨0, _⟩ => rfl | ⟨1, _⟩ => rfl)
theorem idx20 (i : S100000x64.Idx) : idx_main_v20 i = ix2 (i 0) (0 : Fin 1) :=
  funext fun a => Fin.ext (by match a with | ⟨0, _⟩ => rfl | ⟨1, _⟩ => rfl)
theorem idx27 (i : S100000x64.Idx) : idx_main_v27 i = ix2 (i 0) (0 : Fin 1) :=
  funext fun a => Fin.ext (by match a with | ⟨0, _⟩ => rfl | ⟨1, _⟩ => rfl)
theorem idx39 (i : S100000x64.Idx) : idx_main_v39 i = ix2 (i 0) (0 : Fin 1) :=
  funext fun a => Fin.ext (by match a with | ⟨0, _⟩ => rfl | ⟨1, _⟩ => rfl)
theorem idx_bias (i : S100000x64.Idx) : idx_main_v49 (idx_main_v50 i) = ix1 (i 1) :=
  funext fun a => Fin.ext (by match a with | ⟨0, _⟩ => rfl)
theorem lidx_eq (i : S100000x64.Idx) (k : Fin 192) : lidx_main_v48 i k = ix2 (i 0) k :=
  funext fun a => Fin.ext (by match a with | ⟨0, _⟩ => rfl | ⟨1, _⟩ => rfl)
theorem ridx_eq (i : S100000x64.Idx) (k : Fin 192) : ridx_main_v48 i k = ix2 k (i 1) :=
  funext fun a => Fin.ext (by match a with | ⟨0, _⟩ => rfl | ⟨1, _⟩ => rfl)

/-! ## The pointwise stages -/

/-- feat · d. -/
theorem v9_eq (feat : FVec Ideal S100000x64 .f32) (dst : IVec S1250000 32) :
    val_main_v9 (F := Ideal) feat dst = Cert.Cheb.scale feat (degR dst) := by
  funext i
  rw [val_main_v9_apply, val_main_v8_apply, v7_eq, idx8]
  rfl

/-- x1 = (-1) · (A(feat · d) · d) + feat · 0 is the recursion's first step. -/
theorem v26_eq (feat : FVec Ideal S100000x64 .f32) (src dst : IVec S1250000 32) :
    val_main_v26 (F := Ideal) feat src dst
      = Cert.Cheb.cheb Cert.Cheb.cM1 Cert.Cheb.cZ Cert.Cheb.cZ (aggR src dst (Cert.Cheb.scale feat (degR dst))) (degR dst) feat feat := by
  funext i
  rw [val_main_v26_apply, val_main_v23_apply, val_main_v22_apply, val_main_cst_5_apply, val_main_v21_apply, val_main_v20_apply,
    val_main_v25_apply, val_main_v24_apply, val_main_cst_6_apply, v19_eq, v9_eq, v7_eq, idx20]
  simp only [Ideal.addf_def, Ideal.mulf_def, Ideal.ofBits_def, Cert.Cheb.cheb, Cert.Cheb.cZ, Cert.Cheb.cM1, Ideal.ofBits_zero_f32,
    mul_zero, zero_mul, add_zero]
  rfl

/-- x1 · d. -/
theorem v28_eq (feat : FVec Ideal S100000x64 .f32) (src dst : IVec S1250000 32) :
    val_main_v28 (F := Ideal) feat src dst = Cert.Cheb.scale (val_main_v26 (F := Ideal) feat src dst) (degR dst) := by
  funext i
  rw [val_main_v28_apply, val_main_v27_apply, v7_eq, idx27]
  rfl

/-- x2 = ((-2) · (A(x1 · d) · d) + 0 · x1) - feat is the recursion's second step. -/
theorem v46_eq (feat : FVec Ideal S100000x64 .f32) (src dst : IVec S1250000 32) :
    val_main_v46 (F := Ideal) feat src dst
      = Cert.Cheb.cheb Cert.Cheb.cM2 Cert.Cheb.cZ Cert.Cheb.cM1
          (aggR src dst (Cert.Cheb.scale (val_main_v26 (F := Ideal) feat src dst) (degR dst))) (degR dst)
          (val_main_v26 (F := Ideal) feat src dst) feat := by
  funext i
  rw [val_main_v46_apply, val_main_v45_apply, val_main_v42_apply, val_main_v41_apply, val_main_cst_10_apply, val_main_v40_apply,
    val_main_v39_apply, val_main_v44_apply, val_main_v43_apply, val_main_cst_11_apply, v38_eq, v28_eq, v7_eq, idx39]
  generalize val_main_v26 (F := Ideal) feat src dst = X1
  simp only [Ideal.addf_def, Ideal.subf_def, Ideal.mulf_def, Ideal.ofBits_def, Cert.Cheb.cheb, Cert.Cheb.cZ, Cert.Cheb.cM2,
    Ideal.ofBits_zero_f32, zero_mul, add_zero]
  rw [cM1_eq, neg_one_mul, sub_eq_add_neg]
  rfl

/-! ## The joined table and the contraction -/

theorem v47_first (feat : FVec Ideal S100000x64 .f32) (src dst : IVec S1250000 32) (r : Fin 100000) (k : Fin 64) :
    val_main_v47 (F := Ideal) feat src dst (ix2 r (⟨k.val, by omega⟩ : Fin 192)) = feat (ix2 r k) := by
  unfold val_main_v47
  generalize val_main_v26 (F := Ideal) feat src dst = X1
  generalize val_main_v46 (F := Ideal) feat src dst = X2
  exact Cert.JoinThree.join_first feat X1 X2 concatenates_S100000x64_S100000x64_S100000x64_S100000x192_d1 r k

theorem v47_second (feat : FVec Ideal S100000x64 .f32) (src dst : IVec S1250000 32) (r : Fin 100000) (k : Fin 64) :
    val_main_v47 (F := Ideal) feat src dst (ix2 r (⟨64 + k.val, by omega⟩ : Fin 192)) = val_main_v26 (F := Ideal) feat src dst (ix2 r k) := by
  unfold val_main_v47
  generalize val_main_v26 (F := Ideal) feat src dst = X1
  generalize val_main_v46 (F := Ideal) feat src dst = X2
  exact Cert.JoinThree.join_second feat X1 X2 concatenates_S100000x64_S100000x64_S100000x64_S100000x192_d1 r k

theorem v47_third (feat : FVec Ideal S100000x64 .f32) (src dst : IVec S1250000 32) (r : Fin 100000) (k : Fin 64) :
    val_main_v47 (F := Ideal) feat src dst (ix2 r (⟨128 + k.val, by omega⟩ : Fin 192)) = val_main_v46 (F := Ideal) feat src dst (ix2 r k) := by
  unfold val_main_v47
  generalize val_main_v26 (F := Ideal) feat src dst = X1
  generalize val_main_v46 (F := Ideal) feat src dst = X2
  exact Cert.JoinThree.join_third feat X1 X2 concatenates_S100000x64_S100000x64_S100000x64_S100000x192_d1 r k

/-- A sum over 192 indices is the sum of the sums over its three stretches of 64. -/
theorem sum_three (f : Fin 192 → EReal) :
    ∑ k, f k = (∑ k : Fin 64, f ⟨k.val, by omega⟩ + ∑ k : Fin 64, f ⟨64 + k.val, by omega⟩) + ∑ k : Fin 64, f ⟨128 + k.val, by omega⟩ := by
  have h1 : ∑ k, f k = ∑ k : Fin 128, f ⟨k.val, by omega⟩ + ∑ k : Fin 64, f ⟨128 + k.val, by omega⟩ :=
    Fin.sum_univ_add (a := 128) (b := 64) f
  have h2 : ∑ k : Fin 128, f ⟨k.val, by omega⟩ = ∑ k : Fin 64, f ⟨k.val, by omega⟩ + ∑ k : Fin 64, f ⟨64 + k.val, by omega⟩ :=
    Fin.sum_univ_add (a := 64) (b := 64) fun k : Fin 128 => f ⟨k.val, by omega⟩
  rw [h1, h2]

/-- The product, the bias row and the rectification are the specification's dense layer over feat, x1, x2. -/
theorem v52_eq (feat : FVec Ideal S100000x64 .f32) (src dst : IVec S1250000 32) (W : FVec Ideal S192x64 .f32) (b : FVec Ideal S64 .f32) :
    val_main_v52 (F := Ideal) feat src dst W b
      = Cert.Cheb.dense feat (val_main_v26 (F := Ideal) feat src dst) (val_main_v46 (F := Ideal) feat src dst) W (Cert.Cheb.row b) := by
  funext i
  rw [val_main_v52_apply, val_main_call1_v0_apply, val_main_call1_cst_apply, val_main_v51_apply, val_main_v50_apply, val_main_v49_apply,
    val_main_v48_apply, idx_bias, sum_three]
  have e1 : ∀ k : Fin 64, val_main_v47 (F := Ideal) feat src dst (lidx_main_v48 i ⟨k.val, by omega⟩) = feat (ix2 (i 0) k) :=
    fun k => (congrArg (val_main_v47 (F := Ideal) feat src dst) (lidx_eq i _)).trans (v47_first feat src dst (i 0) k)
  have e2 : ∀ k : Fin 64, val_main_v47 (F := Ideal) feat src dst (lidx_main_v48 i ⟨64 + k.val, by omega⟩)
      = val_main_v26 (F := Ideal) feat src dst (ix2 (i 0) k) :=
    fun k => (congrArg (val_main_v47 (F := Ideal) feat src dst) (lidx_eq i _)).trans (v47_second feat src dst (i 0) k)
  have e3 : ∀ k : Fin 64, val_main_v47 (F := Ideal) feat src dst (lidx_main_v48 i ⟨128 + k.val, by omega⟩)
      = val_main_v46 (F := Ideal) feat src dst (ix2 (i 0) k) :=
    fun k => (congrArg (val_main_v47 (F := Ideal) feat src dst) (lidx_eq i _)).trans (v47_third feat src dst (i 0) k)
  simp only [e1, e2, e3, ridx_eq]
  generalize val_main_v26 (F := Ideal) feat src dst = X1
  generalize val_main_v46 (F := Ideal) feat src dst = X2
  simp only [Ideal.addf_def, Ideal.maximumf_def, Ideal.ofBits_def, Cert.Cheb.dense, Cert.Cheb.blockDot, Cert.Cheb.row, Cert.Cheb.cZ,
    Nat.zero_add]
  rfl

/-- The reference's last stage is the layer at the host's aggregation and degree column. -/
theorem layer_eq (feat : FVec Ideal S100000x64 .f32) (src dst : IVec S1250000 32) (W : FVec Ideal S192x64 .f32) (b : FVec Ideal S64 .f32) :
    val_main_v52 (F := Ideal) feat src dst W b
      = Cert.Cheb.layer (aggR src dst) (degR dst) feat W (Cert.Cheb.row b) := by
  rw [v52_eq, v46_eq, v26_eq]
  rfl

/-- The reference's result is the layer of the specification at the host's aggregation and degree column. -/
theorem res_eq (m : (ℓ : Loc nD τ sig) → Buf (Elt Ideal) ℓ) (c : Dev nD) :
    Cert.ReferenceIdeal.Value.res_main_v52 (F := Ideal) m c
      = Cert.Cheb.layer (aggR (m ((c.tc : Thread nD τ).loc main_arg1)) (m ((c.tc : Thread nD τ).loc main_arg2))) (degR (m ((c.tc : Thread nD τ).loc main_arg2)))
          (m ((c.tc : Thread nD τ).loc main_arg0)) (m ((c.tc : Thread nD τ).loc main_arg3)) (Cert.Cheb.row (m ((c.tc : Thread nD τ).loc main_arg4))) :=
  (val_main_v52_eq (F := Ideal) m c).trans (layer_eq _ _ _ _ _)

end Cert.ReferenceIdeal.RefValue

end
-- ==== Proof.BitsFrame0.lean ====
/-
  Region 0 of @main: the row-scaling kernel on a grid of ten points, at a parameter V (the contents of the
  TensorCore's buffers when the region is entered), for any float instance.

  The kernel reads a (10000, 64) block of the table and the (10000, 1) block of the column that goes with it, and
  writes the block of the result: every entry of the table's block times the entry of the column in its row. Stated
  here: each window's block at a grid point, what the body leaves in the result's staging buffer as a function of
  the two input blocks, the body's triple on whole staging buffers, the pipeline's proof data at V, and the body
  obligation at every point.
-/
import proofs.«133161_j49383533969583_1_alg».proof.Proof.Gen.Kernel.Launch
import proofs.«133161_j49383533969583_1_alg».proof.Proof.Gen.Kernel.Skeleton
import proofs.«133161_j49383533969583_1_alg».proof.Proof.Gen.Kernel.Points
import Idealize.ShloMosaic.Lib.Pipeline.FrameBody
import Idealize.ShloMosaic.Lib.Ring
import Idealize.ShloMosaic.Lib.Tactic

-- membership in a rectangle with ten thousand rows is looked at once per coordinate
set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-! ## The windows' blocks -/

/-- The block of window w at grid point t, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The table's staging buffer holds the table's block at every point, whether the block was fetched there or is
    still in place from the point before: for any proof data over V's arrays whose body leaves that buffer alone. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the column's staging buffer. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes -/

/-- The whole (10000, 64) staging buffer: what the body loads of the table's block, and what it stores. -/
abbrev tile0 : Rect S10000x64 := Rect.unit (s := S10000x64) ![0, 0] S10000x64.size inb_S10000x64_S10000x64_0_0
/-- The whole (10000, 1) staging buffer: what the body loads of the column's block. -/
abbrev col0 : Rect S10000x1 := Rect.unit (s := S10000x1) ![0, 0] S10000x1.size inb_S10000x1_S10000x1_0_0

/-! ## What the body leaves in the result's staging buffer -/

/-- The result's staging buffer after the body, from the two input blocks: one store over the whole buffer, of the
    product of the loaded table block and the loaded column block broadcast along the rows. -/
def out0_2 (x0 : Vec F S10000x64 .f32) (x1 : Vec F S10000x1 .f32) : Vec F S10000x64 .f32 :=
  View.canon [⟨tile0, k0_pay1 (View.ld x0 tile0) (View.ld x1 col0)⟩]

/-- The one store covers the buffer. -/
theorem cover0_2 (p0 : Vec F S10000x64 .f32) (y : S10000x64.Idx) :
    ∃ pc ∈ ([⟨tile0, p0⟩] : List (View.Piece (Elt F) S10000x64 .f32)), y ∈ pc.1.set :=
  View.cover_of_tiled [⟨tile0, p0⟩] S10000x64.size (by rfl) y

/-! ## The body's triple -/

set_option maxHeartbeats 1000000 in
/-- The body on whole staging buffers: with the table's at x0, the column's at x1 and the result's at anything (the
    body loads it before it stores over it), it runs to a continuation that holds the two inputs' as they were and
    the result's at out0_2 x0 x1. -/
theorem sound_kernel0 (c : Dev nD) (E : Set ℕ) (i : grid0.Coords)
    (arg1 : Memref sig .tc .vmem S10000x64 .f32) (harg1 : arg1.IsWhole)
    (arg2 : Memref sig .tc .vmem S10000x1 .f32) (harg2 : arg2.IsWhole)
    (arg3 : Memref sig .tc .vmem S10000x64 .f32) (harg3 : arg3.IsWhole)
    (x0 : Vec F S10000x64 .f32) (x1 : Vec F S10000x1 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__scale_kernel i arg1 harg1 arg2 harg2 arg3 harg3) K := by
  simp only [cc0__scale_kernel_eq_skeleton]; unfold cc0__scale_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the region's pipeline on core c: the arrays as the region finds them; after the body at point
    t the two inputs' buffers at their blocks and the result's at out0_2 of those blocks; the invariant that of a
    body touching nothing but its windows; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline's launch theorems, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsFrame1.lean ====
/-
  Region 1 of @main: the first Chebyshev step (custom_call 1, `cc1__cheb_kernel`, pipeline 1), its class-A half at a
  PARAMETER `V` — the TensorCore's buffer contents when the region is entered —, at any float instance.

  The pipeline has six windows over a grid of ten points. Windows 0..3 are inputs: the aggregate table, the degree
  column, and the feature table twice (as the "self" and as the "previous" operand: two windows over ONE array);
  windows 4 and 5 are the outputs x and y = x · d. At every point each window's block is row block t of its array.
  The body loads the four input buffers whole, computes x from them, loads the first output buffer (a dead load),
  stores x over it, loads the second output buffer (dead again) and stores x · d over it. So after the body each
  input buffer holds its block as before and each output buffer is one store's payload laid over the whole buffer.
-/
import proofs.«133161_j49383533969583_1_alg».proof.Proof.Gen.Kernel.Launch
import proofs.«133161_j49383533969583_1_alg».proof.Proof.Gen.Kernel.Skeleton
import proofs.«133161_j49383533969583_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of ten thousand rows: the structural look recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds the window's block at every point, for any proof data whose
    array is the entry contents and whose body leaves the block in place: the window is an input, never idle, its
    blocks tile the array (nothing is cut), so what a fetch would put there is the block, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: the whole table block and the whole column block -/

abbrev rT : Rect S10000x64 := Rect.unit (s := S10000x64) ![0, 0] S10000x64.size inb_S10000x64_S10000x64_0_0
abbrev rC : Rect S10000x1 := Rect.unit (s := S10000x1) ![0, 0] S10000x1.size inb_S10000x1_S10000x1_0_0

/-! ## What the body leaves in each output window's buffer -/

/-- The x buffer after the body, from the input blocks (aggregate `a`, column `d`, self `s`, previous `p`): its one
    store, whose payload is the skeleton's `k1_pay2` of the four loads. -/
def out1_4 (a : Vec F S10000x64 .f32) (d : Vec F S10000x1 .f32) (s p : Vec F S10000x64 .f32) : Vec F S10000x64 .f32 :=
  View.canon [⟨rT, k1_pay2 (View.ld d rC) (View.ld a rT) (View.ld s rT) (View.ld p rT)⟩]

/-- The y buffer after the body: its one store, of `k1_pay3` of the same four loads. -/
def out1_5 (a : Vec F S10000x64 .f32) (d : Vec F S10000x1 .f32) (s p : Vec F S10000x64 .f32) : Vec F S10000x64 .f32 :=
  View.canon [⟨rT, k1_pay3 (View.ld d rC) (View.ld a rT) (View.ld s rT) (View.ld p rT)⟩]

/-- One whole-buffer store covers the buffer. -/
theorem cover1_T (p0 : Vec F S10000x64 .f32) (y : S10000x64.Idx) :
    ∃ pc ∈ ([⟨rT, p0⟩] : List (View.Piece (Elt F) S10000x64 .f32)), y ∈ pc.1.set :=
  View.cover_of_tiled [⟨rT, p0⟩] S10000x64.size (by rfl) y

/-! ## The body's triple -/

set_option maxHeartbeats 1000000 in
/-- The kernel body on whole staging memrefs — the four inputs' at read contents `a d s p`, the two outputs' at
    anything — runs to the continuation holding the inputs' as they were and the outputs' at `out1_4`, `out1_5` of the
    inputs': the printed function is its skeleton, a straight line of six loads and two stores. -/
theorem sound_kernel1 (c : Dev nD) (E : Set ℕ) (i : grid1.Coords)
    (arg1 : Memref sig .tc .vmem S10000x64 .f32) (harg1 : arg1.IsWhole) (arg2 : Memref sig .tc .vmem S10000x1 .f32) (harg2 : arg2.IsWhole)
    (arg3 : Memref sig .tc .vmem S10000x64 .f32) (harg3 : arg3.IsWhole) (arg4 : Memref sig .tc .vmem S10000x64 .f32) (harg4 : arg4.IsWhole)
    (arg5 : Memref sig .tc .vmem S10000x64 .f32) (harg5 : arg5.IsWhole) (arg6 : Memref sig .tc .vmem S10000x64 .f32) (harg6 : arg6.IsWhole)
    (a : Vec F S10000x64 .f32) (d : Vec F S10000x1 .f32) (s p : Vec F S10000x64 .f32) (K : PUnit → sProp 𝕄) :
    iprop(owns (c : Thread nD τ) arg1 fullShare a ∗ owns (c : Thread nD τ) arg2 fullShare d
        ∗ owns (c : Thread nD τ) arg3 fullShare s ∗ owns (c : Thread nD τ) arg4 fullShare p
        ∗ (∃ z, owns (c : Thread nD τ) arg5 fullShare z) ∗ (∃ z, owns (c : Thread nD τ) arg6 fullShare z)
        ∗ (iprop(owns (c : Thread nD τ) arg1 fullShare a ∗ owns (c : Thread nD τ) arg2 fullShare d
            ∗ owns (c : Thread nD τ) arg3 fullShare s ∗ owns (c : Thread nD τ) arg4 fullShare p
            ∗ owns (c : Thread nD τ) arg5 fullShare (out1_4 a d s p) ∗ owns (c : Thread nD τ) arg6 fullShare (out1_5 a d s p)) -∗ K ⟨⟩))
      ⊢ wp frame (wpE (defs₀ (F := F)) Variants.none c none) E (cc1__cheb_kernel i arg1 harg1 arg2 harg2 arg3 harg3 arg4 harg4 arg5 harg5 arg6 harg6) K := by
  simp only [cc1__cheb_kernel_eq_skeleton]; unfold cc1__cheb_kernel_skel
  unfold owns
  iintro ⟨⟨%f1, %hf1, H1⟩, ⟨%f2, %hf2, H2⟩, ⟨%f3, %hf3, H3⟩, ⟨%f4, %hf4, H4⟩, ⟨%z5, %f5, -, H5⟩, ⟨%z6, %f6, -, H6⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1_T _)
  iexists _; isplitr
  swap; · iexact H6
  ipureintro
  exact View.read_writes_eq_canon _ _ _ (cover1_T _)

/-! ## The pipeline's proof data -/

/-- The proof data of pipeline 1 on core `c`: the arrays as the region finds them; after the body at point `t` each
    input's buffer at its block and each output's at `out1_4`, `out1_5` of the four input blocks; the invariant the
    scoped rest and the generator register, untouched; nothing owed. Every array is held whole but the feature
    table, which two windows read: they hold the two halves of its share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
    | ⟨5, _⟩ => out1_5 (iblk1 V c 0 t) (iblk1 V c 1 t) (iblk1 V c 2 t) (iblk1 V c 3 t)
  Φ _ := Pipeline.ΦA spec1 c
  q := fun w => match w with
    | ⟨0, _⟩ => fullShare
    | ⟨1, _⟩ => fullShare
    | ⟨2, _⟩ => fullShare.left
    | ⟨3, _⟩ => fullShare.right
    | ⟨4, _⟩ => fullShare
    | ⟨5, _⟩ => fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]
theorem after1_5 (c : Dev nD) (t : Fin cfg1.N) :
    (dat1 V c).after 5 t = out1_5 (iblk1 V c 0 t) (iblk1 V c 1 t) (iblk1 V c 2 t) (iblk1 V c 3 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the kernel's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsFrame2.lean ====
/-
  Region 2 of the program: the second Chebyshev step (custom call 2), stated at a parameter `V`, the contents of the
  TensorCore's buffers when the region is entered, and at any float instance.

  The region runs over ten grid points. At point t it reads row block t of the aggregate table, of the degree
  column, of the previous table and of the table before it, and writes row block t of two tables: the new table
  x = a·(agg·d) + b·self + c·prev, and its rescaling y = x·d. This module gives each window's block at a point, what
  the body leaves in each output's staging buffer as a function of the four input blocks, the body's triple, the
  pipeline's proof data at `V` and the body obligation.
-/
import proofs.«133161_j49383533969583_1_alg».proof.Proof.Gen.Kernel.Launch
import proofs.«133161_j49383533969583_1_alg».proof.Proof.Gen.Kernel.Skeleton
import proofs.«133161_j49383533969583_1_alg».proof.Proof.Gen.Kernel.Points
import Idealize.ShloMosaic.Lib.Pipeline.FrameBody
import Idealize.ShloMosaic.Lib.Ring
import Idealize.ShloMosaic.Lib.Tactic

-- membership in a rectangle of 10000 rows is looked at once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The aggregate's window (0): its staging buffer holds its block wherever the body is handed it, for any proof data
    over `V`'s array that leaves the block in place. The window is an input, never idle and never cut. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The degree column's window (1), likewise. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- The previous table's window (2), likewise. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- The window of the table before that (3), likewise. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: the whole tile and the whole column -/

abbrev tile2 : Rect S10000x64 := Rect.unit (s := S10000x64) ![0, 0] S10000x64.size inb_S10000x64_S10000x64_0_0
abbrev col2 : Rect S10000x1 := Rect.unit (s := S10000x1) ![0, 0] S10000x1.size inb_S10000x1_S10000x1_0_0

/-! ## What the body leaves in each output's buffer -/

/-- The new table's buffer (window 4) after the body, from the four input blocks: its one store, of the combination
    a·(agg·d) + b·self + c·prev, over the whole tile. -/
def out2_4 (x0 : Vec F S10000x64 .f32) (x1 : Vec F S10000x1 .f32) (x2 : Vec F S10000x64 .f32) (x3 : Vec F S10000x64 .f32) : Vec F S10000x64 .f32 :=
  View.canon [⟨tile2, k2_pay2 (View.ld x1 col2) (View.ld x0 tile2) (View.ld x2 tile2) (View.ld x3 tile2)⟩]

/-- The rescaled table's buffer (window 5) after the body: its one store, of the combination times the column. -/
def out2_5 (x0 : Vec F S10000x64 .f32) (x1 : Vec F S10000x1 .f32) (x2 : Vec F S10000x64 .f32) (x3 : Vec F S10000x64 .f32) : Vec F S10000x64 .f32 :=
  View.canon [⟨tile2, k2_pay3 (View.ld x1 col2) (View.ld x0 tile2) (View.ld x2 tile2) (View.ld x3 tile2)⟩]

/-- One store over the whole tile covers the buffer. -/
theorem cover2_4 (p0 : Vec F S10000x64 .f32) (y : S10000x64.Idx) :
    ∃ pc ∈ ([⟨tile2, p0⟩] : List (View.Piece (Elt F) S10000x64 .f32)), y ∈ pc.1.set :=
  View.cover_of_tiled [⟨tile2, p0⟩] S10000x64.size (by rfl) y
theorem cover2_5 (p0 : Vec F S10000x64 .f32) (y : S10000x64.Idx) :
    ∃ pc ∈ ([⟨tile2, p0⟩] : List (View.Piece (Elt F) S10000x64 .f32)), y ∈ pc.1.set :=
  View.cover_of_tiled [⟨tile2, p0⟩] S10000x64.size (by rfl) y

/-! ## The body's triple -/

set_option maxHeartbeats 1000000 in
/-- The body on whole staging memrefs, the four inputs' at contents `x0 … x3` and the two outputs' at anything, runs
    to the continuation holding the inputs' as they were and the outputs' at `out2_4`, `out2_5` of the inputs'. It loads
    each output's buffer before it stores into it, so the outputs' buffers are held at some contents. -/
theorem sound_kernel2 (c : Dev nD) (E : Set ℕ) (i : grid2.Coords)
    (arg1 : Memref sig .tc .vmem S10000x64 .f32) (harg1 : arg1.IsWhole) (arg2 : Memref sig .tc .vmem S10000x1 .f32) (harg2 : arg2.IsWhole)
    (arg3 : Memref sig .tc .vmem S10000x64 .f32) (harg3 : arg3.IsWhole) (arg4 : Memref sig .tc .vmem S10000x64 .f32) (harg4 : arg4.IsWhole)
    (arg5 : Memref sig .tc .vmem S10000x64 .f32) (harg5 : arg5.IsWhole) (arg6 : Memref sig .tc .vmem S10000x64 .f32) (harg6 : arg6.IsWhole)
    (x0 : Vec F S10000x64 .f32) (x1 : Vec F S10000x1 .f32) (x2 : Vec F S10000x64 .f32) (x3 : Vec F S10000x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out2_4 x0 x1 x2 x3)
            ∗ owns (c : Thread nD τ) arg6 fullShare (out2_5 x0 x1 x2 x3)) -∗ K ⟨⟩))
      ⊢ wp frame (wpE (defs₀ (F := F)) Variants.none c none) E (cc2__cheb_kernel i arg1 harg1 arg2 harg2 arg3 harg3 arg4 harg4 arg5 harg5 arg6 harg6) K := by
  simp only [cc2__cheb_kernel_eq_skeleton]; unfold cc2__cheb_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover2_4 _)
  iexists _; isplitr
  swap; · iexact H5
  ipureintro
  exact View.read_writes_eq_canon _ _ _ (cover2_5 _)

/-! ## The pipeline's proof data -/

/-- The proof data of pipeline 2 on core `c`: the arrays as the region finds them; after the body at point `t` each
    input's buffer at its block and each output's at `out2_4`, `out2_5` of the four input blocks; the invariant the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
    | ⟨5, _⟩ => out2_5 (iblk2 V c 0 t) (iblk2 V c 1 t) (iblk2 V c 2 t) (iblk2 V c 3 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]
theorem after2_5 (c : Dev nD) (t : Fin cfg2.N) :
    (dat2 V c).after 5 t = out2_5 (iblk2 V c 0 t) (iblk2 V c 1 t) (iblk2 V c 2 t) (iblk2 V c 3 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _
    (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.BitsFrame3.lean ====
/-
  Region 3 of @main: the rectified dense layer over three node tables (custom_call 3, pipeline 3), stated at a
  PARAMETER V — what every unscoped buffer of a core holds when the region is entered — and for any float
  instance.

  The grid has ten points. At point t the body is handed six staging buffers: the t-th row block (10000 rows, 64
  columns) of each of three node tables, the whole weight table (192 rows, 64 columns), the whole bias row, and the
  buffer of the t-th row block of the result. It reads the three 64-row blocks of the weight table (rows 0, 64 and
  128 onward), the three row blocks whole and the bias row whole, and writes the result's buffer whole, once. So what
  the body leaves in the result's buffer is a closed function of the five input blocks: the one payload laid over
  the whole buffer. The weight table and the bias row have a constant block index: the pipeline fetches them at the
  first point only, and at every later point their buffers still hold the block, which the body leaves in place.

  Here: the blocks (iblk3), what an input buffer holds before the body (before3_w), what the body leaves in the
  result's buffer (out3_5), the body's triple (sound_kernel3), the pipeline's proof data (dat3) and the body
  obligation at every point (body_obligation3).
-/
import proofs.«133161_j49383533969583_1_alg».proof.Proof.Gen.Kernel.Launch
import proofs.«133161_j49383533969583_1_alg».proof.Proof.Gen.Kernel.Skeleton
import proofs.«133161_j49383533969583_1_alg».proof.Proof.Gen.Kernel.Points
import Idealize.ShloMosaic.Lib.Pipeline.FrameBody
import Idealize.ShloMosaic.Lib.Ring
import Idealize.ShloMosaic.Lib.Tactic

-- membership in a rectangle of ten thousand rows is looked at coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3

variable (V : (c : Dev nD) → (b : Ref sig .tc) → Buf (Elt F) ((c : Thread nD τ).loc b))

/-! ## Blocks -/

/-- The block of window w at grid point t, read off the window's array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## What an input buffer holds before the body

For proof data whose array of the window is V's and whose body leaves the window's block where it found it, the
window's current staging buffer holds the block at every point. Where the pipeline fetched, that is what the fetch
brought; where it did not, the block index is the previous point's, and so is the block. None of the five input
windows is cut at its array's end and none has an idle point. -/

theorem before3_0_of {c : Dev nD} (dat : Dat τ (Elt F) Unit ℕ (UR sig nD τ) ℕ cfg3 c)
    (hA : dat.A 0 = V c (Pipeline.arrRef spec3 0)) (hafter : ∀ t, dat.after 0 t = iblk3 V c 0 t)
    (t : Fin cfg3.N) (d) : dat.before 0 t d = iblk3 V c 0 t := by
  have hkeep : ∀ s, (cfg3.win 0).cut (cfg3.grid.coords s) (dat.after 0 s) = dat.blockOf 0 s := fun s => by
    rw [hafter]; unfold Dat.blockOf iblk3; rw [hA]; try rfl
  rw [dat.before_in_eq_fetched 0 rfl (fun _ => rfl) (fun _ _ _ => rfl) hkeep t d]
  unfold Dat.fetched Dat.blockOf iblk3; rw [hA]; try rfl

theorem before3_1_of {c : Dev nD} (dat : Dat τ (Elt F) Unit ℕ (UR sig nD τ) ℕ cfg3 c)
    (hA : dat.A 1 = V c (Pipeline.arrRef spec3 1)) (hafter : ∀ t, dat.after 1 t = iblk3 V c 1 t)
    (t : Fin cfg3.N) (d) : dat.before 1 t d = iblk3 V c 1 t := by
  have hkeep : ∀ s, (cfg3.win 1).cut (cfg3.grid.coords s) (dat.after 1 s) = dat.blockOf 1 s := fun s => by
    rw [hafter]; unfold Dat.blockOf iblk3; rw [hA]; try rfl
  rw [dat.before_in_eq_fetched 1 rfl (fun _ => rfl) (fun _ _ _ => rfl) hkeep t d]
  unfold Dat.fetched Dat.blockOf iblk3; rw [hA]; try rfl

theorem before3_2_of {c : Dev nD} (dat : Dat τ (Elt F) Unit ℕ (UR sig nD τ) ℕ cfg3 c)
    (hA : dat.A 2 = V c (Pipeline.arrRef spec3 2)) (hafter : ∀ t, dat.after 2 t = iblk3 V c 2 t)
    (t : Fin cfg3.N) (d) : dat.before 2 t d = iblk3 V c 2 t := by
  have hkeep : ∀ s, (cfg3.win 2).cut (cfg3.grid.coords s) (dat.after 2 s) = dat.blockOf 2 s := fun s => by
    rw [hafter]; unfold Dat.blockOf iblk3; rw [hA]; try rfl
  rw [dat.before_in_eq_fetched 2 rfl (fun _ => rfl) (fun _ _ _ => rfl) hkeep t d]
  unfold Dat.fetched Dat.blockOf iblk3; rw [hA]; try rfl

/-- The weight table: one block, the whole table, at every point. -/
theorem before3_3_of {c : Dev nD} (dat : Dat τ (Elt F) Unit ℕ (UR sig nD τ) ℕ cfg3 c)
    (hA : dat.A 3 = V c (Pipeline.arrRef spec3 3)) (hafter : ∀ t, dat.after 3 t = iblk3 V c 3 t)
    (t : Fin cfg3.N) (d) : dat.before 3 t d = iblk3 V c 3 t := by
  have hkeep : ∀ s, (cfg3.win 3).cut (cfg3.grid.coords s) (dat.after 3 s) = dat.blockOf 3 s := fun s => by
    rw [hafter]; unfold Dat.blockOf iblk3; rw [hA]; try rfl
  rw [dat.before_in_eq_fetched 3 rfl (fun _ => rfl) (fun _ _ _ => rfl) hkeep t d]
  unfold Dat.fetched Dat.blockOf iblk3; rw [hA]; try rfl

/-- The bias row: one block, the whole row, at every point. -/
theorem before3_4_of {c : Dev nD} (dat : Dat τ (Elt F) Unit ℕ (UR sig nD τ) ℕ cfg3 c)
    (hA : dat.A 4 = V c (Pipeline.arrRef spec3 4)) (hafter : ∀ t, dat.after 4 t = iblk3 V c 4 t)
    (t : Fin cfg3.N) (d) : dat.before 4 t d = iblk3 V c 4 t := by
  have hkeep : ∀ s, (cfg3.win 4).cut (cfg3.grid.coords s) (dat.after 4 s) = dat.blockOf 4 s := fun s => by
    rw [hafter]; unfold Dat.blockOf iblk3; rw [hA]; try rfl
  rw [dat.before_in_eq_fetched 4 rfl (fun _ => rfl) (fun _ _ _ => rfl) hkeep t d]
  unfold Dat.fetched Dat.blockOf iblk3; rw [hA]; try rfl

/-! ## The rectangles the body reads and writes through -/

/-- A row block of a node table, whole. -/
abbrev rX3 : Rect S10000x64 := Rect.unit (s := S10000x64) ![0, 0] S10000x64.size inb_S10000x64_S10000x64_0_0
/-- Rows 0 to 63 of the weight table. -/
abbrev rW3_0 : Rect S192x64 := Rect.unit (s := S192x64) ![0, 0] S64x64.size inb_S192x64_S64x64_0_0
/-- Rows 64 to 127 of the weight table. -/
abbrev rW3_1 : Rect S192x64 := Rect.unit (s := S192x64) ![64, 0] S64x64.size inb_S192x64_S64x64_64_0
/-- Rows 128 to 191 of the weight table. -/
abbrev rW3_2 : Rect S192x64 := Rect.unit (s := S192x64) ![128, 0] S64x64.size inb_S192x64_S64x64_128_0
/-- The bias row, whole. -/
abbrev rB3 : Rect S1x64 := Rect.unit (s := S1x64) ![0, 0] S1x64.size inb_S1x64_S1x64_0_0

/-! ## What the body leaves in the result's buffer -/

/-- The result's staging buffer after the body, as a function of the five input blocks: the body's one store, over
    the whole buffer, of the payload at what the seven loads read. -/
def out3_5 (x0 x1 x2 : Vec F S10000x64 .f32) (x3 : Vec F S192x64 .f32) (x4 : Vec F S1x64 .f32) : Vec F S10000x64 .f32 :=
  View.canon [⟨rX3, k3_pay1 (View.ld x3 rW3_0) (View.ld x3 rW3_1) (View.ld x3 rW3_2)
    (View.ld x0 rX3) (View.ld x1 rX3) (View.ld x2 rX3) (View.ld x4 rB3)⟩]

/-- The one store is the whole buffer, so every index of the buffer lies under it. -/
theorem cover3_5 (p : Vec F S10000x64 .f32) (y : S10000x64.Idx) :
    ∃ pc ∈ ([⟨rX3, p⟩] : List (View.Piece (Elt F) S10000x64 .f32)), y ∈ pc.1.set :=
  View.cover_of_tiled [⟨rX3, p⟩] S10000x64.size (by rfl) y

/-! ## The body's triple -/

set_option maxHeartbeats 2000000 in
/-- The body on six whole staging memrefs — the five inputs' at read contents x0 … x4, the result's at anything —
    runs to a continuation that is given the inputs' as they were and the result's at out3_5 of the inputs'. The
    body is its list of memory operations over the payload; it also loads the result's buffer before it stores into
    it, which is why the result's buffer is held at SOME contents. -/
theorem sound_kernel3 (c : Dev nD) (E : Set ℕ) (i : grid3.Coords)
    (arg1 : Memref sig .tc .vmem S10000x64 .f32) (harg1 : arg1.IsWhole)
    (arg2 : Memref sig .tc .vmem S10000x64 .f32) (harg2 : arg2.IsWhole)
    (arg3 : Memref sig .tc .vmem S10000x64 .f32) (harg3 : arg3.IsWhole)
    (arg4 : Memref sig .tc .vmem S192x64 .f32) (harg4 : arg4.IsWhole)
    (arg5 : Memref sig .tc .vmem S1x64 .f32) (harg5 : arg5.IsWhole)
    (arg6 : Memref sig .tc .vmem S10000x64 .f32) (harg6 : arg6.IsWhole)
    (x0 x1 x2 : Vec F S10000x64 .f32) (x3 : Vec F S192x64 .f32) (x4 : Vec F S1x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E
          (cc3__matmul_relu_kernel i arg1 harg1 arg2 harg2 arg3 harg3 arg4 harg4 arg5 harg5 arg6 harg6) K := by
  simp only [cc3__matmul_relu_kernel_eq_skeleton]; unfold cc3__matmul_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of pipeline 3 on core c. The arrays are the region's entry contents. After the body at point t
    each input's buffer holds its block and the result's holds out3_5 of the five input blocks. The invariant is
    the scoped rest and the generator register, untouched; nothing is owed; the shares are full. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t
      = out3_5 (iblk3 V c 0 t) (iblk3 V c 1 t) (iblk3 V c 2 t) (iblk3 V c 3 t) (iblk3 V c 4 t) := by
  dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation -/

/-- What the body is called with at point t: the invariant, the core's debts, and the six current staging buffers,
    each at what the pipeline left in it. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- What it returns: the same, each buffer at what the proof data says the body leaves. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' buffers hold their blocks, so the body's triple applies at the blocks; the
    invariant and the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _
    (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline's proof data, at every point. -/
theorem body_obligation3 (c : Dev nD) :
    BodyObligation (dat3 (F := F) V c) (defs₀ (F := F)) Variants.none () Set.univ := fun t => by
  rw [bigSep_W3, bigSep_W3]
  exact sound_body3 V c t

end Region3

end Cert.Kernel.Hand

end
-- ==== Proof.BitsFold.lean ====
/-
  The contents of every unscoped buffer of the program, followed from the launch to the return: a host stretch applies
  its operations to what it finds; a kernel region leaves each output array at what its write-backs make of it and
  every other buffer as it was.
-/
import proofs.«133161_j49383533969583_1_alg».proof.Proof.BitsFrame0
import proofs.«133161_j49383533969583_1_alg».proof.Proof.BitsFrame1
import proofs.«133161_j49383533969583_1_alg».proof.Proof.BitsFrame2
import proofs.«133161_j49383533969583_1_alg».proof.Proof.BitsFrame3
import proofs.«133161_j49383533969583_1_alg».proof.Proof.Gen.Kernel.Launch
import proofs.«133161_j49383533969583_1_alg».proof.Proof.Gen.Kernel.Regions
import Idealize.ShloMosaic.Lib.Pipeline.FrameBody

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-! ## The buffers' contents at each boundary between two items of the program -/

/-- Core `c`'s buffers at launch. -/
abbrev W0 : Dev nD → Valuation τ sig (Elt F) := fun c b => m (c, b)
/-- After the first three host stretches (the degree column is computed): region 0's entry. -/
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
/-- The same read at the TensorCore's references. -/
abbrev V3 : (c : Dev nD) → (b : Ref sig .tc) → Buf (Elt F) ((c : Thread nD τ).loc b) := fun c b => W3 m c b
/-- At region 0's exit: its output array at what the write-backs leave, every other buffer as entered. -/
def W4 (c : Dev nD) : Valuation τ sig (Elt F) :=
  Function.update (W3 m c) main_v8 ((dat0 (V3 m) c).arrAt 2 cfg0.N)
abbrev V4 : (c : Dev nD) → (b : Ref sig .tc) → Buf (Elt F) ((c : Thread nD τ).loc b) := fun c b => W4 m c b
/-- After the first gather and scatter: region 1's entry. -/
abbrev W5 : Dev nD → Valuation τ sig (Elt F) := fun c => StableHlo.after hostOps1 (W4 m c)
abbrev V5 : (c : Dev nD) → (b : Ref sig .tc) → Buf (Elt F) ((c : Thread nD τ).loc b) := fun c b => W5 m c b
/-- At region 1's exit. -/
def W6 (c : Dev nD) : Valuation τ sig (Elt F) :=
  Function.update (Function.update (W5 m c) main_v19_0 ((dat1 (V5 m) c).arrAt 4 cfg1.N)) main_v19_1 ((dat1 (V5 m) c).arrAt 5 cfg1.N)
abbrev V6 : (c : Dev nD) → (b : Ref sig .tc) → Buf (Elt F) ((c : Thread nD τ).loc b) := fun c b => W6 m c b
/-- After the second gather and scatter: region 2's entry. -/
abbrev W7 : Dev nD → Valuation τ sig (Elt F) := fun c => StableHlo.after hostOps2 (W6 m c)
abbrev V7 : (c : Dev nD) → (b : Ref sig .tc) → Buf (Elt F) ((c : Thread nD τ).loc b) := fun c b => W7 m c b
/-- At region 2's exit. -/
def W8 (c : Dev nD) : Valuation τ sig (Elt F) :=
  Function.update (Function.update (W7 m c) main_v30_0 ((dat2 (V7 m) c).arrAt 4 cfg2.N)) main_v30_1 ((dat2 (V7 m) c).arrAt 5 cfg2.N)
abbrev V8 : (c : Dev nD) → (b : Ref sig .tc) → Buf (Elt F) ((c : Thread nD τ).loc b) := fun c b => W8 m c b
/-- After the bias is laid out as a row: region 3's entry. -/
abbrev W9 : Dev nD → Valuation τ sig (Elt F) := fun c => StableHlo.after hostOps3 (W8 m c)
abbrev V9 : (c : Dev nD) → (b : Ref sig .tc) → Buf (Elt F) ((c : Thread nD τ).loc b) := fun c b => W9 m c b
/-- At region 3's exit: the return. -/
def W10 (c : Dev nD) : Valuation τ sig (Elt F) :=
  Function.update (W9 m c) main_v32 ((dat3 (V9 m) c).arrAt 5 cfg3.N)
abbrev V10 : (c : Dev nD) → (b : Ref sig .tc) → Buf (Elt F) ((c : Thread nD τ).loc b) := fun c b => W10 m c b

/-! ## What a region's exit contents hold -/

theorem W4_out (c : Dev nD) : W4 m c (Proc.devRef .tc main_v8) = (dat0 (V3 m) c).arrAt 2 cfg0.N := by
  unfold W4; exact Function.update_self ..
theorem W4_of_ne (c : Dev nD) (b : Ref sig .tc) (hb : b ≠ main_v8) : W4 m c (Proc.devRef .tc b) = W3 m c (Proc.devRef .tc b) := by
  unfold W4; exact Function.update_of_ne (StableHlo.devRef_ne_of_ne hb) _ _

theorem W6_out0 (c : Dev nD) : W6 m c (Proc.devRef .tc main_v19_0) = (dat1 (V5 m) c).arrAt 4 cfg1.N := by
  unfold W6
  rw [Function.update_of_ne (StableHlo.devRef_ne_of_ne (by decide : main_v19_0 ≠ main_v19_1))]
  exact Function.update_self ..
theorem W6_out1 (c : Dev nD) : W6 m c (Proc.devRef .tc main_v19_1) = (dat1 (V5 m) c).arrAt 5 cfg1.N := by
  unfold W6; exact Function.update_self ..
theorem W6_of_ne (c : Dev nD) (b : Ref sig .tc) (h0 : b ≠ main_v19_0) (h1 : b ≠ main_v19_1) :
    W6 m c (Proc.devRef .tc b) = W5 m c (Proc.devRef .tc b) := by
  unfold W6
  rw [Function.update_of_ne (StableHlo.devRef_ne_of_ne h1), Function.update_of_ne (StableHlo.devRef_ne_of_ne h0)]

theorem W8_out0 (c : Dev nD) : W8 m c (Proc.devRef .tc main_v30_0) = (dat2 (V7 m) c).arrAt 4 cfg2.N := by
  unfold W8
  rw [Function.update_of_ne (StableHlo.devRef_ne_of_ne (by decide : main_v30_0 ≠ main_v30_1))]
  exact Function.update_self ..
theorem W8_out1 (c : Dev nD) : W8 m c (Proc.devRef .tc main_v30_1) = (dat2 (V7 m) c).arrAt 5 cfg2.N := by
  unfold W8; exact Function.update_self ..
theorem W8_of_ne (c : Dev nD) (b : Ref sig .tc) (h0 : b ≠ main_v30_0) (h1 : b ≠ main_v30_1) :
    W8 m c (Proc.devRef .tc b) = W7 m c (Proc.devRef .tc b) := by
  unfold W8
  rw [Function.update_of_ne (StableHlo.devRef_ne_of_ne h1), Function.update_of_ne (StableHlo.devRef_ne_of_ne h0)]

theorem W10_out (c : Dev nD) : W10 m c (Proc.devRef .tc main_v32) = (dat3 (V9 m) c).arrAt 5 cfg3.N := by
  unfold W10; exact Function.update_self ..
theorem W10_of_ne (c : Dev nD) (b : Ref sig .tc) (hb : b ≠ main_v32) : W10 m c (Proc.devRef .tc b) = W9 m c (Proc.devRef .tc b) := by
  unfold W10; exact Function.update_of_ne (StableHlo.devRef_ne_of_ne hb) _ _

end Cert.Kernel.Hand

end
-- ==== Proof.BitsRun.lean ====
/-
  The run of the whole program: four pipelined kernel regions among stretches of host operations.
  The contents of every unscoped buffer are followed from the launch to the return: a host stretch applies its
  operations, a region leaves its input arrays as they were and each output array at what its write-backs make of it.
  Region 1 reads one array through two windows: that array is held in two half shares while the region runs.
  At the return every unscoped buffer holds the last contents so computed.
-/
import proofs.«133161_j49383533969583_1_alg».proof.Proof.BitsFold
import proofs.«133161_j49383533969583_1_alg».proof.Proof.Gen.Kernel.Launch
import proofs.«133161_j49383533969583_1_alg».proof.Proof.Gen.Kernel.Skeleton
import proofs.«133161_j49383533969583_1_alg».proof.Proof.Gen.Kernel.Points
import proofs.«133161_j49383533969583_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- At region 0's exit each of its arrays holds what the pipeline leaves, every other buffer what it held. -/
theorem hF0 (c : Dev nD) (w : Fin cfg0.W) : (dat0 (V3 m) c).arrAt w cfg0.N = V4 m c (Pipeline.arrRef spec0 w) := by
  fin_cases w
  · exact (((dat0 (V3 m) c).arrAt_in 0 rfl _).trans (A_eq0 (V3 m) c 0)).trans (W4_of_ne m c main_arg0 (by decide)).symm
  · exact (((dat0 (V3 m) c).arrAt_in 1 rfl _).trans (A_eq0 (V3 m) c 1)).trans (W4_of_ne m c main_v7 (by decide)).symm
  · exact (W4_out m c).symm
theorem hrest0 (c : Dev nD) : ∀ b, b ∉ Finset.univ.image (Pipeline.arrRef spec0) → V4 m c b = V3 m c b :=
  fun b hb => W4_of_ne m c b fun h => hb (h ▸ Finset.mem_image.mpr ⟨2, Finset.mem_univ _, rfl⟩)

theorem hF2 (c : Dev nD) (w : Fin cfg2.W) : (dat2 (V7 m) c).arrAt w cfg2.N = V8 m c (Pipeline.arrRef spec2 w) := by
  fin_cases w
  · exact (((dat2 (V7 m) c).arrAt_in 0 rfl _).trans (A_eq2 (V7 m) c 0)).trans (W8_of_ne m c main_v29 (by decide) (by decide)).symm
  · exact (((dat2 (V7 m) c).arrAt_in 1 rfl _).trans (A_eq2 (V7 m) c 1)).trans (W8_of_ne m c main_v7 (by decide) (by decide)).symm
  · exact (((dat2 (V7 m) c).arrAt_in 2 rfl _).trans (A_eq2 (V7 m) c 2)).trans (W8_of_ne m c main_v19_0 (by decide) (by decide)).symm
  · exact (((dat2 (V7 m) c).arrAt_in 3 rfl _).trans (A_eq2 (V7 m) c 3)).trans (W8_of_ne m c main_arg0 (by decide) (by decide)).symm
  · exact (W8_out0 m c).symm
  · exact (W8_out1 m c).symm
theorem hrest2 (c : Dev nD) : ∀ b, b ∉ Finset.univ.image (Pipeline.arrRef spec2) → V8 m c b = V7 m c b :=
  fun b hb => W8_of_ne m c b (fun h => hb (h ▸ Finset.mem_image.mpr ⟨4, Finset.mem_univ _, rfl⟩))
    (fun h => hb (h ▸ Finset.mem_image.mpr ⟨5, Finset.mem_univ _, rfl⟩))

theorem hF3 (c : Dev nD) (w : Fin cfg3.W) : (dat3 (V9 m) c).arrAt w cfg3.N = V10 m c (Pipeline.arrRef spec3 w) := by
  fin_cases w
  · exact (((dat3 (V9 m) c).arrAt_in 0 rfl _).trans (A_eq3 (V9 m) c 0)).trans (W10_of_ne m c main_arg0 (by decide)).symm
  · exact (((dat3 (V9 m) c).arrAt_in 1 rfl _).trans (A_eq3 (V9 m) c 1)).trans (W10_of_ne m c main_v19_0 (by decide)).symm
  · exact (((dat3 (V9 m) c).arrAt_in 2 rfl _).trans (A_eq3 (V9 m) c 2)).trans (W10_of_ne m c main_v30_0 (by decide)).symm
  · exact (((dat3 (V9 m) c).arrAt_in 3 rfl _).trans (A_eq3 (V9 m) c 3)).trans (W10_of_ne m c main_arg3 (by decide)).symm
  · exact (((dat3 (V9 m) c).arrAt_in 4 rfl _).trans (A_eq3 (V9 m) c 4)).trans (W10_of_ne m c main_v31 (by decide)).symm
  · exact (W10_out m c).symm
theorem hrest3 (c : Dev nD) : ∀ b, b ∉ Finset.univ.image (Pipeline.arrRef spec3) → V10 m c b = V9 m c b :=
  fun b hb => W10_of_ne m c b fun h => hb (h ▸ Finset.mem_image.mpr ⟨5, Finset.mem_univ _, rfl⟩)

/-- Region 1: what its windows' arrays hold at the exit, window by window (the two windows on one table agree). -/
theorem hF1 (c : Dev nD) (w : Fin cfg1.W) : (dat1 (V5 m) c).arrAt w cfg1.N = V6 m c (Pipeline.arrRef spec1 w) := by
  fin_cases w
  · exact (((dat1 (V5 m) c).arrAt_in 0 rfl _).trans (A_eq1 (V5 m) c 0)).trans (W6_of_ne m c main_v18 (by decide) (by decide)).symm
  · exact (((dat1 (V5 m) c).arrAt_in 1 rfl _).trans (A_eq1 (V5 m) c 1)).trans (W6_of_ne m c main_v7 (by decide) (by decide)).symm
  · exact (((dat1 (V5 m) c).arrAt_in 2 rfl _).trans (A_eq1 (V5 m) c 2)).trans (W6_of_ne m c main_arg0 (by decide) (by decide)).symm
  · exact (((dat1 (V5 m) c).arrAt_in 3 rfl _).trans (A_eq1 (V5 m) c 3)).trans (W6_of_ne m c main_arg0 (by decide) (by decide)).symm
  · exact (W6_out0 m c).symm
  · exact (W6_out1 m c).symm
theorem hrest1 (c : Dev nD) : ∀ b, b ∉ Finset.univ.image (Pipeline.arrRef spec1) → V6 m c b = V5 m c b :=
  fun b hb => W6_of_ne m c b (fun h => hb (h ▸ Finset.mem_image.mpr ⟨4, Finset.mem_univ _, rfl⟩))
    (fun h => hb (h ▸ Finset.mem_image.mpr ⟨5, Finset.mem_univ _, rfl⟩))

/-! ## The proof data family and the thread state -/

/-- Every pipeline's proof data, each at its region's entry contents. -/
def pdats : (p : Fin 4) → (c : Dev nD) → Dat τ (Elt F) Unit ℕ (UR sig nD τ) ℕ (Pipeline.pin (pcfgs (F := F)) Gen.adm p) c
  | ⟨0, _⟩ => fun c => dat0 (V3 m) c
  | ⟨1, _⟩ => fun c => dat1 (V5 m) c
  | ⟨2, _⟩ => fun c => dat2 (V7 m) c
  | ⟨3, _⟩ => fun c => dat3 (V9 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last contents, the generator register at some state. -/
abbrev Tₙ (c : Dev nD) : sProp 𝕄 := iprop(StableHlo.held (c : Thread nD τ) (Pipeline.ucRefs τ sig) (W10 m c) ∗ ∃ r, prngReg c r)

/-! ## The regions as segments -/

set_option backward.isDefEq.respectTransparency.types false in
/-- Region 0 over the thread state: entered from every unscoped buffer at its entry contents, left at its exit contents.
    Its arrays are taken out of the unscoped buffers and put back at the exit contents; the generator register goes into
    the region invariant and comes back; nothing is owed; the kernel has no semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1: one array behind two windows -/

/-- The five distinct buffers behind region 1's six windows. -/
theorem arrRefs1 : Finset.univ.image (Pipeline.arrRef spec1)
    = ([main_v18, main_v7, main_arg0, main_v19_0, main_v19_1] : List (Ref sig .tc)).toFinset := by decide

section Shares
variable (Vd : (c : Dev nD) → (b : Ref sig .tc) → Buf (Elt F) ((c : Thread nD τ).loc b)) (c : Dev nD)
theorem share1_0 : (dat1 Vd c).share 0 = fullShare := by unfold Dat.share; rw [if_neg (by decide)]; dsimp only [dat1]
theorem share1_1 : (dat1 Vd c).share 1 = fullShare := by unfold Dat.share; rw [if_neg (by decide)]; dsimp only [dat1]
theorem share1_2 : (dat1 Vd c).share 2 = fullShare.left := by unfold Dat.share; rw [if_neg (by decide)]; dsimp only [dat1]
theorem share1_3 : (dat1 Vd c).share 3 = fullShare.right := by unfold Dat.share; rw [if_neg (by decide)]; dsimp only [dat1]
theorem share1_4 : (dat1 Vd c).share 4 = fullShare := by unfold Dat.share; rw [if_pos (by decide)]
theorem share1_5 : (dat1 Vd c).share 5 = fullShare := by unfold Dat.share; rw [if_pos (by decide)]
end Shares

/-- Region 1's six arrays as points-to facts on the five buffers, the table read through two windows in two halves. -/
theorem arrays1_eq (c : Dev nD) (Vd : (c : Dev nD) → (b : Ref sig .tc) → Buf (Elt F) ((c : Thread nD τ).loc b))
    (Vx : (b : Ref sig .tc) → Buf (Elt F) ((c : Thread nD τ).loc b)) :
    ((dat1 Vd c).arrays (fun w => Vx (Pipeline.arrRef spec1 w)) : sProp 𝕄)
      = iprop((((c : Thread nD τ).loc main_v18) ↦{fullShare} Vx main_v18) ∗ (((c : Thread nD τ).loc main_v7) ↦{fullShare} Vx main_v7)
        ∗ (((c : Thread nD τ).loc main_arg0) ↦{fullShare.left} Vx main_arg0) ∗ (((c : Thread nD τ).loc main_arg0) ↦{fullShare.right} Vx main_arg0)
        ∗ (((c : Thread nD τ).loc main_v19_0) ↦{fullShare} Vx main_v19_0) ∗ (((c : Thread nD τ).loc main_v19_1) ↦{fullShare} Vx main_v19_1)) := by
  unfold Dat.arrays
  rw [bigSep_W1, share1_0, share1_1, share1_2, share1_3, share1_4, share1_5]
  simp only [View.set_whole]

/-- The five buffers behind region 1's windows, one by one. -/
theorem arrBufs1_eq (c : Dev nD) (Vx : (b : Ref sig .tc) → Buf (Elt F) ((c : Thread nD τ).loc b)) :
    (Pipeline.arrBufs (Ix := Unit) (Name := ℕ) (U := UR sig nD τ) (Lvl := ℕ) spec1 c Vx : sProp 𝕄)
      = iprop((((c : Thread nD τ).loc main_v18) ↦{fullShare} Vx main_v18) ∗ (((c : Thread nD τ).loc main_v7) ↦{fullShare} Vx main_v7)
        ∗ (((c : Thread nD τ).loc main_arg0) ↦{fullShare} Vx main_arg0)
        ∗ (((c : Thread nD τ).loc main_v19_0) ↦{fullShare} Vx main_v19_0) ∗ (((c : Thread nD τ).loc main_v19_1) ↦{fullShare} Vx main_v19_1)) := by
  unfold Pipeline.arrBufs
  rw [bigSep_eq_bigSepL_of_eq _ arrRefs1 (by decide)]
  simp only [bigSepL_cons_cons, bigSepL_singleton]
  rfl

/-- Entering region 1: every unscoped buffer held whole gives the region's arrays (the twice-read table in two halves)
    and the rest. -/
theorem enter1 (c : Dev nD) :
    (StableHlo.held (c : Thread nD τ) (Pipeline.ucRefs τ sig) (W5 m c) : sProp 𝕄)
      ⊢ iprop((dat1 (V5 m) c).arrays ((dat1 (V5 m) c).arrAt · 0)
          ∗ Pipeline.unscopedRest (Ix := Unit) (Name := ℕ) (U := UR sig nD τ) (Lvl := ℕ) spec1 c (V5 m c)) := by
  have hs : (unscopedBufs c (V5 m c) : sProp 𝕄) = iprop(Pipeline.arrBufs spec1 c (V5 m c) ∗ Pipeline.unscopedRest spec1 c (V5 m c)) :=
    Pipeline.unscopedBufs_split₀ cfgs 1 winFacts₀1.arr_unscoped c (V5 m c)
  rw [← Pipeline.unscopedBufs_held (Ix := Unit) (Name := ℕ) (U := UR sig nD τ) (Lvl := ℕ) c (W5 m c), hs,
    show ((dat1 (V5 m) c).arrAt · 0) = fun w => V5 m c (Pipeline.arrRef spec1 w) from funext fun w => A_eq1 (V5 m) c w,
    arrays1_eq c (V5 m) (V5 m c), arrBufs1_eq c (V5 m c)]
  iintro ⟨⟨H0, H1, H2, H3, H4⟩, Hrest⟩
  ihave H2' := (pointsTo_share (PosShare.mem_left_op_right fullShare)).1 $$ H2
  icases H2' with ⟨H2a, H2b⟩
  isplitr [Hrest]
  · isplitl [H0]; · iexact H0
    isplitl [H1]; · iexact H1
    isplitl [H2a]; · iexact H2a
    isplitl [H2b]; · iexact H2b
    isplitl [H3]; · iexact H3
    iexact H4
  iexact Hrest

/-- Leaving region 1: the arrays at their final contents (the two halves of the twice-read table rejoined) and the rest
    are every unscoped buffer at the exit contents. -/
theorem leave1 (c : Dev nD) :
    iprop((dat1 (V5 m) c).arrays ((dat1 (V5 m) c).arrAt · cfg1.N)
        ∗ Pipeline.unscopedRest (Ix := Unit) (Name := ℕ) (U := UR sig nD τ) (Lvl := ℕ) spec1 c (V5 m c))
      ⊢ (StableHlo.held (c : Thread nD τ) (Pipeline.ucRefs τ sig) (W6 m c) : sProp 𝕄) := by
  have hrest : (Pipeline.unscopedRest (Ix := Unit) (Name := ℕ) (U := UR sig nD τ) (Lvl := ℕ) spec1 c (V5 m c) : sProp 𝕄)
      = Pipeline.unscopedRest spec1 c (V6 m c) := by
    unfold Pipeline.unscopedRest
    exact bigSep_congr fun b hb => by rw [hrest1 m c b (Finset.mem_sdiff.mp hb).2]
  have hs : (unscopedBufs c (V6 m c) : sProp 𝕄) = iprop(Pipeline.arrBufs spec1 c (V6 m c) ∗ Pipeline.unscopedRest spec1 c (V6 m c)) :=
    Pipeline.unscopedBufs_split₀ cfgs 1 winFacts₀1.arr_unscoped c (V6 m c)
  rw [← Pipeline.unscopedBufs_held (Ix := Unit) (Name := ℕ) (U := UR sig nD τ) (Lvl := ℕ) c (W6 m c), hs,
    show ((dat1 (V5 m) c).arrAt · cfg1.N) = fun w => V6 m c (Pipeline.arrRef spec1 w) from funext fun w => hF1 m c w,
    arrays1_eq c (V5 m) (V6 m c), arrBufs1_eq c (V6 m c), hrest]
  iintro ⟨⟨H0, H1, H2a, H2b, H3, H4⟩, Hrest⟩
  ihave H2 := (pointsTo_share (PosShare.mem_left_op_right fullShare)).2 $$ [H2a H2b]
  · isplitl [H2a]; · iexact H2a
    iexact H2b
  isplitr [Hrest]
  · isplitl [H0]; · iexact H0
    isplitl [H1]; · iexact H1
    isplitl [H2]; · iexact H2
    isplitl [H3]; · iexact H3
    iexact H4
  iexact Hrest

set_option backward.isDefEq.respectTransparency.types false in
/-- Region 1 over the thread state. One table is read through two windows, so its buffer is held in two halves while the
    region runs; otherwise as the other regions. -/
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    iintro ⟨⟨Hub, Hp, HO⟩, -, -⟩
    ihave H := (enter1 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (leave1 m c)
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at its entry contents, left at its exit contents.
    Its arrays are taken out of the unscoped buffers and put back at the exit contents; the generator register goes into
    the region invariant and comes back; nothing is owed; the kernel has no semaphore of its own. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (V7 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (V7 m c) (V8 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at its entry contents, left at its exit contents.
    Its arrays are taken out of the unscoped buffers and put back at the exit contents; the generator register goes into
    the region invariant and comes back; nothing is owed; the kernel has no semaphore of its own. -/
def reg3 : Pipeline.RegionSeg (pcfgs (F := F)) Gen.adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V9 m) c).loose
  hwaits := Pipeline.hwaits_of_owed_zero _ _ _ _ L lv 3 fun _ _ => rfl
  pre c := iprop(StableHlo.held (c : Thread nD τ) (Pipeline.ucRefs τ sig) (W9 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V9 m c)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (V9 m c) (V10 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's ten items in order: a host segment per stretch from its boundary's contents, a region per kernel call. -/
abbrev segs : List (Pipeline.Seg (pcfgs (F := F)) Gen.adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m),
    .host (hseg hostOps3 hostOps3_sub hostOps3_fresh (W8 m)),
    .region (reg3 m) ]
/-- The program is the run of its segments. -/
theorem main_run (c : Dev nD) : main (F := F) c = Pipeline.Seg.run (segs m) := by
  rw [main_chain c, Pipeline.Seg.run_eq_chain]
  rfl

set_option backward.isDefEq.respectTransparency.types false in
/-- Every weakly fair execution of the program from memory `m` with zero counters terminates, nothing faulting, and at
    the end every unscoped buffer holds the last contents of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) Gen.adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

end Cert.Kernel.Hand

end
-- ==== Proof.BitsKept.lean ====
/-
  No item of the program writes an argument: each argument's buffer holds at the return what it held at launch.

  A host stretch changes only the buffers its operations write, and a kernel region only its output arrays. A buffer
  that is in none of the host stretches' written lists and is no region's output is therefore carried unchanged across
  every boundary, from the launch to the return; the five arguments are such buffers.
-/
import proofs.«133161_j49383533969583_1_alg».proof.Proof.BitsFold

noncomputable section

namespace Cert.Kernel.Hand

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ)

/-- A buffer that no host stretch writes and that is no region's output holds at the return what it held at launch:
    boundary by boundary, a region's exit keeps every buffer but its outputs, and a host stretch keeps every buffer
    outside its written list. -/
theorem W10_of_unwritten (c : Dev nD) (r : Ref sig .tc)
    (h0 : r ∉ hostOps0_W) (h1 : r ∉ hostOps0_1_W) (h2 : r ∉ hostOps0_2_W)
    (hr0 : r ≠ main_v8)
    (h4 : r ∉ hostOps1_W)
    (hr1a : r ≠ main_v19_0) (hr1b : r ≠ main_v19_1)
    (h6 : r ∉ hostOps2_W)
    (hr2a : r ≠ main_v30_0) (hr2b : r ≠ main_v30_1)
    (h8 : r ∉ hostOps3_W)
    (hr3 : r ≠ main_v32) :
    W10 m c (Proc.devRef .tc r) = m ((c : Thread nD τ).loc r) :=
  (W10_of_ne m c r hr3).trans <|
  (StableHlo.after_of_writes_sub hostOps3 _ hostOps3_writes h8).trans <|
  (W8_of_ne m c r hr2a hr2b).trans <|
  (StableHlo.after_of_writes_sub hostOps2 _ hostOps2_writes h6).trans <|
  (W6_of_ne m c r hr1a hr1b).trans <|
  (StableHlo.after_of_writes_sub hostOps1 _ hostOps1_writes h4).trans <|
  (W4_of_ne m c r hr0).trans <|
  (StableHlo.after_of_writes_sub hostOps0_2 _ hostOps0_2_writes h2).trans <|
  (StableHlo.after_of_writes_sub hostOps0_1 _ hostOps0_1_writes h1).trans <|
  (StableHlo.after_of_writes_sub hostOps0 _ hostOps0_writes h0).trans rfl

/-- The node table is as launched. -/
theorem W10_main_arg0 (m : (ℓ : Loc nD τ sig) → Buf (Elt F) ℓ) (c : Dev nD) :
    W10 m c (Proc.devRef .tc main_arg0) = m ((c : Thread nD τ).loc main_arg0) :=
  W10_of_unwritten m c main_arg0 (by decide) (by decide) (by decide) (by decide) (by decide) (by decide) (by decide)
    (by decide) (by decide) (by decide) (by decide) (by decide)

/-- The source nodes of the edges are as launched. -/
theorem W10_main_arg1 (m : (ℓ : Loc nD τ sig) → Buf (Elt F) ℓ) (c : Dev nD) :
    W10 m c (Proc.devRef .tc main_arg1) = m ((c : Thread nD τ).loc main_arg1) :=
  W10_of_unwritten m c main_arg1 (by decide) (by decide) (by decide) (by decide) (by decide) (by decide) (by decide)
    (by decide) (by decide) (by decide) (by decide) (by decide)

/-- The destination nodes of the edges are as launched. -/
theorem W10_main_arg2 (m : (ℓ : Loc nD τ sig) → Buf (Elt F) ℓ) (c : Dev nD) :
    W10 m c (Proc.devRef .tc main_arg2) = m ((c : Thread nD τ).loc main_arg2) :=
  W10_of_unwritten m c main_arg2 (by decide) (by decide) (by decide) (by decide) (by decide) (by decide) (by decide)
    (by decide) (by decide) (by decide) (by decide) (by decide)

/-- The weight table is as launched. -/
theorem W10_main_arg3 (m : (ℓ : Loc nD τ sig) → Buf (Elt F) ℓ) (c : Dev nD) :
    W10 m c (Proc.devRef .tc main_arg3) = m ((c : Thread nD τ).loc main_arg3) :=
  W10_of_unwritten m c main_arg3 (by decide) (by decide) (by decide) (by decide) (by decide) (by decide) (by decide)
    (by decide) (by decide) (by decide) (by decide) (by decide)

/-- The bias vector is as launched. -/
theorem W10_main_arg4 (m : (ℓ : Loc nD τ sig) → Buf (Elt F) ℓ) (c : Dev nD) :
    W10 m c (Proc.devRef .tc main_arg4) = m ((c : Thread nD τ).loc main_arg4) :=
  W10_of_unwritten m c main_arg4 (by decide) (by decide) (by decide) (by decide) (by decide) (by decide) (by decide)
    (by decide) (by decide) (by decide) (by decide) (by decide)

end Cert.Kernel.Hand

end
-- ==== Proof.lean ====
/- The proof of `Cert.Claim`: the order-three Chebyshev graph convolution as four pipelined kernel regions among host
   operations (the scale y = x · d, two steps of the recursion, the rectified dense layer) against its host reference.
   Frames: each program's buffers are followed from the launch memory through @main's items — a host stretch
   computes its results, a region leaves each output array at what its ten write-backs put there — and no item
   writes an argument; one text serves the program as printed and its reading over the extended reals. Value, over the
   extended reals: each region's output arrays are whole-array functions of the arrays it finds (the scale, the
   Chebyshev step, the dense layer of the specification), so the kernel's result is the specification's layer at the
   aggregation and degree column the host operations compute; the reference's composed term is the same layer. -/
import proofs.«133161_j49383533969583_1_alg».proof.Defs
import proofs.«133161_j49383533969583_1_alg».proof.Proof.Gen.Kernel
import proofs.«133161_j49383533969583_1_alg».proof.Proof.Gen.KernelIdeal
import proofs.«133161_j49383533969583_1_alg».proof.Proof.Gen.ReferenceIdeal
import proofs.«133161_j49383533969583_1_alg».proof.Proof.Gen.Pre_finite_inputs
import proofs.«133161_j49383533969583_1_alg».proof.Proof.Gen.ReferenceIdeal.Run
import proofs.«133161_j49383533969583_1_alg».proof.Proof.Run
import proofs.«133161_j49383533969583_1_alg».proof.Proof.Kept
import proofs.«133161_j49383533969583_1_alg».proof.Proof.KernelValue
import proofs.«133161_j49383533969583_1_alg».proof.Proof.RefValue
import proofs.«133161_j49383533969583_1_alg».proof.Proof.BitsRun
import proofs.«133161_j49383533969583_1_alg».proof.Proof.BitsKept
import Idealize.ShloMosaic.Adequacy
import Idealize.ShloMosaic.Init

noncomputable section

namespace Cert.Proof

open Idealize.ShloMosaic Idealize.SL.Sem

/-- The program as printed runs from any memory, and each of its five argument arrays ends as launched: every unscoped
    buffer ends at the last of the contents folded through @main's items, and no item writes an argument. -/
theorem frame_p : Cert.frame_Kernel := fun m ρ _ =>
  (θ_run (Cert.Kernel.defs (F := Bits)) _ _).mono (fun r h c =>
    ⟨(h c _ (Cert.Kernel.Hand.mem_uc Cert.Kernel.main_arg0 (by decide))).trans (Cert.Kernel.Hand.W10_main_arg0 m c),
      (h c _ (Cert.Kernel.Hand.mem_uc Cert.Kernel.main_arg1 (by decide))).trans (Cert.Kernel.Hand.W10_main_arg1 m c),
      (h c _ (Cert.Kernel.Hand.mem_uc Cert.Kernel.main_arg2 (by decide))).trans (Cert.Kernel.Hand.W10_main_arg2 m c),
      (h c _ (Cert.Kernel.Hand.mem_uc Cert.Kernel.main_arg3 (by decide))).trans (Cert.Kernel.Hand.W10_main_arg3 m c),
      (h c _ (Cert.Kernel.Hand.mem_uc Cert.Kernel.main_arg4 (by decide))).trans (Cert.Kernel.Hand.W10_main_arg4 m c)⟩)
    (Cert.Kernel.Hand.run_all (F := Bits) m ρ)

/-- The same of the program read over the extended reals: the frame is one text at both float instances. -/
theorem frame_pi : Cert.frame_KernelIdeal := fun m ρ _ =>
  (θ_run (Cert.KernelIdeal.defs (F := Ideal)) _ _).mono (fun r h c =>
    ⟨(h c _ (Cert.KernelIdeal.Hand.mem_uc Cert.KernelIdeal.main_arg0 (by decide))).trans (Cert.KernelIdeal.Hand.W10_main_arg0 m c),
      (h c _ (Cert.KernelIdeal.Hand.mem_uc Cert.KernelIdeal.main_arg1 (by decide))).trans (Cert.KernelIdeal.Hand.W10_main_arg1 m c),
      (h c _ (Cert.KernelIdeal.Hand.mem_uc Cert.KernelIdeal.main_arg2 (by decide))).trans (Cert.KernelIdeal.Hand.W10_main_arg2 m c),
      (h c _ (Cert.KernelIdeal.Hand.mem_uc Cert.KernelIdeal.main_arg3 (by decide))).trans (Cert.KernelIdeal.Hand.W10_main_arg3 m c),
      (h c _ (Cert.KernelIdeal.Hand.mem_uc Cert.KernelIdeal.main_arg4 (by decide))).trans (Cert.KernelIdeal.Hand.W10_main_arg4 m c)⟩)
    (Cert.KernelIdeal.Hand.run_all (F := Ideal) m ρ)

/-- The reference is host operations only: its run ends with the arguments as launched. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel: there is nothing to preserve. -/
theorem preserves : Cert.preserves_Kernel_KernelIdeal := trivial

/-- Over the extended reals both programs end with the result array at the SAME function of the arguments: the
    Chebyshev layer of the specification at the edge aggregation and the degree column the host operations compute
    (the two programs spell those by the same operations). The kernel's side: the last contents of its result
    buffer, read through the four regions. The reference's side: its composed term. The arguments agree, so the two
    functions are applied to equal arrays. -/
theorem algebraic : Cert.algebraic_KernelIdeal_ReferenceIdeal := by
  intro m ρ m' ρ' _ hagree
  refine ⟨fun c => Cert.Cheb.layer
      (Cert.KernelIdeal.HandValue.aggK (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
      (Cert.KernelIdeal.HandValue.degK (m ((c.tc : Thread Cert.KernelIdeal.nD Cert.KernelIdeal.τ).loc Cert.KernelIdeal.main_arg2)))
      (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (Cert.Cheb.row (m ((c.tc : Thread Cert.KernelIdeal.nD Cert.KernelIdeal.τ).loc Cert.KernelIdeal.main_arg4))), ?_, ?_⟩
  · exact (θ_run (Cert.KernelIdeal.defs (F := Ideal)) _ _).mono (fun r h c =>
      ⟨(h c _ (Cert.KernelIdeal.Hand.mem_uc Cert.KernelIdeal.main_v32 (by decide))).trans (Cert.KernelIdeal.HandValue.result_eq m c),
        (h c _ (Cert.KernelIdeal.Hand.mem_uc Cert.KernelIdeal.main_arg0 (by decide))).trans (Cert.KernelIdeal.Hand.W10_main_arg0 m c),
        (h c _ (Cert.KernelIdeal.Hand.mem_uc Cert.KernelIdeal.main_arg1 (by decide))).trans (Cert.KernelIdeal.Hand.W10_main_arg1 m c),
        (h c _ (Cert.KernelIdeal.Hand.mem_uc Cert.KernelIdeal.main_arg2 (by decide))).trans (Cert.KernelIdeal.Hand.W10_main_arg2 m c),
        (h c _ (Cert.KernelIdeal.Hand.mem_uc Cert.KernelIdeal.main_arg3 (by decide))).trans (Cert.KernelIdeal.Hand.W10_main_arg3 m c),
        (h c _ (Cert.KernelIdeal.Hand.mem_uc Cert.KernelIdeal.main_arg4 (by decide))).trans (Cert.KernelIdeal.Hand.W10_main_arg4 m c)⟩)
      (Cert.KernelIdeal.Hand.run_all (F := Ideal) m ρ)
  · refine (θ_run Cert.ReferenceIdeal.defs _ _).mono (fun _ h c =>
      ⟨(h c).1.trans ((Cert.ReferenceIdeal.RefValue.res_eq m' c).trans ?_), (h c).2⟩)
      (Cert.ReferenceIdeal.Value.run (F := Ideal) m' ρ')
    obtain ⟨e0, e1, e2, e3, e4⟩ := hagree c
    rw [e0, e1, e2, e3, e4]
    rfl

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
